-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S4x4096 : Shape := ⟨2, ![4, 4096]⟩
abbrev S2048x5632 : Shape := ⟨2, ![2048, 5632]⟩
abbrev S5632x2048 : Shape := ⟨2, ![5632, 2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x5632 : S_.BroadcastsInDim S2048x5632 (![] : Fin 0 → Fin S2048x5632.rank)
  reducesTo_S2048x5632_S_d0_1 : S2048x5632.ReducesTo [0, 1] S_
  bcast_S_S5632x2048 : S_.BroadcastsInDim S5632x2048 (![] : Fin 0 → Fin S5632x2048.rank)
  reducesTo_S5632x2048_S_d0_1 : S5632x2048.ReducesTo [0, 1] S_

variable [Facts]

def fn_part1 {F : FTy → Type} [FloatOps F] (main_arg5 : FVec F S2048x5632 .f32) (main_arg6 : FVec F S2048x5632 .f32) (main_arg7 : FVec F S5632x2048 .f32) (main_v13 : IVec S_ 1) (main_v16 : IVec S5632x2048 1) : IVec S_ 1 :=
  let main_c_5 : IVec S_ 1 := constantI S_ 1 1#1
  let main_v17 : IVec S_ 1 := (fun x v => Host.reduce IntOp.andi x v reducesTo_S5632x2048_S_d0_1 h_S_) main_v16 main_c_5
  let main_v18 : IVec S_ 1 := andi main_v13 main_v17
  let main_v19 : FVec F S2048x5632 .f32 := Host.absf main_arg5
  let main_cst_6 : FVec F S_ .f32 := constant S_ .f32 0x7F800000#32
  let main_v20 : FVec F S2048x5632 .f32 := broadcastInDim S2048x5632 ![] bcast_S_S2048x5632 main_cst_6
  let main_v21 : IVec S2048x5632 1 := cmpf .olt main_v19 main_v20
  let main_c_7 : IVec S_ 1 := constantI S_ 1 1#1
  let main_v22 : IVec S_ 1 := (fun x v => Host.reduce IntOp.andi x v reducesTo_S2048x5632_S_d0_1 h_S_) main_v21 main_c_7
  let main_v23 : IVec S_ 1 := andi main_v18 main_v22
  let main_v24 : FVec F S2048x5632 .f32 := Host.absf main_arg6
  let main_cst_8 : FVec F S_ .f32 := constant S_ .f32 0x7F800000#32
  let main_v25 : FVec F S2048x5632 .f32 := broadcastInDim S2048x5632 ![] bcast_S_S2048x5632 main_cst_8
  let main_v26 : IVec S2048x5632 1 := cmpf .olt main_v24 main_v25
  let main_c_9 : IVec S_ 1 := constantI S_ 1 1#1
  let main_v27 : IVec S_ 1 := (fun x v => Host.reduce IntOp.andi x v reducesTo_S2048x5632_S_d0_1 h_S_) main_v26 main_c_9
  let main_v28 : IVec S_ 1 := andi main_v23 main_v27
  let main_v29 : FVec F S5632x2048 .f32 := Host.absf main_arg7
  let main_cst_10 : FVec F S_ .f32 := constant S_ .f32 0x7F800000#32
  let main_v30 : FVec F S5632x2048 .f32 := broadcastInDim S5632x2048 ![] bcast_S_S5632x2048 main_cst_10
  let main_v31 : IVec S5632x2048 1 := cmpf .olt main_v29 main_v30
  let main_c_11 : IVec S_ 1 := constantI S_ 1 1#1
  let main_v32 : IVec S_ 1 := (fun x v => Host.reduce IntOp.andi x v reducesTo_S5632x2048_S_d0_1 h_S_) main_v31 main_c_11
  let main_v33 : IVec S_ 1 := andi main_v28 main_v32
  main_v33

def fn {F : FTy → Type} [FloatOps F] (main_arg0 : FVec F S4x4096x2048 .f32) (main_arg1 : IVec S4x4096 1) (main_arg2 : FVec F S2048x5632 .f32) (main_arg3 : FVec F S2048x5632 .f32) (main_arg4 : FVec F S5632x2048 .f32) (main_arg5 : FVec F S2048x5632 .f32) (main_arg6 : FVec F S2048x5632 .f32) (main_arg7 : FVec F S5632x2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x5632 .f32 := Host.absf main_arg2
  let main_cst_0 : FVec F S_ .f32 := constant S_ .f32 0x7F800000#32
  let main_v5 : FVec F S2048x5632 .f32 := broadcastInDim S2048x5632 ![] bcast_S_S2048x5632 main_cst_0
  let main_v6 : IVec S2048x5632 1 := cmpf .olt main_v4 main_v5
  let main_c_1 : IVec S_ 1 := constantI S_ 1 1#1
  let main_v7 : IVec S_ 1 := (fun x v => Host.reduce IntOp.andi x v reducesTo_S2048x5632_S_d0_1 h_S_) main_v6 main_c_1
  let main_v8 : IVec S_ 1 := andi main_v3 main_v7
  let main_v9 : FVec F S2048x5632 .f32 := Host.absf main_arg3
  let main_cst_2 : FVec F S_ .f32 := constant S_ .f32 0x7F800000#32
  let main_v10 : FVec F S2048x5632 .f32 := broadcastInDim S2048x5632 ![] bcast_S_S2048x5632 main_cst_2
  let main_v11 : IVec S2048x5632 1 := cmpf .olt main_v9 main_v10
  let main_c_3 : IVec S_ 1 := constantI S_ 1 1#1
  let main_v12 : IVec S_ 1 := (fun x v => Host.reduce IntOp.andi x v reducesTo_S2048x5632_S_d0_1 h_S_) main_v11 main_c_3
  let main_v13 : IVec S_ 1 := andi main_v8 main_v12
  let main_v14 : FVec F S5632x2048 .f32 := Host.absf main_arg4
  let main_cst_4 : FVec F S_ .f32 := constant S_ .f32 0x7F800000#32
  let main_v15 : FVec F S5632x2048 .f32 := broadcastInDim S5632x2048 ![] bcast_S_S5632x2048 main_cst_4
  let main_v16 : IVec S5632x2048 1 := cmpf .olt main_v14 main_v15
  fn_part1 (F := F) main_arg5 main_arg6 main_arg7 main_v13 main_v16
-- ==== Kernel.lean ====
abbrev S4x4096x2048 : Shape := ⟨3, ![4, 4096, 2048]⟩
abbrev S4x4096 : Shape := ⟨2, ![4, 4096]⟩
abbrev S2048x5632 : Shape := ⟨2, ![2048, 5632]⟩
abbrev S5632x2048 : Shape := ⟨2, ![5632, 2048]⟩
abbrev S16384x2048 : Shape := ⟨2, ![16384, 2048]⟩
abbrev S16384 : Shape := ⟨1, ![16384]⟩
abbrev S_ : Shape := ⟨0, ![]⟩
abbrev S34 : Shape := ⟨1, ![34]⟩
abbrev S17408x2048 : Shape := ⟨2, ![17408, 2048]⟩
abbrev S16384x1 : Shape := ⟨2, ![16384, 1]⟩
abbrev S1x2048x5632 : Shape := ⟨3, ![1, 2048, 5632]⟩
abbrev S2x2048x5632 : Shape := ⟨3, ![2, 2048, 5632]⟩
abbrev S1x5632x2048 : Shape := ⟨3, ![1, 5632, 2048]⟩
abbrev S2x5632x2048 : Shape := ⟨3, ![2, 5632, 2048]⟩
abbrev S512x2048 : Shape := ⟨2, ![512, 2048]⟩
abbrev S1x2048x256 : Shape := ⟨3, ![1, 2048, 256]⟩
abbrev S1 : Shape := ⟨1, ![1]⟩
abbrev S1x256x2048 : Shape := ⟨3, ![1, 256, 2048]⟩
abbrev S2048x256 : Shape := ⟨2, ![2048, 256]⟩
abbrev S512x256 : Shape := ⟨2, ![512, 256]⟩
abbrev S256x2048 : Shape := ⟨2, ![256, 2048]⟩

abbrev nBuf : Space → Nat
  | .hbm => 118
  | .vmem => 10
  | .smem => 1
  | _ => 0

abbrev bufTy : (tb : Table) → Fin (tcTables nBuf tb) → BufTy
  | .hbm, ⟨0, _⟩ => ⟨S4x4096x2048, .f32⟩
  | .hbm, ⟨1, _⟩ => ⟨S4x4096, .i1⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S16384x2048, .f32⟩
  | .hbm, ⟨9, _⟩ => ⟨S16384, .i1⟩
  | .hbm, ⟨10, _⟩ => ⟨S16384, .i32⟩
  | .hbm, ⟨11, _⟩ => ⟨S_, .i32⟩
  | .hbm, ⟨12, _⟩ => ⟨S16384, .i32⟩
  | .hbm, ⟨13, _⟩ => ⟨S16384, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S16384, .i32⟩
  | .hbm, ⟨21, _⟩ => ⟨S16384, .i32⟩
  | .hbm, ⟨22, _⟩ => ⟨S_, .i32⟩
  | .hbm, ⟨23, _⟩ => ⟨S_, .i32⟩
  | .hbm, ⟨24, _⟩ => ⟨S16384, .i32⟩
  | .hbm, ⟨25, _⟩ => ⟨S16384, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S_, .i1⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i1⟩
  | .hbm, ⟨55, _⟩ => ⟨S_, .i32⟩
  | .hbm, ⟨56, _⟩ => ⟨S_, .i32⟩
  | .hbm, ⟨57, _⟩ => ⟨S_, .i1⟩
  | .hbm, ⟨58, _⟩ => ⟨S_, .i1⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S16384, .i32⟩
  | .hbm, ⟨65, _⟩ => ⟨S16384, .i32⟩
  | .hbm, ⟨66, _⟩ => ⟨S16384, .i32⟩
  | .hbm, ⟨67, _⟩ => ⟨S34, .i32⟩
  | .hbm, ⟨68, _⟩ => ⟨S_, .i32⟩
  | .hbm, ⟨69, _⟩ => ⟨S34, .i32⟩
  | .hbm, ⟨70, _⟩ => ⟨S34, .i32⟩
  | .hbm, ⟨71, _⟩ => ⟨S34, .i32⟩
  | .hbm, ⟨72, _⟩ => ⟨S34, .i1⟩
  | .hbm, ⟨73, _⟩ => ⟨S_, .i32⟩
  | .hbm, ⟨74, _⟩ => ⟨S34, .i32⟩
  | .hbm, ⟨75, _⟩ => ⟨S34, .i1⟩
  | .hbm, ⟨76, _⟩ => ⟨S_, .i32⟩
  | .hbm, ⟨77, _⟩ => ⟨S_, .i32⟩
  | .hbm, ⟨78, _⟩ => ⟨S34, .i32⟩
  | .hbm, ⟨79, _⟩ => ⟨S34, .i32⟩
  | .hbm, ⟨80, _⟩ => ⟨S34, .i32⟩
  | .hbm, ⟨81, _⟩ => ⟨S_, .i32⟩
  | .hbm, ⟨82, _⟩ => ⟨S34, .i32⟩
  | .hbm, ⟨83, _⟩ => ⟨S16384x2048, .bf16⟩
  | .hbm, ⟨84, _⟩ => ⟨S_, .bf16⟩
  | .hbm, ⟨85, _⟩ => ⟨S17408x2048, .bf16⟩
  | .hbm, ⟨86, _⟩ => ⟨S_, .i32⟩
  | .hbm, ⟨87, _⟩ => ⟨S16384, .i32⟩
  | .hbm, ⟨88, _⟩ => ⟨S16384, .i1⟩
  | .hbm, ⟨89, _⟩ => ⟨S_, .i32⟩
  | .hbm, ⟨90, _⟩ => ⟨S16384, .i32⟩
  | .hbm, ⟨91, _⟩ => ⟨S16384, .i32⟩
  | .hbm, ⟨92, _⟩ => ⟨S16384, .i32⟩
  | .hbm, ⟨93, _⟩ => ⟨S16384x1, .i32⟩
  | .hbm, ⟨94, _⟩ => ⟨S17408x2048, .bf16⟩
  | .hbm, ⟨95, _⟩ => ⟨S1x2048x5632, .f32⟩
  | .hbm, ⟨96, _⟩ => ⟨S1x2048x5632, .f32⟩
  | .hbm, ⟨97, _⟩ => ⟨S2x2048x5632, .f32⟩
  | .hbm, ⟨98, _⟩ => ⟨S2x2048x5632, .bf16⟩
  | .hbm, ⟨99, _⟩ => ⟨S1x2048x5632, .f32⟩
  | .hbm, ⟨100, _⟩ => ⟨S1x2048x5632, .f32⟩
  | .hbm, ⟨101, _⟩ => ⟨S2x2048x5632, .f32⟩
  | .hbm, ⟨102, _⟩ => ⟨S2x2048x5632, .bf16⟩
  | .hbm, ⟨103, _⟩ => ⟨S1x5632x2048, .f32⟩
  | .hbm, ⟨104, _⟩ => ⟨S1x5632x2048, .f32⟩
  | .hbm, ⟨105, _⟩ => ⟨S2x5632x2048, .f32⟩
  | .hbm, ⟨106, _⟩ => ⟨S2x5632x2048, .bf16⟩
  | .hbm, ⟨107, _⟩ => ⟨S17408x2048, .f32⟩
  | .hbm, ⟨108, _⟩ => ⟨S_, .i32⟩
  | .hbm, ⟨109, _⟩ => ⟨S16384, .i32⟩
  | .hbm, ⟨110, _⟩ => ⟨S16384, .i1⟩
  | .hbm, ⟨111, _⟩ => ⟨S_, .i32⟩
  | .hbm, ⟨112, _⟩ => ⟨S16384, .i32⟩
  | .hbm, ⟨113, _⟩ => ⟨S16384, .i32⟩
  | .hbm, ⟨114, _⟩ => ⟨S16384, .i32⟩
  | .hbm, ⟨115, _⟩ => ⟨S16384x1, .i32⟩
  | .hbm, ⟨116, _⟩ => ⟨S16384x2048, .f32⟩
  | .hbm, ⟨117, _⟩ => ⟨S4x4096x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x256x2048, .bf16⟩
  | .local _ .vmem, ⟨7, _⟩ => ⟨S1x256x2048, .bf16⟩
  | .local _ .vmem, ⟨8, _⟩ => ⟨S512x2048, .f32⟩
  | .local _ .vmem, ⟨9, _⟩ => ⟨S512x2048, .f32⟩
  | .local _ .smem, ⟨0, _⟩ => ⟨S34, .i32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_call0_call0_c : Ref sig .tc := ⟨.hbm, 18, rfl⟩
abbrev main_call0_call0_v0 : Ref sig .tc := ⟨.hbm, 19, rfl⟩
abbrev main_v7 : Ref sig .tc := ⟨.hbm, 20, rfl⟩
abbrev main_v8 : Ref sig .tc := ⟨.hbm, 21, rfl⟩
abbrev main_call1_call0_c : Ref sig .tc := ⟨.hbm, 22, rfl⟩
abbrev main_call1_call0_v0 : Ref sig .tc := ⟨.hbm, 23, rfl⟩
abbrev main_v9 : Ref sig .tc := ⟨.hbm, 24, rfl⟩
abbrev main_v10 : Ref sig .tc := ⟨.hbm, 25, rfl⟩
abbrev main_c_2 : Ref sig .tc := ⟨.hbm, 26, rfl⟩
abbrev main_v11 : Ref sig .tc := ⟨.hbm, 27, rfl⟩
abbrev main_c_3 : Ref sig .tc := ⟨.hbm, 28, rfl⟩
abbrev main_v12 : Ref sig .tc := ⟨.hbm, 29, rfl⟩
abbrev main_c_4 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_c : Ref sig .tc := ⟨.hbm, 37, rfl⟩
abbrev main_call2_v6 : Ref sig .tc := ⟨.hbm, 38, rfl⟩
abbrev main_call2_v7 : Ref sig .tc := ⟨.hbm, 39, rfl⟩
abbrev main_call2_c_0 : Ref sig .tc := ⟨.hbm, 40, rfl⟩
abbrev main_call2_v8 : Ref sig .tc := ⟨.hbm, 41, rfl⟩
abbrev main_v13 : Ref sig .tc := ⟨.hbm, 42, rfl⟩
abbrev main_c_5 : Ref sig .tc := ⟨.hbm, 43, rfl⟩
abbrev main_v14 : Ref sig .tc := ⟨.hbm, 44, rfl⟩
abbrev main_c_6 : Ref sig .tc := ⟨.hbm, 45, rfl⟩
abbrev main_v15 : Ref sig .tc := ⟨.hbm, 46, rfl⟩
abbrev main_c_7 : Ref sig .tc := ⟨.hbm, 47, rfl⟩
abbrev main_v16 : Ref sig .tc := ⟨.hbm, 48, rfl⟩
abbrev main_c_8 : Ref sig .tc := ⟨.hbm, 49, rfl⟩
abbrev main_call3_v0 : Ref sig .tc := ⟨.hbm, 50, rfl⟩
abbrev main_call3_v1 : Ref sig .tc := ⟨.hbm, 51, rfl⟩
abbrev main_call3_v2 : Ref sig .tc := ⟨.hbm, 52, rfl⟩
abbrev main_call3_v3 : Ref sig .tc := ⟨.hbm, 53, rfl⟩
abbrev main_call3_v4 : Ref sig .tc := ⟨.hbm, 54, rfl⟩
abbrev main_call3_v5 : Ref sig .tc := ⟨.hbm, 55, rfl⟩
abbrev main_call3_c : Ref sig .tc := ⟨.hbm, 56, rfl⟩
abbrev main_call3_v6 : Ref sig .tc := ⟨.hbm, 57, rfl⟩
abbrev main_call3_v7 : Ref sig .tc := ⟨.hbm, 58, rfl⟩
abbrev main_call3_c_0 : Ref sig .tc := ⟨.hbm, 59, rfl⟩
abbrev main_call3_v8 : Ref sig .tc := ⟨.hbm, 60, rfl⟩
abbrev main_v17 : Ref sig .tc := ⟨.hbm, 61, rfl⟩
abbrev main_c_9 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_c_10 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_c_11 : Ref sig .tc := ⟨.hbm, 76, rfl⟩
abbrev main_c_12 : Ref sig .tc := ⟨.hbm, 77, rfl⟩
abbrev main_call5_v0 : Ref sig .tc := ⟨.hbm, 78, rfl⟩
abbrev main_call5_v1 : Ref sig .tc := ⟨.hbm, 79, rfl⟩
abbrev main_v30 : Ref sig .tc := ⟨.hbm, 80, rfl⟩
abbrev main_c_13 : Ref sig .tc := ⟨.hbm, 81, rfl⟩
abbrev main_call6_v0 : Ref sig .tc := ⟨.hbm, 82, rfl⟩
abbrev main_v32 : Ref sig .tc := ⟨.hbm, 83, rfl⟩
abbrev main_cst : Ref sig .tc := ⟨.hbm, 84, rfl⟩
abbrev main_v33 : Ref sig .tc := ⟨.hbm, 85, rfl⟩
abbrev main_c_14 : Ref sig .tc := ⟨.hbm, 86, rfl⟩
abbrev main_v34 : Ref sig .tc := ⟨.hbm, 87, rfl⟩
abbrev main_v35 : Ref sig .tc := ⟨.hbm, 88, rfl⟩
abbrev main_c_15 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_c_16 : Ref sig .tc := ⟨.hbm, 108, rfl⟩
abbrev main_v54 : Ref sig .tc := ⟨.hbm, 109, rfl⟩
abbrev main_v55 : Ref sig .tc := ⟨.hbm, 110, rfl⟩
abbrev main_c_17 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v31 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![34, 22], ![false, false]⟩

abbrev pre0 : Pipeline.Prefetch sig := ⟨1, ![main_v31.idx], fun | 0 => main_v31.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S34.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S34) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S34.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S34) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S34.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S34) ![v0.toNat] S1.size (k0_off1_inb i)) numel1_S1
  let c0_i32 : BitVec 32 := 0#32
  let c0_i32_0 : BitVec 32 := 0#32
  ![v1.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S4x4096x2048_S16384x2048 : S4x4096x2048.ShapeCasts S16384x2048
  shapeCasts_S4x4096_S16384 : S4x4096.ShapeCasts S16384
  natLt_1_32 : 1 < 32
  bcast_S_S16384 : S_.BroadcastsInDim S16384 (![] : Fin 0 → Fin S16384.rank)
  reducesTo_S16384_S_d0 : S16384.ReducesTo [0] S_
  h_S_ : 0 < S_.numel
  bcast_S_S_ : S_.BroadcastsInDim S_ (![] : Fin 0 → Fin S_.rank)
  reduceWindows_S16384_S16384_w16384s1p16383_0 : S16384.ReduceWindows (![16384] : Fin 1 → Nat) ![1] ![16383] ![0] S16384
  bcast_S_S34 : S_.BroadcastsInDim S34 (![] : Fin 0 → Fin S34.rank)
  bitsLt_bf16_f32 : FTy.bits .bf16 < FTy.bits .f32
  bcast_S_S17408x2048 : S_.BroadcastsInDim S17408x2048 (![] : Fin 0 → Fin S17408x2048.rank)
  bcast_S16384_S16384x1_0 : S16384.BroadcastsInDim S16384x1 (![0] : Fin 1 → Fin S16384x1.rank)
  bcast_S2048x5632_S1x2048x5632_1_2 : S2048x5632.BroadcastsInDim S1x2048x5632 (![1, 2] : Fin 2 → Fin S1x2048x5632.rank)
  concatenates_S1x2048x5632_S1x2048x5632_S2x2048x5632_d0 : Shape.Concatenates [S1x2048x5632, S1x2048x5632] S2x2048x5632 0
  bcast_S5632x2048_S1x5632x2048_1_2 : S5632x2048.BroadcastsInDim S1x5632x2048 (![1, 2] : Fin 2 → Fin S1x5632x2048.rank)
  concatenates_S1x5632x2048_S1x5632x2048_S2x5632x2048_d0 : Shape.Concatenates [S1x5632x2048, S1x5632x2048] S2x5632x2048 0
  numel1_S1 : S1.numel = 1
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S16384x2048_S4x4096x2048 : S16384x2048.ShapeCasts S4x4096x2048
  scatter_S17408x2048_S16384x1_S16384x2048_1_0_0_1_wf : ScatterDims.WF S17408x2048 S16384x1 S16384x2048 [1] [0] [0] 1
  dot_S512x2048_S2048x256_S512x256_1_0_0_1_n_n_wf : DotDims.WF S512x2048 S2048x256 S512x256 [1] [0] [0] [1] [] []
  dot_S512x256_S256x2048_S512x2048_1_0_0_1_n_n_wf : DotDims.WF S512x256 S256x2048 S512x2048 [1] [0] [0] [1] [] []
  gather_S17408x2048_S16384x1_S16384x2048_1_0_n_n_0_1_12048_wf : GatherDims.WF S17408x2048 S16384x1 S16384x2048 [1] [0] [] [0] [] 1 ![1, 2048]
  hrank0 : 0 < grid0.rank
  k0_off1_inb : ∀ i : grid0.Coords, ∀ a, (k0_off1 i) a + S1.size a ≤ S34.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S17408x2048.size a
  hwx0_0 : ∀ i : grid0.Coords, EltTy.bits .bf16 = 32 ∨ (Rect.block (s := S17408x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S17408x2048.size a
  hwx0_4 : ∀ i : grid0.Coords, EltTy.bits .f32 = 32 ∨ (Rect.block (s := S17408x2048) S512x2048.size (cc0_transform_4 i) (hinb0_4 i)).WholeWords (EltTy.packing .f32)

variable [Facts₀]

def scatter_S17408x2048_S16384x1_S16384x2048_1_0_0_1 : ScatterDims S17408x2048 S16384x1 S16384x2048 where
  updateWindowDims := [1]
  insertedWindowDims := [0]
  scatterDimsToOperandDims := [0]
  indexVectorDim := 1
  wf := scatter_S17408x2048_S16384x1_S16384x2048_1_0_0_1_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf
def gather_S17408x2048_S16384x1_S16384x2048_1_0_n_n_0_1_12048 : GatherDims S17408x2048 S16384x1 S16384x2048 where
  offsetDims := [1]
  collapsedSliceDims := [0]
  operandBatchingDims := []
  startIndicesBatchingDims := []
  startIndexMap := [0]
  indexVectorDim := 1
  sliceSizes := ![1, 2048]
  wf := gather_S17408x2048_S16384x1_S16384x2048_1_0_n_n_0_1_12048_wf

abbrev spec0_0 : Pipeline.WinSpec sig grid0.rank :=
  Pipeline.WinSpec.ofSpec (Memref.whole main_v40) S512x2048.size reads0_0 false false 2 stage0_0 sem0_0 nbuf0_0 hstage0_0

abbrev spec0_1 : Pipeline.WinSpec sig grid0.rank :=
  Pipeline.WinSpec.ofSpec (Memref.whole main_v44) S1x2048x256.size reads0_1 false false 2 stage0_1 sem0_1 nbuf0_1 hstage0_1

abbrev spec0_2 : Pipeline.WinSpec sig grid0.rank :=
  Pipeline.WinSpec.ofSpec (Memref.whole main_v48) S1x2048x256.size reads0_2 false false 2 stage0_2 sem0_2 nbuf0_2 hstage0_2

abbrev spec0_3 : Pipeline.WinSpec sig grid0.rank :=
  Pipeline.WinSpec.ofSpec (Memref.whole main_v52) S1x256x2048.size reads0_3 false false 2 stage0_3 sem0_3 nbuf0_3 hstage0_3

abbrev spec0_4 : Pipeline.WinSpec sig grid0.rank :=
  Pipeline.WinSpec.ofSpec (Memref.whole main_v53) S512x2048.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_0 | 1 => cc0_transform_1 k0_off1_inb numel1_S1 pf | 2 => cc0_transform_2 k0_off1_inb numel1_S1 pf | 3 => cc0_transform_3 k0_off1_inb numel1_S1 pf | 4 => cc0_transform_4 | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 pf | 3 => hreads0_3 pf | 4 => hreads0_4 | ⟨_ + 5, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x2048x256.size a ≤ S2x2048x5632.size a), EltTy.bits .bf16 = 32 ∨ (Rect.block (s := S2x2048x5632) S1x2048x256.size (cc0_transform_1 k0_off1_inb numel1_S1 pf i) h).WholeWords (EltTy.packing .bf16)) ∧
  (∀ i : grid0.Coords, ∃ h : (∀ a, (cc0_transform_2 k0_off1_inb numel1_S1 pf i a + 1) * S1x2048x256.size a ≤ S2x2048x5632.size a), EltTy.bits .bf16 = 32 ∨ (Rect.block (s := S2x2048x5632) S1x2048x256.size (cc0_transform_2 k0_off1_inb numel1_S1 pf i) h).WholeWords (EltTy.packing .bf16)) ∧
  (∀ i : grid0.Coords, ∃ h : (∀ a, (cc0_transform_3 k0_off1_inb numel1_S1 pf i a + 1) * S1x256x2048.size a ≤ S2x5632x2048.size a), EltTy.bits .bf16 = 32 ∨ (Rect.block (s := S2x5632x2048) S1x256x2048.size (cc0_transform_3 k0_off1_inb numel1_S1 pf i) h).WholeWords (EltTy.packing .bf16))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok.1 i).elim fun h _ => h a | 2 => fun i a => (hok.2.1 i).elim fun h _ => h a | 3 => fun i a => (hok.2.2 i).elim fun h _ => h a | 4 => hinb0_4 | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok.1 i).elim fun _ h => h | 2 => fun i => (hok.2.1 i).elim fun _ h => h | 3 => fun i => (hok.2.2 i).elim fun _ h => h | 4 => hwx0_4 | ⟨_ + 5, h⟩ => absurd h (Nat.not_lt.2 (Nat.le_add_left _ _))

class Facts : Prop extends Facts₀ where
  harr0 : ∀ w, (spec0 w).arr.IsWhole

variable [Facts]
-- ==== ReferenceIdeal.lean ====
abbrev S4x4096x2048 : Shape := ⟨3, ![4, 4096, 2048]⟩
abbrev S4x4096 : Shape := ⟨2, ![4, 4096]⟩
abbrev S2048x5632 : Shape := ⟨2, ![2048, 5632]⟩
abbrev S5632x2048 : Shape := ⟨2, ![5632, 2048]⟩
abbrev S4x4096x5632 : Shape := ⟨3, ![4, 4096, 5632]⟩
abbrev S_ : Shape := ⟨0, ![]⟩
abbrev S4x4096x1 : Shape := ⟨3, ![4, 4096, 1]⟩

abbrev nBuf : Space → Nat
  | .hbm => 37
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096, .i1⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S4x4096x5632, .f32⟩
  | .hbm, ⟨9, _⟩ => ⟨S4x4096x5632, .f32⟩
  | .hbm, ⟨10, _⟩ => ⟨S4x4096x5632, .f32⟩
  | .hbm, ⟨11, _⟩ => ⟨S_, .f32⟩
  | .hbm, ⟨12, _⟩ => ⟨S4x4096x5632, .f32⟩
  | .hbm, ⟨13, _⟩ => ⟨S4x4096x5632, .f32⟩
  | .hbm, ⟨14, _⟩ => ⟨S_, .f32⟩
  | .hbm, ⟨15, _⟩ => ⟨S4x4096x5632, .f32⟩
  | .hbm, ⟨16, _⟩ => ⟨S4x4096x5632, .f32⟩
  | .hbm, ⟨17, _⟩ => ⟨S4x4096x5632, .f32⟩
  | .hbm, ⟨18, _⟩ => ⟨S4x4096x5632, .f32⟩
  | .hbm, ⟨19, _⟩ => ⟨S4x4096x5632, .f32⟩
  | .hbm, ⟨20, _⟩ => ⟨S4x4096x2048, .f32⟩
  | .hbm, ⟨21, _⟩ => ⟨S4x4096x5632, .f32⟩
  | .hbm, ⟨22, _⟩ => ⟨S4x4096x5632, .f32⟩
  | .hbm, ⟨23, _⟩ => ⟨S4x4096x5632, .f32⟩
  | .hbm, ⟨24, _⟩ => ⟨S_, .f32⟩
  | .hbm, ⟨25, _⟩ => ⟨S4x4096x5632, .f32⟩
  | .hbm, ⟨26, _⟩ => ⟨S4x4096x5632, .f32⟩
  | .hbm, ⟨27, _⟩ => ⟨S_, .f32⟩
  | .hbm, ⟨28, _⟩ => ⟨S4x4096x5632, .f32⟩
  | .hbm, ⟨29, _⟩ => ⟨S4x4096x5632, .f32⟩
  | .hbm, ⟨30, _⟩ => ⟨S4x4096x5632, .f32⟩
  | .hbm, ⟨31, _⟩ => ⟨S4x4096x5632, .f32⟩
  | .hbm, ⟨32, _⟩ => ⟨S4x4096x5632, .f32⟩
  | .hbm, ⟨33, _⟩ => ⟨S4x4096x2048, .f32⟩
  | .hbm, ⟨34, _⟩ => ⟨S4x4096x1, .i1⟩
  | .hbm, ⟨35, _⟩ => ⟨S4x4096x2048, .i1⟩
  | .hbm, ⟨36, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_cst : Ref sig .tc := ⟨.hbm, 24, rfl⟩
abbrev main_call1_v2 : Ref sig .tc := ⟨.hbm, 25, rfl⟩
abbrev main_call1_v3 : Ref sig .tc := ⟨.hbm, 26, rfl⟩
abbrev main_call1_cst_0 : Ref sig .tc := ⟨.hbm, 27, rfl⟩
abbrev main_call1_v4 : Ref sig .tc := ⟨.hbm, 28, rfl⟩
abbrev main_call1_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_call2_v0 : Ref sig .tc := ⟨.hbm, 35, rfl⟩
abbrev main_v11 : Ref sig .tc := ⟨.hbm, 36, rfl⟩

abbrev nD : Nat := 1
abbrev τ : Topo := Topo.v7x

variable {F : FTy → Type} [FloatOps F]

class Facts₀ : Prop where
  bcast_S_S4x4096x5632 : S_.BroadcastsInDim S4x4096x5632 (![] : Fin 0 → Fin S4x4096x5632.rank)
  bcast_S4x4096_S4x4096x1_0_1 : S4x4096.BroadcastsInDim S4x4096x1 (![0, 1] : Fin 2 → Fin S4x4096x1.rank)
  bcast_S4x4096x1_S4x4096x2048_0_1_2 : S4x4096x1.BroadcastsInDim S4x4096x2048 (![0, 1, 2] : Fin 3 → Fin S4x4096x2048.rank)
  dot_S4x4096x2048_S2048x5632_S4x4096x5632_2_0_01_1_n_n_wf : DotDims.WF S4x4096x2048 S2048x5632 S4x4096x5632 [2] [0] [0, 1] [1] [] []
  dot_S4x4096x5632_S5632x2048_S4x4096x2048_2_0_01_1_n_n_wf : DotDims.WF S4x4096x5632 S5632x2048 S4x4096x2048 [2] [0] [0, 1] [1] [] []

variable [Facts₀]

def dot_S4x4096x2048_S2048x5632_S4x4096x5632_2_0_01_1_n_n : DotDims S4x4096x2048 S2048x5632 S4x4096x5632 where
  lhsContracting := [2]
  rhsContracting := [0]
  lhsNonContracting := [0, 1]
  rhsNonContracting := [1]
  lhsBatch := []
  rhsBatch := []
  wf := dot_S4x4096x2048_S2048x5632_S4x4096x5632_2_0_01_1_n_n_wf
def dot_S4x4096x5632_S5632x2048_S4x4096x2048_2_0_01_1_n_n : DotDims S4x4096x5632 S5632x2048 S4x4096x2048 where
  lhsContracting := [2]
  rhsContracting := [0]
  lhsNonContracting := [0, 1]
  rhsNonContracting := [1]
  lhsBatch := []
  rhsBatch := []
  wf := dot_S4x4096x5632_S5632x2048_S4x4096x2048_2_0_01_1_n_n_wf

class Facts : Prop extends Facts₀ where

variable [Facts]
-- ==== Proof.Route.lean ====
/-
  The routing tables of the layer, as the host computes them from the flattened mask, over plain 32-bit words.

  `gen` is the mask widened to words, `und` its complement; `nGen` / `nUnd` count the tokens of each kind;
  `cumsum` is the inclusive running sum (a window of the array's length over the array padded with zeros in front);
  a token's rank among its kind is the running sum less its own bit. Each group is padded up to a multiple of 512
  (`padUnd`, `padGen`: `floorDiv (n + 511) 512 · 512`). Token `t` goes to row `pos t`: its rank if it is of the
  first kind, `padUnd` plus its rank otherwise; `posN` is `pos` with a negative word wrapped by the table's
  length, as an indexing operation reads it. Tile `j` of 512 rows belongs to expert `etab j`: `0` while the tile
  starts below `padUnd`, `1` while it starts below `padUnd + padGen`, `0` beyond.
-/
import Idealize.ShloMosaic.PureOps.Ideal
import Idealize.ShloMosaic.Lib.ValueIdx

noncomputable section

namespace Cert.Moe

open Idealize.ShloMosaic

abbrev S_ : Shape := ⟨0, ![]⟩
abbrev S16384 : Shape := ⟨1, ![16384]⟩
abbrev S34 : Shape := ⟨1, ![34]⟩
abbrev S16384x1 : Shape := ⟨2, ![16384, 1]⟩

namespace Route

/-- A rank-zero word. -/
abbrev lit (b : BitVec 32) : IVec S_ 32 := constantI S_ 32 b

/-- A rank-zero word repeated along the token axis. -/
abbrev rep (v : IVec S_ 32) : IVec S16384 32 := broadcastInDim S16384 ![] (by decide) v

/-- A rank-zero word repeated along the tile axis. -/
abbrev rep34 (v : IVec S_ 32) : IVec S34 32 := broadcastInDim S34 ![] (by decide) v

/-- The inclusive running sum of a word array: a window of 16384 positions over the array padded with 16383 zeros in front. -/
def cumsum (x : IVec S16384 32) : IVec S16384 32 :=
  Host.reduceWindow (t := S16384) (u := S_) IntOp.addi ![16384] ![1] ![16383] ![0] x
    (broadcastInDim S_ ![] (by decide) (lit 0#32)) (by decide) (by decide)

/-- The sum of a word array. -/
def total (x : IVec S16384 32) : IVec S_ 32 :=
  Host.reduce (axes := [0]) (t := S_) (u := S_) IntOp.addi x (lit 0#32) (by decide) (by decide)

/-- jnp's floor division of rank-zero words: the truncated quotient, less one when the signs differ and the remainder is not zero. -/
def floorDiv (a b : IVec S_ 32) : IVec S_ 32 :=
  select (andi (cmpi .ne (signi a) (signi (id b))) (cmpi .ne (Host.remsi a (id b)) (lit 0#32)))
    (subi (Host.divsi a (id b)) (lit 1#32)) (Host.divsi a (id b))

variable (mk : IVec S16384 1)

/-- The mask as words: 1 for a token of the second kind. -/
def gen : IVec S16384 32 := extui 32 mk (by decide)
/-- Its complement: 1 for a token of the first kind. -/
def und : IVec S16384 32 := subi (rep (lit 1#32)) (gen mk)
/-- How many tokens of the second kind. -/
def nGen : IVec S_ 32 := total (gen mk)
/-- How many of the first. -/
def nUnd : IVec S_ 32 := subi (lit 16384#32) (nGen mk)
/-- A token's rank among the tokens of the second kind before it. -/
def rankGen : IVec S16384 32 := subi (cumsum (gen mk)) (gen mk)
/-- A token's rank among the tokens of the first kind before it. -/
def rankUnd : IVec S16384 32 := subi (cumsum (und mk)) (und mk)
/-- The first group's length rounded up to a multiple of 512. -/
def padUnd : IVec S_ 32 := muli (floorDiv (subi (addi (nUnd mk) (lit 512#32)) (lit 1#32)) (lit 512#32)) (lit 512#32)
/-- The second group's length rounded up to a multiple of 512. -/
def padGen : IVec S_ 32 := muli (floorDiv (subi (addi (nGen mk) (lit 512#32)) (lit 1#32)) (lit 512#32)) (lit 512#32)
/-- Token `t`'s destination row. -/
def pos : IVec S16384 32 := select mk (addi (rep (padUnd mk)) (rankGen mk)) (rankUnd mk)
/-- The same, a negative word wrapped by the table's 17408 rows. -/
def posN : IVec S16384 32 := select (cmpi .slt (pos mk) (rep (lit 0#32))) (addi (pos mk) (rep (lit 17408#32))) (pos mk)
/-- The destination rows as a one-column index array. -/
def posCol : IVec S16384x1 32 := broadcastInDim S16384x1 ![0] (by decide) (posN mk)
/-- Where tile `j` starts. -/
def tileStart : IVec S34 32 := muli (iotaInDim S34 32 0) (rep34 (lit 512#32))
/-- The expert of tile `j`. -/
def etab : IVec S34 32 :=
  select (cmpi .slt tileStart (rep34 (padUnd mk))) (rep34 (lit 0#32))
    (select (cmpi .slt tileStart (rep34 (addi (padUnd mk) (padGen mk)))) (rep34 (lit 1#32)) (rep34 (lit 0#32)))

end Route

end Cert.Moe

end
-- ==== Proof.KernelHostRead.lean ====
/-
  What the host lines before the pallas_call leave in the buffers the call reads, as terms of the argument arrays:
  the tile-to-expert table, the padded token table (an overwriting row scatter of the tokens at their destination
  rows into zeros) and the three stacked weight arrays (the two experts' matrices concatenated along a new leading axis).
-/
import proofs.«412017_j84739704750514_3_alg».proof.Proof.Gen.Kernel.Frame.Runs
import proofs.«412017_j84739704750514_3_alg».proof.Proof.Route
import Idealize.ShloMosaic.Lib.StableHlo.Run

set_option maxRecDepth 16384

noncomputable section

namespace Cert.Kernel.HostRead

open Cert.Kernel Cert.Kernel.Gen Idealize.ShloMosaic Idealize.ShloMosaic.TcCoe Idealize.SL.Sem

variable {F : FTy → Type} [FloatOps F]
variable (m : (ℓ : Loc nD τ sig) → Buf (Elt F) ℓ)

/-- The boolean mask flattened to one axis of 16384 tokens. -/
def maskFlat (c : Dev nD) : IVec Cert.Moe.S16384 1 :=
  shapeCast S16384 (m ((c : Thread nD τ).loc main_arg1)) shapeCasts_S4x4096_S16384

/-- The token rows flattened to `[16384, 2048]`. -/
def xFlat (c : Dev nD) : Vec F S16384x2048 .f32 :=
  shapeCast S16384x2048 (m ((c : Thread nD τ).loc main_arg0)) shapeCasts_S4x4096x2048_S16384x2048

set_option maxHeartbeats 4000000 in
/-- The prefetched table is the tile-to-expert table of the flattened mask. -/
theorem tbl_eq : (tbl m 0 : S34.Idx → BitVec 32) = Cert.Moe.Route.etab (maskFlat m 0) := by
  unfold tbl
  show (V m 0 main_v31 : S34.Idx → BitVec 32) = _
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  simp only [StableHlo.TRef.ofBuf, StableHlo.TRef.toBuf, cast_eq]
  rfl

set_option maxHeartbeats 4000000 in
/-- The padded token table: zeros overwritten, row by row, by the tokens (narrowed to bf16) at their destination rows. -/
theorem V_v40 (c : Dev nD) :
    (V m c main_v40 : S17408x2048.Idx → Elt F .bf16)
      = Host.scatter scatter_S17408x2048_S16384x1_S16384x2048_1_0_0_1 (fun _ b => b)
          (broadcastInDim S17408x2048 ![] bcast_S_S17408x2048 (constant S_ .bf16 0x0000#16))
          (Cert.Moe.Route.posCol (maskFlat m c))
          (truncf .bf16 (xFlat m c) bitsLt_bf16_f32) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  simp only [StableHlo.TRef.ofBuf, StableHlo.TRef.toBuf, cast_eq]
  rfl

set_option maxHeartbeats 4000000 in
/-- The stacked gate matrices: the first expert's, then the second's, narrowed to bf16. -/
theorem V_v44 (c : Dev nD) :
    (V m c main_v44 : S2x2048x5632.Idx → Elt F .bf16)
      = truncf .bf16 (concatenate S2x2048x5632 0
          [⟨S1x2048x5632, broadcastInDim S1x2048x5632 ![1, 2] bcast_S2048x5632_S1x2048x5632_1_2 (m ((c : Thread nD τ).loc main_arg2))⟩,
           ⟨S1x2048x5632, broadcastInDim S1x2048x5632 ![1, 2] bcast_S2048x5632_S1x2048x5632_1_2 (m ((c : Thread nD τ).loc main_arg5))⟩]
          concatenates_S1x2048x5632_S1x2048x5632_S2x2048x5632_d0) bitsLt_bf16_f32 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  rfl

set_option maxHeartbeats 4000000 in
/-- The stacked up matrices. -/
theorem V_v48 (c : Dev nD) :
    (V m c main_v48 : S2x2048x5632.Idx → Elt F .bf16)
      = truncf .bf16 (concatenate S2x2048x5632 0
          [⟨S1x2048x5632, broadcastInDim S1x2048x5632 ![1, 2] bcast_S2048x5632_S1x2048x5632_1_2 (m ((c : Thread nD τ).loc main_arg3))⟩,
           ⟨S1x2048x5632, broadcastInDim S1x2048x5632 ![1, 2] bcast_S2048x5632_S1x2048x5632_1_2 (m ((c : Thread nD τ).loc main_arg6))⟩]
          concatenates_S1x2048x5632_S1x2048x5632_S2x2048x5632_d0) bitsLt_bf16_f32 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  rfl

set_option maxHeartbeats 4000000 in
/-- The stacked down matrices. -/
theorem V_v52 (c : Dev nD) :
    (V m c main_v52 : S2x5632x2048.Idx → Elt F .bf16)
      = truncf .bf16 (concatenate S2x5632x2048 0
          [⟨S1x5632x2048, broadcastInDim S1x5632x2048 ![1, 2] bcast_S5632x2048_S1x5632x2048_1_2 (m ((c : Thread nD τ).loc main_arg4))⟩,
           ⟨S1x5632x2048, broadcastInDim S1x5632x2048 ![1, 2] bcast_S5632x2048_S1x5632x2048_1_2 (m ((c : Thread nD τ).loc main_arg7))⟩]
          concatenates_S1x5632x2048_S1x5632x2048_S2x5632x2048_d0) bitsLt_bf16_f32 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  rfl

end Cert.Kernel.HostRead

end
-- ==== Proof.RouteSums.lean ====
/-
  The host's running sum and total of a 0/1 word array, read as natural numbers.

  For an array of 16384 words each 0 or 1, the total is the number of ones and the inclusive running sum at
  position `t` is the number of ones among positions `0 … t`: no sum reaches 2³², so the word arithmetic is exact.
-/
import proofs.«412017_j84739704750514_3_alg».proof.Proof.Route
import Idealize.ShloMosaic.Lib.StableHlo.Predicate
import Idealize.ShloMosaic.Lib.ValueIdxRank1

noncomputable section

open scoped BigOperators

namespace Cert.Moe.Route

open Idealize.ShloMosaic Idealize.ShloMosaic.ValueIdx

/-! ## A left fold of word addition over 0/1 words that cannot wrap -/

/-- A left fold of word addition over a list of words each at most 1, from an accumulator that leaves room for the
    list's length below 2³²: the value is the accumulator's plus the sum of the words' values, because each partial
    sum is at most the accumulator's value plus the number of words met so far. -/
private theorem toNat_foldl_addi {ι : Type} (g : ι → BitVec 32) (hg : ∀ n, (g n).toNat ≤ 1) :
    ∀ (l : List ι) (acc : BitVec 32), acc.toNat + l.length < 2 ^ 32 →
      (l.foldl (fun r n => IntOp.addi r (g n)) acc).toNat = acc.toNat + (l.map fun n => (g n).toNat).sum
  | [], acc, _ => by simp
  | a :: l, acc, h => by
    have ha := hg a
    rw [List.length_cons] at h
    have hstep : (IntOp.addi acc (g a)).toNat = acc.toNat + (g a).toNat := by
      show (acc + g a).toNat = _
      rw [BitVec.toNat_add]
      exact Nat.mod_eq_of_lt (by omega)
    rw [List.foldl_cons, toNat_foldl_addi g hg l _ (by rw [hstep]; omega), hstep, List.map_cons, List.sum_cons]
    omega

/-- The same over all positions `0 … M − 1` from zero, as a sum over the positions. -/
private theorem toNat_foldl_finRange {M : ℕ} (hM : M < 2 ^ 32) (g : Fin M → BitVec 32) (hg : ∀ n, (g n).toNat ≤ 1) :
    ((List.finRange M).foldl (fun r n => IntOp.addi r (g n)) 0#32).toNat = ∑ n : Fin M, (g n).toNat := by
  rw [toNat_foldl_addi g hg _ _ (by rw [List.length_finRange]; simpa using hM), Fin.sum_univ_def]
  simp

/-! ## A word array of length `N` by positions -/

/-- The value of entry `k` of a word array of length `N` (0 beyond the array). -/
private def val {N : ℕ} (x : IVec ⟨1, ![N]⟩ 32) (k : ℕ) : ℕ := if h : k < N then (x (ix1 ⟨k, h⟩)).toNat else 0

/-- A sum over the indices of a rank-1 shape is the sum over its positions. -/
private theorem sum_idx1 {N : ℕ} (f : (⟨1, ![N]⟩ : Shape).Idx → ℕ) :
    ∑ i, f i = ∑ k ∈ Finset.range N, if h : k < N then f (ix1 ⟨k, h⟩) else 0 := by
  rw [← Equiv.sum_comp (idxEquiv1 (n := N)).symm f, Finset.sum_fin_eq_sum_range]
  rfl

/-- A rank-1 shape has as many elements as its one axis is long. -/
private theorem numel1 (N : ℕ) : (⟨1, ![N]⟩ : Shape).numel = N := by simp [Shape.numel]

/-- A sum of `n` values each at most 1 is at most `n`. -/
private theorem sum_range_le (n : ℕ) (v : ℕ → ℕ) (hv : ∀ k, v k ≤ 1) : ∑ k ∈ Finset.range n, v k ≤ n := by
  calc ∑ k ∈ Finset.range n, v k ≤ ∑ _k ∈ Finset.range n, 1 := Finset.sum_le_sum fun k _ => hv k
    _ = n := by simp

/-! ## The total -/

/-- The host's sum over a 0/1 word array of length `N` below 2³², from zero, is the sum of the entries' values:
    the set of indices reducing to the one result index is the whole array, and the sum is at most `N`, so no
    addition wraps. -/
private theorem toNat_reduce_all {N : ℕ} (hN : N < 2 ^ 32) (x : IVec ⟨1, ![N]⟩ 32) (hx : ∀ i, (x i).toNat ≤ 1)
    (init : IVec ⟨0, ![]⟩ 32) (h : (⟨1, ![N]⟩ : Shape).ReducesTo [0] ⟨0, ![]⟩) (hu : 0 < (⟨0, ![]⟩ : Shape).numel)
    (hinit : init (Shape.Idx.first hu) = 0#32) (j : (⟨0, ![]⟩ : Shape).Idx) :
    (Host.reduce IntOp.addi x init h hu j).toNat = ∑ k ∈ Finset.range N, val x k := by
  classical
  have hv : ∀ k, val x k ≤ 1 := fun k => by unfold val; split; exacts [hx _, Nat.zero_le _]
  have hsum : ∑ i : (⟨1, ![N]⟩ : Shape).Idx, (x i).toNat = ∑ k ∈ Finset.range N, val x k := sum_idx1 _
  rw [Host.reduce_eq_fold, hinit,
    Finset.filter_true_of_mem (fun i _ => (eq_ix0 _).trans (eq_ix0 _).symm),
    StableHlo.Predicate.toNat_fold_addi _ _ (by rw [hsum]; exact lt_of_le_of_lt (sum_range_le N _ hv) hN), hsum]

/-! ## The running sum -/

/-- A window of `L + 1` positions over `L` zeros followed by the array, placed at `t ≤ L`: positions `n` with
    `t + n < L` fall on the zeros, the others read entries `0 … t` in order. -/
private theorem sum_window (L t : ℕ) (ht : t ≤ L) (v : ℕ → ℕ) :
    ∑ n ∈ Finset.range (L + 1), (if L ≤ t + n then v (t + n - L) else 0) = ∑ k ∈ Finset.range (t + 1), v k := by
  have h1 : ∑ n ∈ Finset.Ico 0 (L - t), (if L ≤ t + n then v (t + n - L) else 0) = 0 :=
    Finset.sum_eq_zero fun n hn => if_neg (by have := (Finset.mem_Ico.1 hn).2; omega)
  have h2 : ∑ n ∈ Finset.Ico (L - t) (L + 1), (if L ≤ t + n then v (t + n - L) else 0) = ∑ k ∈ Finset.range (t + 1), v k := by
    rw [Finset.sum_Ico_eq_sum_range, show L + 1 - (L - t) = t + 1 by omega]
    refine Finset.sum_congr rfl fun k _ => ?_
    rw [if_pos (by omega), show t + (L - t + k) - L = k by omega]
  rw [Finset.range_eq_Ico (L + 1), ← Finset.sum_Ico_consecutive _ (Nat.zero_le (L - t)) (by omega : L - t ≤ L + 1), h1, h2,
    zero_add]

/-- The host's windowed sum (window `L + 1 = N`, stride 1, `L` zeros of padding in front) of a 0/1 word array of
    length `N` below 2³², read at position `t`, is the sum of the values of entries `0 … t`: window position `n`
    reads entry `t + n − L` when `L ≤ t + n` and the padding's zero otherwise, and no partial sum exceeds `N`. -/
private theorem toNat_reduceWindow_run {N L : ℕ} (hL : L + 1 = N) (hN : N < 2 ^ 32) (x : IVec ⟨1, ![N]⟩ 32)
    (hx : ∀ i, (x i).toNat ≤ 1) (init : IVec ⟨0, ![]⟩ 32)
    (h : (⟨1, ![N]⟩ : Shape).ReduceWindows ![N] ![1] ![L] ![0] ⟨1, ![N]⟩) (hu : 0 < (⟨0, ![]⟩ : Shape).numel)
    (hinit : init (Shape.Idx.first hu) = 0#32) (t : Fin N) :
    (Host.reduceWindow (s := ⟨1, ![N]⟩) (t := ⟨1, ![N]⟩) (u := ⟨0, ![]⟩) IntOp.addi ![N] ![1] ![L] ![0] x init h hu
      (ix1 t)).toNat = ∑ k ∈ Finset.range (t.val + 1), val x k := by
  subst hL
  have ht := t.isLt
  simp only [Host.reduceWindow, hinit]
  refine (toNat_foldl_finRange ?_ _ ?_).trans ?_
  · rw [numel1]; exact hN
  · intro n
    split
    · exact hx _
    · exact Nat.zero_le _
  · refine (Finset.sum_congr rfl fun n _ => ?_).trans
      ((Fin.sum_univ_eq_sum_range (fun n => if L ≤ t.val + n then val x (t.val + n - L) else 0) _).trans ?_)
    · have hnlt : n.val < L + 1 := lt_of_lt_of_eq n.isLt (numel1 (L + 1))
      -- a window position of a rank-1 window is its own row-major number
      have hn : (((⟨1, ![L + 1]⟩ : Shape).rowMajor.symm n) 0).val = n.val := by
        have := Shape.rowMajor_val_one ((⟨1, ![L + 1]⟩ : Shape).rowMajor.symm n)
        rw [Equiv.apply_symm_apply] at this
        exact this.symm
      by_cases hc : L ≤ t.val + n.val
      · rw [if_pos hc]
        split
        · rw [val, dif_pos (by omega : t.val + n.val - L < L + 1)]
          refine congrArg (fun i => (x i).toNat) (funext fun a => ?_)
          obtain rfl : a = 0 := Subsingleton.elim _ _
          refine Fin.ext ?_
          show t.val * 1 + (((⟨1, ![L + 1]⟩ : Shape).rowMajor.symm n) 0).val - L = t.val + n.val - L
          rw [hn]; omega
        · rename_i hnin
          refine absurd (fun a => ?_) hnin
          obtain rfl : a = 0 := Subsingleton.elim _ _
          show L ≤ t.val * 1 + (((⟨1, ![L + 1]⟩ : Shape).rowMajor.symm n) 0).val ∧
            t.val * 1 + (((⟨1, ![L + 1]⟩ : Shape).rowMajor.symm n) 0).val - L < L + 1
          rw [hn]; omega
      · rw [if_neg hc]
        split
        · rename_i hin
          have h' : L ≤ t.val * 1 + (((⟨1, ![L + 1]⟩ : Shape).rowMajor.symm n) 0).val := (hin 0).1
          rw [hn] at h'; omega
        · rfl
    · rw [numel1]
      exact sum_window L t.val (by omega) (val x)

/-! ## The mask's two word arrays -/

/-- The mask bit of token `k` as a natural number (0 beyond the array). -/
def bit (mk : IVec S16384 1) (k : ℕ) : ℕ :=
  if h : k < 16384 then (if mk (ix1 (⟨k, h⟩ : Fin 16384)) = 1#1 then 1 else 0) else 0

/-- How many of the first `n` tokens have their mask bit set. -/
def cnt (mk : IVec S16384 1) (n : ℕ) : ℕ := ∑ k ∈ Finset.range n, bit mk k

variable (mk : IVec S16384 1)

/-- A mask bit is 0 or 1. -/
private theorem bit_le (k : ℕ) : bit mk k ≤ 1 := by
  unfold bit; split
  · split <;> omega
  · omega

theorem toNat_gen (t : Fin 16384) : (gen mk (ix1 t)).toNat = bit mk t.val := by
  unfold gen bit
  rw [extui_apply, StableHlo.Predicate.toNat_setWidth_bit, dif_pos t.isLt]

theorem toNat_und (t : Fin 16384) : (und mk (ix1 t)).toNat = 1 - bit mk t.val := by
  have hg := toNat_gen mk t
  have hb := bit_le mk t.val
  show (1#32 - gen mk (ix1 t)).toNat = _
  rw [BitVec.toNat_sub, hg]
  have h1 : (1#32 : BitVec 32).toNat = 1 := rfl
  rw [h1]
  omega

/-- Every word of the widened mask is 0 or 1. -/
private theorem gen_le (i : S16384.Idx) : (gen mk i).toNat ≤ 1 := by
  obtain ⟨t, rfl⟩ : ∃ t : Fin 16384, i = ix1 t := ⟨i 0, eq_ix1 i⟩
  rw [toNat_gen]; exact bit_le mk _

/-- Every word of the complement is 0 or 1. -/
private theorem und_le (i : S16384.Idx) : (und mk i).toNat ≤ 1 := by
  obtain ⟨t, rfl⟩ : ∃ t : Fin 16384, i = ix1 t := ⟨i 0, eq_ix1 i⟩
  rw [toNat_und]; omega

/-- The widened mask by positions is the mask's bits. -/
private theorem val_gen (k : ℕ) : val (gen mk) k = bit mk k := by
  unfold val
  split
  · rename_i hk; exact toNat_gen mk ⟨k, hk⟩
  · rename_i hk; unfold bit; rw [dif_neg hk]

/-- The complement by positions, inside the array, is one less the mask's bit. -/
private theorem val_und (k : ℕ) (hk : k < 16384) : val (und mk) k = 1 - bit mk k := by
  unfold val
  rw [dif_pos hk]
  exact toNat_und mk ⟨k, hk⟩

/-- The total of the widened mask is the number of set bits. -/
theorem toNat_nGen : (nGen mk ix0).toNat = cnt mk 16384 := by
  unfold nGen total cnt
  rw [toNat_reduce_all (N := 16384) (by norm_num) (gen mk) (gen_le mk) _ _ _ rfl]
  exact Finset.sum_congr rfl fun k _ => val_gen mk k

/-- The running sum of the widened mask at `t` counts the set bits among tokens `0 … t`. -/
theorem toNat_cumsum_gen (t : Fin 16384) : (cumsum (gen mk) (ix1 t)).toNat = cnt mk (t.val + 1) := by
  unfold cumsum cnt
  rw [toNat_reduceWindow_run (N := 16384) (L := 16383) rfl (by norm_num) (gen mk) (gen_le mk) _ _ _ rfl t]
  exact Finset.sum_congr rfl fun k _ => val_gen mk k

/-- The running sum of the complement at `t` counts the clear bits among tokens `0 … t`. -/
theorem toNat_cumsum_und (t : Fin 16384) : (cumsum (und mk) (ix1 t)).toNat = (t.val + 1) - cnt mk (t.val + 1) := by
  unfold cumsum cnt
  rw [toNat_reduceWindow_run (N := 16384) (L := 16383) rfl (by norm_num) (und mk) (und_le mk) _ _ _ rfl t]
  have ht := t.isLt
  -- each position contributes its bit to one count and one less its bit to the other: together, one
  have hsum : ∑ k ∈ Finset.range (t.val + 1), val (und mk) k + ∑ k ∈ Finset.range (t.val + 1), bit mk k = t.val + 1 := by
    rw [← Finset.sum_add_distrib]
    calc ∑ k ∈ Finset.range (t.val + 1), (val (und mk) k + bit mk k) = ∑ _k ∈ Finset.range (t.val + 1), 1 :=
          Finset.sum_congr rfl fun k hk => by
            have hk' := Finset.mem_range.1 hk
            have hb := bit_le mk k
            rw [val_und mk k (by omega)]; omega
      _ = t.val + 1 := by simp
  omega

end Cert.Moe.Route

end
-- ==== Proof.RouteFacts.lean ====
/-
  What the routing tables guarantee: every token's destination row is inside the padded table, no two tokens share
  a row, and the tile a token lands in belongs to the expert its mask bit names.

  Everything is read as natural numbers. Write c n for the number of set mask bits among tokens below n, G = c 16384
  for the number of tokens of the second kind and U = 16384 − G for the first. No word here reaches 2³¹, so word
  additions, subtractions and products are the natural-number ones, signed comparisons are comparisons of values, and
  floor division by 512 is the natural quotient. The padded lengths are PU = ⌈U / 512⌉ · 512 and PG = ⌈G / 512⌉ · 512;
  a token t of the second kind goes to row PU + c t, one of the first kind to row t − c t.
-/
import proofs.«412017_j84739704750514_3_alg».proof.Proof.RouteSums

noncomputable section

open scoped BigOperators

namespace Cert.Moe.Route

open Idealize.ShloMosaic Idealize.ShloMosaic.ValueIdx

variable (mk : IVec S16384 1)

/-! ## Counting set bits -/

private theorem bit_le_one (k : ℕ) : bit mk k ≤ 1 := by
  unfold bit; split_ifs <;> omega

private theorem cnt_succ (n : ℕ) : cnt mk (n + 1) = cnt mk n + bit mk n := Finset.sum_range_succ _ _

private theorem cnt_le (n : ℕ) : cnt mk n ≤ n := by
  induction n with
  | zero => simp [cnt]
  | succ n ih => rw [cnt_succ]; have := bit_le_one mk n; omega

private theorem cnt_mono {m n : ℕ} (h : m ≤ n) : cnt mk m ≤ cnt mk n ∧ cnt mk n + m ≤ cnt mk m + n := by
  induction n, h using Nat.le_induction with
  | base => exact ⟨le_rfl, le_rfl⟩
  | succ n hmn ih => rw [cnt_succ]; have := bit_le_one mk n; omega

private theorem bit_eq_one_iff (t : Fin 16384) : bit mk t.val = 1 ↔ mk (ix1 t) = 1#1 := by
  unfold bit
  rw [dif_pos t.isLt]
  split_ifs with h <;> simp [h]

/-! ## Word arithmetic that does not wrap -/

private theorem toNat_addi_of_lt (x y : BitVec 32) (h : x.toNat + y.toNat < 2 ^ 32) :
    (IntOp.addi x y).toNat = x.toNat + y.toNat := by
  show (x + y).toNat = _
  rw [BitVec.toNat_add]; exact Nat.mod_eq_of_lt h

private theorem toNat_subi_of_le (x y : BitVec 32) (h : y.toNat ≤ x.toNat) :
    (IntOp.subi x y).toNat = x.toNat - y.toNat := by
  show (x - y).toNat = _
  rw [BitVec.toNat_sub]; have := x.isLt; have := y.isLt; omega

private theorem toNat_muli_of_lt (x y : BitVec 32) (h : x.toNat * y.toNat < 2 ^ 32) :
    (IntOp.muli x y).toNat = x.toNat * y.toNat := by
  show (x * y).toNat = _
  rw [BitVec.toNat_mul]; exact Nat.mod_eq_of_lt h

/-- A rank-zero word repeated along an axis reads that word everywhere. -/
private theorem rep_apply (v : IVec S_ 32) (i : S16384.Idx) : rep v i = v ix0 := by
  show v _ = v _
  congr 1; funext a; exact a.elim0

private theorem rep34_apply (v : IVec S_ 32) (i : S34.Idx) : rep34 v i = v ix0 := by
  show v _ = v _
  congr 1; funext a; exact a.elim0

/-- Floor division of a non-negative word by 512 is the quotient of the values. -/
private theorem toNat_floorDiv_512 (a : IVec S_ 32) (ha : (a ix0).toNat < 2 ^ 31) :
    (floorDiv a (lit 512#32) ix0).toNat = (a ix0).toNat / 512 := by
  generalize hx : a ix0 = x at ha
  have hm : x.msb = false := BitVec.msb_eq_false_iff_two_mul_lt.mpr (by omega)
  have hcorner : ¬ IntOp.SDivCorner x 512#32 := by
    intro hc; rcases hc with hc | ⟨_, hc⟩ <;> exact absurd hc (by decide)
  have hdiv : IntOp.divsi .host x 512#32 = x / 512#32 := by
    simp only [IntOp.divsi, if_neg hcorner, BitVec.sdiv_eq, hm, show (512#32 : BitVec 32).msb = false from by decide, BitVec.udiv_eq]
  have hrem : IntOp.remsi .host x 512#32 = x % 512#32 := by
    simp only [IntOp.remsi, if_neg hcorner, BitVec.srem_eq, hm, show (512#32 : BitVec 32).msb = false from by decide, BitVec.umod_eq]
  have hsel : floorDiv a (lit 512#32) ix0 = x / 512#32 := by
    show Scalar.select (IntOp.andi (IntOp.cmpi .ne (if a ix0 = 0 then 0 else if (a ix0).msb then -1 else 1) (signi (lit 512#32) ix0))
        (IntOp.cmpi .ne (IntOp.remsi .host (a ix0) 512#32) 0#32))
      (IntOp.subi (IntOp.divsi .host (a ix0) 512#32) 1#32) (IntOp.divsi .host (a ix0) 512#32) = _
    rw [hx, hdiv, hrem]
    have h512 : signi (lit 512#32) ix0 = 1#32 := by decide
    rw [h512]
    by_cases h0 : x = 0
    · subst h0; decide
    · rw [if_neg h0, hm]
      have hc : IntOp.cmpi .ne (if false = true then (-1 : BitVec 32) else 1) 1#32 = 0#1 := by decide
      rw [hc]
      show Scalar.select (0#1 &&& _) _ _ = _
      rw [BitVec.zero_and]
      exact select_zero _ _
  rw [hsel, BitVec.toNat_udiv]; rfl

/-! ## The routing words as natural numbers -/

/-- The number of tokens of the first kind. -/
private theorem toNat_nUnd : (nUnd mk ix0).toNat = 16384 - cnt mk 16384 := by
  show (IntOp.subi 16384#32 (nGen mk ix0)).toNat = _
  rw [toNat_subi_of_le _ _ (by rw [toNat_nGen]; exact cnt_le mk 16384), toNat_nGen]; rfl

/-- A count of at most 16384 rounded up to a multiple of 512: the value is ⌈n / 512⌉ · 512. -/
private theorem toNat_pad (n : IVec S_ 32) (hn : (n ix0).toNat ≤ 16384) :
    (muli (floorDiv (subi (addi n (lit 512#32)) (lit 1#32)) (lit 512#32)) (lit 512#32) ix0).toNat
      = ((n ix0).toNat + 511) / 512 * 512 := by
  have ha : (IntOp.addi (n ix0) 512#32).toNat = (n ix0).toNat + 512 :=
    toNat_addi_of_lt _ _ (by show _ + 512 < _; omega)
  have h1 : (subi (addi n (lit 512#32)) (lit 1#32) ix0).toNat = (n ix0).toNat + 511 := by
    show (IntOp.subi (IntOp.addi (n ix0) 512#32) 1#32).toNat = _
    rw [toNat_subi_of_le _ _ (by rw [ha]; show 1 ≤ _; omega), ha]; rfl
  have hq := toNat_floorDiv_512 (subi (addi n (lit 512#32)) (lit 1#32)) (by rw [h1]; omega)
  show (IntOp.muli (floorDiv (subi (addi n (lit 512#32)) (lit 1#32)) (lit 512#32) ix0) 512#32).toNat = _
  rw [toNat_muli_of_lt _ _ (by rw [hq, h1]; show _ * 512 < _; omega), hq, h1]; rfl

private theorem toNat_padUnd : (padUnd mk ix0).toNat = (16384 - cnt mk 16384 + 511) / 512 * 512 := by
  have h := toNat_pad (nUnd mk) (by rw [toNat_nUnd]; omega)
  rw [toNat_nUnd] at h; exact h

private theorem toNat_padGen : (padGen mk ix0).toNat = (cnt mk 16384 + 511) / 512 * 512 := by
  have h := toNat_pad (nGen mk) (by rw [toNat_nGen]; exact cnt_le mk 16384)
  rw [toNat_nGen] at h; exact h

/-- A token's rank among the second kind is the number of set bits before it. -/
private theorem toNat_rankGen (t : Fin 16384) : (rankGen mk (ix1 t)).toNat = cnt mk t.val := by
  show (IntOp.subi (cumsum (gen mk) (ix1 t)) (gen mk (ix1 t))).toNat = _
  have hc := toNat_cumsum_gen mk t
  have hg := toNat_gen mk t
  have hs := cnt_succ mk t.val
  rw [toNat_subi_of_le _ _ (by omega), hc, hg]; omega

/-- A token's rank among the first kind is the number of clear bits before it. -/
private theorem toNat_rankUnd (t : Fin 16384) : (rankUnd mk (ix1 t)).toNat = t.val - cnt mk t.val := by
  show (IntOp.subi (cumsum (und mk) (ix1 t)) (und mk (ix1 t))).toNat = _
  have hc := toNat_cumsum_und mk t
  have hu := toNat_und mk t
  have hs := cnt_succ mk t.val
  have hb := bit_le_one mk t.val
  have hl := cnt_le mk t.val
  rw [toNat_subi_of_le _ _ (by omega), hc, hu]; omega

/-- Token t's row: PU + c t for the second kind, t − c t for the first. -/
private theorem toNat_pos (t : Fin 16384) : (pos mk (ix1 t)).toNat
    = if bit mk t.val = 1 then (16384 - cnt mk 16384 + 511) / 512 * 512 + cnt mk t.val else t.val - cnt mk t.val := by
  show (Scalar.select (mk (ix1 t)) (IntOp.addi (rep (padUnd mk) (ix1 t)) (rankGen mk (ix1 t))) (rankUnd mk (ix1 t))).toNat = _
  rw [rep_apply]
  by_cases hb : bit mk t.val = 1
  · rw [if_pos hb, (bit_eq_one_iff mk t).mp hb, select_one,
      toNat_addi_of_lt _ _ (by rw [toNat_padUnd, toNat_rankGen]; have := cnt_le mk t.val; have := t.isLt; omega),
      toNat_padUnd, toNat_rankGen]
  · rw [if_neg hb, eq_zero_of_ne_one (fun h => hb ((bit_eq_one_iff mk t).mpr h)), select_zero, toNat_rankUnd]

/-- Every row is below 17408: a token of the second kind has c t < G ≤ PG and PU + PG ≤ 17406. -/
private theorem toNat_pos_lt (t : Fin 16384) : (pos mk (ix1 t)).toNat < 17408 := by
  rw [toNat_pos]
  have hs := cnt_succ mk t.val
  have hm := (cnt_mono mk (show t.val + 1 ≤ 16384 from t.isLt)).1
  have hG := cnt_le mk 16384
  have ht := t.isLt
  split_ifs with hb <;> omega

/-- A row is never negative, so the wrapped row is the row. -/
private theorem posN_eq (t : Fin 16384) : posN mk (ix1 t) = pos mk (ix1 t) := by
  show Scalar.select (IntOp.cmpi .slt (pos mk (ix1 t)) (rep (lit 0#32) (ix1 t))) (IntOp.addi (pos mk (ix1 t)) (rep (lit 17408#32) (ix1 t)))
    (pos mk (ix1 t)) = _
  rw [rep_apply]
  have hp := toNat_pos_lt mk t
  have hc : ¬ IntOp.cmpi .slt (pos mk (ix1 t)) (lit 0#32 ix0) = 1#1 := by
    rw [StableHlo.Predicate.slt_iff_toNat (by omega) (by decide)]
    exact Nat.not_lt_zero _
  rw [eq_zero_of_ne_one hc, select_zero]

/-- Of two tokens the later one never shares the earlier one's row. -/
private theorem pos_ne_of_lt (t t' : Fin 16384) (hlt : t.val < t'.val) :
    (pos mk (ix1 t)).toNat ≠ (pos mk (ix1 t')).toNat := by
  rw [toNat_pos, toNat_pos]
  have hs := cnt_succ mk t.val
  have hs' := cnt_succ mk t'.val
  have hb := bit_le_one mk t.val
  have hb' := bit_le_one mk t'.val
  have hm := cnt_mono mk (show t.val + 1 ≤ t'.val from hlt)
  have hm1 := cnt_mono mk (show t.val + 1 ≤ 16384 from t.isLt)
  have hm2 := cnt_mono mk (show t'.val + 1 ≤ 16384 from t'.isLt)
  have hl := cnt_le mk t.val
  have hl' := cnt_le mk t'.val
  have hG := cnt_le mk 16384
  split_ifs with h1 h2 h2 <;> omega

/-! ## The tiles -/

private theorem toNat_tileStart (j : Fin 34) : (tileStart (ix1 j)).toNat = 512 * j.val := by
  show (IntOp.muli (BitVec.ofNat 32 j.val) (rep34 (lit 512#32) (ix1 j))).toNat = _
  rw [rep34_apply]
  have hj : (BitVec.ofNat 32 j.val).toNat = j.val := by
    rw [BitVec.toNat_ofNat]; exact Nat.mod_eq_of_lt (by have := j.isLt; omega)
  show (IntOp.muli (BitVec.ofNat 32 j.val) 512#32).toNat = _
  rw [toNat_muli_of_lt _ _ (by rw [hj]; show _ * 512 < _; have := j.isLt; omega), hj]
  show j.val * 512 = _; omega

/-- A select on a signed comparison of two words below 2³¹ is the `if` on their values. -/
private theorem select_slt {α : Type} (a b : BitVec 32) (ha : a.toNat < 2 ^ 31) (hb : b.toNat < 2 ^ 31) (x y : α) :
    Scalar.select (IntOp.cmpi .slt a b) x y = if a.toNat < b.toNat then x else y := by
  by_cases h : a.toNat < b.toNat
  · rw [if_pos h, (StableHlo.Predicate.slt_iff_toNat ha hb).mpr h, select_one]
  · rw [if_neg h, eq_zero_of_ne_one (fun hc => h ((StableHlo.Predicate.slt_iff_toNat ha hb).mp hc)), select_zero]

/-- Tile j's expert: 0 below PU, 1 from PU to below PU + PG, 0 beyond. -/
private theorem etab_eq (j : Fin 34) : etab mk (ix1 j)
    = if 512 * j.val < (16384 - cnt mk 16384 + 511) / 512 * 512 then 0#32
      else if 512 * j.val < (16384 - cnt mk 16384 + 511) / 512 * 512 + (cnt mk 16384 + 511) / 512 * 512 then 1#32 else 0#32 := by
  have hG := cnt_le mk 16384
  have hj := j.isLt
  have hsum : (addi (padUnd mk) (padGen mk) ix0).toNat
      = (16384 - cnt mk 16384 + 511) / 512 * 512 + (cnt mk 16384 + 511) / 512 * 512 := by
    show (IntOp.addi (padUnd mk ix0) (padGen mk ix0)).toNat = _
    rw [toNat_addi_of_lt _ _ (by rw [toNat_padUnd, toNat_padGen]; omega), toNat_padUnd, toNat_padGen]
  show Scalar.select (IntOp.cmpi .slt (tileStart (ix1 j)) (rep34 (padUnd mk) (ix1 j))) (rep34 (lit 0#32) (ix1 j))
    (Scalar.select (IntOp.cmpi .slt (tileStart (ix1 j)) (rep34 (addi (padUnd mk) (padGen mk)) (ix1 j))) (rep34 (lit 1#32) (ix1 j))
      (rep34 (lit 0#32) (ix1 j))) = _
  simp only [rep34_apply]
  rw [select_slt _ _ (by rw [toNat_tileStart]; omega) (by rw [toNat_padUnd]; omega),
    select_slt _ _ (by rw [toNat_tileStart]; omega) (by rw [hsum]; omega),
    toNat_tileStart, toNat_padUnd, hsum]
  rfl

/-! ## The four facts -/

/-- Every tile's expert is 0 or 1. -/
theorem etab_zero_or_one (j : Fin 34) : etab mk (ix1 j) = 0#32 ∨ etab mk (ix1 j) = 1#32 := by
  rw [etab_eq]
  split_ifs
  · exact Or.inl rfl
  · exact Or.inr rfl
  · exact Or.inl rfl

/-- Every destination row is inside the padded table of 17408 rows. -/
theorem posN_lt (t : Fin 16384) : (posN mk (ix1 t)).toNat < 17408 := by
  rw [posN_eq]; exact toNat_pos_lt mk t

/-- No two tokens share a destination row. -/
theorem posN_inj (t t' : Fin 16384) (h : (posN mk (ix1 t)).toNat = (posN mk (ix1 t')).toNat) : t = t' := by
  rw [posN_eq, posN_eq] at h
  rcases Nat.lt_trichotomy t.val t'.val with hlt | heq | hgt
  · exact absurd h (pos_ne_of_lt mk t t' hlt)
  · exact Fin.ext heq
  · exact absurd h.symm (pos_ne_of_lt mk t' t hgt)

/-- The tile a token lands in belongs to the expert its mask bit names. -/
theorem etab_posN (t : Fin 16384) (j : Fin 34) (hj : j.val = (posN mk (ix1 t)).toNat / 512) :
    (etab mk (ix1 j)).toNat = bit mk t.val := by
  rw [posN_eq, toNat_pos] at hj
  rw [etab_eq]
  have hs := cnt_succ mk t.val
  have hb := bit_le_one mk t.val
  have hm := cnt_mono mk (show t.val + 1 ≤ 16384 from t.isLt)
  have hl := cnt_le mk t.val
  have hG := cnt_le mk 16384
  have ht := t.isLt
  by_cases h1 : bit mk t.val = 1
  · rw [if_pos h1] at hj
    rw [h1, if_neg (by omega), if_pos (by omega)]; rfl
  · rw [if_neg h1] at hj
    rw [if_pos (by omega)]
    show 0 = bit mk t.val; omega

end Cert.Moe.Route

end
-- ==== Proof.KernelOk.lean ====
/-
  The pipeline's side condition on the prefetched table holds for every launch memory: each word of the
  tile-to-expert table is 0 or 1, so the expert-indexed weight blocks `(e, 0, i)` / `(e, i, 0)` lie inside the
  stacked arrays of leading extent 2, and a weight block's row count (2048 or 256) is a multiple of the bf16 packing.
-/
import proofs.«412017_j84739704750514_3_alg».proof.Proof.KernelHostRead
import proofs.«412017_j84739704750514_3_alg».proof.Proof.RouteFacts

set_option maxRecDepth 16384

noncomputable section

namespace Cert.Kernel.OkOfTable

open Cert.Kernel Cert.Kernel.Gen Cert.Kernel.HostRead
open Idealize.ShloMosaic Idealize.ShloMosaic.TcCoe Idealize.SL.Sem Idealize.ShloMosaic.ValueIdx

variable {F : FTy → Type} [FloatOps F]
variable (m : (ℓ : Loc nD τ sig) → Buf (Elt F) ℓ)

/-- Every word of the prefetched table is at most 1. -/
theorem tbl_le_one (x : S34.Idx) : ((tbl m 0 : S34.Idx → BitVec 32) x).toNat ≤ 1 := by
  rw [tbl_eq]
  obtain ⟨j, rfl⟩ : ∃ j : Fin 34, x = ix1 j := ⟨x 0, eq_ix1 x⟩
  rcases Cert.Moe.Route.etab_zero_or_one (maskFlat m 0) j with h | h <;> rw [h] <;> decide

/-- A grid coordinate on the hidden axis is below 22. -/
theorem coord1_lt (i : grid0.Coords) : (i 1).val < 22 := (i 1).isLt

/-- THE SIDE CONDITION, for every launch memory. -/
theorem ok : Ok m := by
  have hw := tbl_le_one m
  refine ⟨fun i => ?_, fun i => ?_, fun i => ?_⟩
  · obtain ⟨w, hw', e⟩ : ∃ w : BitVec 32, w.toNat ≤ 1 ∧
        cc0_transform_1 Facts₀.k0_off1_inb Facts₀.numel1_S1 (tbl m) i = ![w.toNat, (0#32 : BitVec 32).toNat, (BitVec.ofNat 32 (i 1).val).toNat] :=
      ⟨_, hw _, rfl⟩
    refine ⟨fun a => ?_, Or.inr (Affine.block_words_dvd (of_decide_eq_true rfl) (by decide))⟩
    rw [e]
    have h1 := coord1_lt i
    have h2 : (BitVec.ofNat 32 (i 1).val).toNat = (i 1).val := by
      rw [BitVec.toNat_ofNat]; exact Nat.mod_eq_of_lt (by omega)
    fin_cases a <;> simp [S1x2048x256, S2x2048x5632, h2] <;> omega
  · obtain ⟨w, hw', e⟩ : ∃ w : BitVec 32, w.toNat ≤ 1 ∧
        cc0_transform_2 Facts₀.k0_off1_inb Facts₀.numel1_S1 (tbl m) i = ![w.toNat, (0#32 : BitVec 32).toNat, (BitVec.ofNat 32 (i 1).val).toNat] :=
      ⟨_, hw _, rfl⟩
    refine ⟨fun a => ?_, Or.inr (Affine.block_words_dvd (of_decide_eq_true rfl) (by decide))⟩
    rw [e]
    have h1 := coord1_lt i
    have h2 : (BitVec.ofNat 32 (i 1).val).toNat = (i 1).val := by
      rw [BitVec.toNat_ofNat]; exact Nat.mod_eq_of_lt (by omega)
    fin_cases a <;> simp [S1x2048x256, S2x2048x5632, h2] <;> omega
  · obtain ⟨w, hw', e⟩ : ∃ w : BitVec 32, w.toNat ≤ 1 ∧
        cc0_transform_3 Facts₀.k0_off1_inb Facts₀.numel1_S1 (tbl m) i = ![w.toNat, (BitVec.ofNat 32 (i 1).val).toNat, (0#32 : BitVec 32).toNat] :=
      ⟨_, hw _, rfl⟩
    refine ⟨fun a => ?_, Or.inr (Affine.block_words_dvd (of_decide_eq_true rfl) (by decide))⟩
    rw [e]
    have h1 := coord1_lt i
    have h2 : (BitVec.ofNat 32 (i 1).val).toNat = (i 1).val := by
      rw [BitVec.toNat_ofNat]; exact Nat.mod_eq_of_lt (by omega)
    fin_cases a <;> simp [S1x256x2048, S2x5632x2048, h2] <;> omega

end Cert.Kernel.OkOfTable

end
-- ==== Proof.HostRead.lean ====
/-
  What the host lines before the pallas_call leave in the buffers the call reads, as terms of the argument arrays:
  the tile-to-expert table, the padded token table (an overwriting row scatter of the tokens at their destination
  rows into zeros) and the three stacked weight arrays (the two experts' matrices concatenated along a new leading axis).
-/
import proofs.«412017_j84739704750514_3_alg».proof.Proof.Gen.KernelIdeal.Frame.Runs
import proofs.«412017_j84739704750514_3_alg».proof.Proof.Route
import Idealize.ShloMosaic.Lib.StableHlo.Run

set_option maxRecDepth 16384

noncomputable section

namespace Cert.KernelIdeal.HostRead

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The boolean mask flattened to one axis of 16384 tokens. -/
def maskFlat (c : Dev nD) : IVec Cert.Moe.S16384 1 :=
  shapeCast S16384 (m ((c : Thread nD τ).loc main_arg1)) shapeCasts_S4x4096_S16384

/-- The token rows flattened to `[16384, 2048]`. -/
def xFlat (c : Dev nD) : Vec F S16384x2048 .f32 :=
  shapeCast S16384x2048 (m ((c : Thread nD τ).loc main_arg0)) shapeCasts_S4x4096x2048_S16384x2048

set_option maxHeartbeats 4000000 in
/-- The prefetched table is the tile-to-expert table of the flattened mask. -/
theorem tbl_eq : (tbl m 0 : S34.Idx → BitVec 32) = Cert.Moe.Route.etab (maskFlat m 0) := by
  unfold tbl
  show (V m 0 main_v31 : S34.Idx → BitVec 32) = _
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  simp only [StableHlo.TRef.ofBuf, StableHlo.TRef.toBuf, cast_eq]
  rfl

set_option maxHeartbeats 4000000 in
/-- The padded token table: zeros overwritten, row by row, by the tokens (narrowed to bf16) at their destination rows. -/
theorem V_v40 (c : Dev nD) :
    (V m c main_v40 : S17408x2048.Idx → Elt F .bf16)
      = Host.scatter scatter_S17408x2048_S16384x1_S16384x2048_1_0_0_1 (fun _ b => b)
          (broadcastInDim S17408x2048 ![] bcast_S_S17408x2048 (constant S_ .bf16 0x0000#16))
          (Cert.Moe.Route.posCol (maskFlat m c))
          (truncf .bf16 (xFlat m c) bitsLt_bf16_f32) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  simp only [StableHlo.TRef.ofBuf, StableHlo.TRef.toBuf, cast_eq]
  rfl

set_option maxHeartbeats 4000000 in
/-- The stacked gate matrices: the first expert's, then the second's, narrowed to bf16. -/
theorem V_v44 (c : Dev nD) :
    (V m c main_v44 : S2x2048x5632.Idx → Elt F .bf16)
      = truncf .bf16 (concatenate S2x2048x5632 0
          [⟨S1x2048x5632, broadcastInDim S1x2048x5632 ![1, 2] bcast_S2048x5632_S1x2048x5632_1_2 (m ((c : Thread nD τ).loc main_arg2))⟩,
           ⟨S1x2048x5632, broadcastInDim S1x2048x5632 ![1, 2] bcast_S2048x5632_S1x2048x5632_1_2 (m ((c : Thread nD τ).loc main_arg5))⟩]
          concatenates_S1x2048x5632_S1x2048x5632_S2x2048x5632_d0) bitsLt_bf16_f32 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  rfl

set_option maxHeartbeats 4000000 in
/-- The stacked up matrices. -/
theorem V_v48 (c : Dev nD) :
    (V m c main_v48 : S2x2048x5632.Idx → Elt F .bf16)
      = truncf .bf16 (concatenate S2x2048x5632 0
          [⟨S1x2048x5632, broadcastInDim S1x2048x5632 ![1, 2] bcast_S2048x5632_S1x2048x5632_1_2 (m ((c : Thread nD τ).loc main_arg3))⟩,
           ⟨S1x2048x5632, broadcastInDim S1x2048x5632 ![1, 2] bcast_S2048x5632_S1x2048x5632_1_2 (m ((c : Thread nD τ).loc main_arg6))⟩]
          concatenates_S1x2048x5632_S1x2048x5632_S2x2048x5632_d0) bitsLt_bf16_f32 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  rfl

set_option maxHeartbeats 4000000 in
/-- The stacked down matrices. -/
theorem V_v52 (c : Dev nD) :
    (V m c main_v52 : S2x5632x2048.Idx → Elt F .bf16)
      = truncf .bf16 (concatenate S2x5632x2048 0
          [⟨S1x5632x2048, broadcastInDim S1x5632x2048 ![1, 2] bcast_S5632x2048_S1x5632x2048_1_2 (m ((c : Thread nD τ).loc main_arg4))⟩,
           ⟨S1x5632x2048, broadcastInDim S1x5632x2048 ![1, 2] bcast_S5632x2048_S1x5632x2048_1_2 (m ((c : Thread nD τ).loc main_arg7))⟩]
          concatenates_S1x5632x2048_S1x5632x2048_S2x5632x2048_d0) bitsLt_bf16_f32 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  rfl

end Cert.KernelIdeal.HostRead

end
-- ==== Proof.KernelIdealOk.lean ====
/-
  The pipeline's side condition on the prefetched table holds for every launch memory: each word of the
  tile-to-expert table is 0 or 1, so the expert-indexed weight blocks `(e, 0, i)` / `(e, i, 0)` lie inside the
  stacked arrays of leading extent 2, and a weight block's row count (2048 or 256) is a multiple of the bf16 packing.
-/
import proofs.«412017_j84739704750514_3_alg».proof.Proof.HostRead
import proofs.«412017_j84739704750514_3_alg».proof.Proof.RouteFacts

set_option maxRecDepth 16384

noncomputable section

namespace Cert.KernelIdeal.OkOfTable

open Cert.KernelIdeal Cert.KernelIdeal.Gen Cert.KernelIdeal.HostRead
open Idealize.ShloMosaic Idealize.ShloMosaic.TcCoe Idealize.SL.Sem Idealize.ShloMosaic.ValueIdx

variable {F : FTy → Type} [FloatOps F]
variable (m : (ℓ : Loc nD τ sig) → Buf (Elt F) ℓ)

/-- Every word of the prefetched table is at most 1. -/
theorem tbl_le_one (x : S34.Idx) : ((tbl m 0 : S34.Idx → BitVec 32) x).toNat ≤ 1 := by
  rw [tbl_eq]
  obtain ⟨j, rfl⟩ : ∃ j : Fin 34, x = ix1 j := ⟨x 0, eq_ix1 x⟩
  rcases Cert.Moe.Route.etab_zero_or_one (maskFlat m 0) j with h | h <;> rw [h] <;> decide

/-- A grid coordinate on the hidden axis is below 22. -/
theorem coord1_lt (i : grid0.Coords) : (i 1).val < 22 := (i 1).isLt

/-- THE SIDE CONDITION, for every launch memory. -/
theorem ok : Ok m := by
  have hw := tbl_le_one m
  refine ⟨fun i => ?_, fun i => ?_, fun i => ?_⟩
  · obtain ⟨w, hw', e⟩ : ∃ w : BitVec 32, w.toNat ≤ 1 ∧
        cc0_transform_1 Facts₀.k0_off1_inb Facts₀.numel1_S1 (tbl m) i = ![w.toNat, (0#32 : BitVec 32).toNat, (BitVec.ofNat 32 (i 1).val).toNat] :=
      ⟨_, hw _, rfl⟩
    refine ⟨fun a => ?_, Or.inr (Affine.block_words_dvd (of_decide_eq_true rfl) (by decide))⟩
    rw [e]
    have h1 := coord1_lt i
    have h2 : (BitVec.ofNat 32 (i 1).val).toNat = (i 1).val := by
      rw [BitVec.toNat_ofNat]; exact Nat.mod_eq_of_lt (by omega)
    fin_cases a <;> simp [S1x2048x256, S2x2048x5632, h2] <;> omega
  · obtain ⟨w, hw', e⟩ : ∃ w : BitVec 32, w.toNat ≤ 1 ∧
        cc0_transform_2 Facts₀.k0_off1_inb Facts₀.numel1_S1 (tbl m) i = ![w.toNat, (0#32 : BitVec 32).toNat, (BitVec.ofNat 32 (i 1).val).toNat] :=
      ⟨_, hw _, rfl⟩
    refine ⟨fun a => ?_, Or.inr (Affine.block_words_dvd (of_decide_eq_true rfl) (by decide))⟩
    rw [e]
    have h1 := coord1_lt i
    have h2 : (BitVec.ofNat 32 (i 1).val).toNat = (i 1).val := by
      rw [BitVec.toNat_ofNat]; exact Nat.mod_eq_of_lt (by omega)
    fin_cases a <;> simp [S1x2048x256, S2x2048x5632, h2] <;> omega
  · obtain ⟨w, hw', e⟩ : ∃ w : BitVec 32, w.toNat ≤ 1 ∧
        cc0_transform_3 Facts₀.k0_off1_inb Facts₀.numel1_S1 (tbl m) i = ![w.toNat, (BitVec.ofNat 32 (i 1).val).toNat, (0#32 : BitVec 32).toNat] :=
      ⟨_, hw _, rfl⟩
    refine ⟨fun a => ?_, Or.inr (Affine.block_words_dvd (of_decide_eq_true rfl) (by decide))⟩
    rw [e]
    have h1 := coord1_lt i
    have h2 : (BitVec.ofNat 32 (i 1).val).toNat = (i 1).val := by
      rw [BitVec.toNat_ofNat]; exact Nat.mod_eq_of_lt (by omega)
    fin_cases a <;> simp [S1x256x2048, S2x5632x2048, h2] <;> omega

end Cert.KernelIdeal.OkOfTable

end
-- ==== Proof.LibScatterRows.lean ====
/-
  The host's accumulating scatter and its row gather, read at one index, over the extended reals.

  An accumulating scatter adds to each element of its operand the sum of the update elements that land on it. An update
  element lands on the element whose coordinate, on every axis, is the update's start (an entry of the index array read
  as a SIGNED integer, and not clamped) plus its window coordinate; when that point is outside the operand on some axis
  the update is dropped. `resultIdx?_eq_some_iff` says this for any dimension numbers: landing on `i` is the system of
  equations "start + window = coordinate of `i`", one per axis, the range conditions being `i`'s own.

  Two shapes of dimension numbers are then solved, for sizes that are variables.
  * POINTS: updates `[N]`, index pairs `[N, 2]`, operand `[A, B]`. Update `j` lands on `(p, q)` iff its pair is
    `(p, q)`, so element `(p, q)` of the result is `x (p, q) + ∑ {j | pair j = (p, q)} upd j`
    (`scatterAdd_point_apply`).
  * ROWS: updates `[N, C]`, row indices `[N, 1]`, operand `[A, C]`. Element `(j, b')` of the updates lands on
    `(p, b)` iff row `j`'s index is `p` and `b' = b`, so element `(p, b)` of the result is
    `x (p, b) + ∑ {j | index j = p} upd (j, b)` (`scatterAdd_rows_apply`): the sum over update elements collapses
    onto column `b`.
  Last, the gather that takes rows of a table `[A, C]` at indices `[N, 1]`: element `(j, b)` of the result is the table
  at row `min (index j)⁺ (A − 1)` and column `b`, the index read signed and clamped into the table (`gather_rows_apply`).
-/
import Idealize.ShloMosaic.PureOps.Ideal
import Idealize.ShloMosaic.Lib.ValueIdx

noncomputable section

open scoped BigOperators

namespace Cert.ScatterRows

open Idealize.ShloMosaic Idealize.ShloMosaic.ValueIdx

/-- An update lands on element `i` exactly when, on every axis, its signed start plus its window coordinate
    is `i`'s coordinate: the range conditions are then `i`'s own. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hr
      have hi := congrFun (Option.some.inj h) a
      have hv := congrArg Fin.val hi
      simp only at hv
      have := (hr a).1
      omega
    · exact absurd h (by simp)
  · intro h
    have hr : ∀ a, 0 ≤ d.start j idx a + (d.window j a : Int) ∧ d.start j idx a + (d.window j a : Int) < s.size a := by
      intro a
      have := h a
      have := (i a).isLt
      omega
    rw [dif_pos hr]
    congr 1
    funext a
    refine Fin.ext ?_
    have := h a
    simp only
    omega

/-! ## One scalar update per index pair -/

/-- one scalar update per index pair: updates [N], indices [N,2] (index vector on axis 1), operand [A,B] -/
abbrev pointDims (A B N : Nat) (wf : ScatterDims.WF ⟨2, ![A, B]⟩ ⟨2, ![N, 2]⟩ ⟨1, ![N]⟩ [] [0, 1] [0, 1] 1) :
    ScatterDims ⟨2, ![A, B]⟩ ⟨2, ![N, 2]⟩ ⟨1, ![N]⟩ := ⟨[], [0, 1], [0, 1], 1, wf⟩

section Point
variable {A B N w : Nat} (wf : ScatterDims.WF ⟨2, ![A, B]⟩ ⟨2, ![N, 2]⟩ ⟨1, ![N]⟩ [] [0, 1] [0, 1] 1)

/-- Update `j` reads component `k` of its index pair at position `(j, k)` of the index array. -/
theorem point_siIdx (j : Fin N) (c : Fin (pointDims A B N wf).scatterDimsToOperandDims.length) (k : Fin 2)
    (hc : c.val = k.val) : (pointDims A B N wf).siIdx (ix1 j) c = ix2 j k := by
  funext b; refine Fin.ext ?_
  match b with
  | ⟨0, _⟩ => rfl
  | ⟨1, _⟩ => exact hc

/-- On the operand's first axis the start is the pair's first component, read signed. -/
theorem point_start0 (idx : IVec ⟨2, ![N, 2]⟩ w) (j : Fin N) :
    (pointDims A B N wf).start (ix1 j) idx (0 : Fin 2) = (idx (ix2 j (0 : Fin 2))).toInt := by
  unfold ScatterDims.start
  rw [dif_pos (show (0 : Fin 2) ∈ (pointDims A B N wf).scatterDimsToOperandDims from List.mem_cons_self)]
  rw [point_siIdx wf j _ (0 : Fin 2)]
  rfl

/-- On the operand's second axis the start is the pair's second component, read signed. -/
theorem point_start1 (idx : IVec ⟨2, ![N, 2]⟩ w) (j : Fin N) :
    (pointDims A B N wf).start (ix1 j) idx (1 : Fin 2) = (idx (ix2 j (1 : Fin 2))).toInt := by
  unfold ScatterDims.start
  rw [dif_pos (show (1 : Fin 2) ∈ (pointDims A B N wf).scatterDimsToOperandDims from List.mem_cons_of_mem _ List.mem_cons_self)]
  rw [point_siIdx wf j _ (1 : Fin 2)]
  rfl

/-- Both operand axes are inserted: a scalar update has no window coordinate. -/
theorem point_window (j : (⟨1, ![N]⟩ : Shape).Idx) (a : Fin 2) : (pointDims A B N wf).window j a = 0 := by
  unfold ScatterDims.window
  rw [dif_neg (show a ∉ (pointDims A B N wf).sKept from by
    have : (pointDims A B N wf).sKept = [] := rfl
    rw [this]; exact List.not_mem_nil)]

/-- Update `j` lands on `(p, q)` exactly when its index pair, read signed, is `(p, q)`. -/
theorem point_resultIdx?_iff (idx : IVec ⟨2, ![N, 2]⟩ w) (j : Fin N) (p : Fin A) (q : Fin B) :
    (pointDims A B N wf).resultIdx? (ix1 j) idx = some (ix2 p q)
      ↔ (idx (ix2 j (0 : Fin 2))).toInt = (p.val : Int) ∧ (idx (ix2 j (1 : Fin 2))).toInt = (q.val : Int) := by
  rw [resultIdx?_eq_some_iff, Fin.forall_fin_two, point_start0, point_start1, point_window, point_window]
  simp only [Nat.cast_zero, add_zero]

end Point

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- THE POINT SCATTER READ AT `(p, q)`: the operand's element plus the sum of the updates whose index pair, read
    signed, is `(p, q)`; an update whose pair is outside the operand is in no such sum. -/
theorem scatterAdd_point_apply {A B N w : Nat} {φ : FTy} (wf : ScatterDims.WF ⟨2, ![A, B]⟩ ⟨2, ![N, 2]⟩ ⟨1, ![N]⟩ [] [0, 1] [0, 1] 1)
    (x : FVec Ideal ⟨2, ![A, B]⟩ φ) (idx : IVec ⟨2, ![N, 2]⟩ w) (upd : FVec Ideal ⟨1, ![N]⟩ φ) (p : Fin A) (q : Fin B) :
    Host.scatterAdd (pointDims A B N wf) x idx upd (ix2 p q)
      = x (ix2 p q) + ∑ j ∈ Finset.univ.filter (fun j : Fin N => (idx (ix2 j (0 : Fin 2))).toInt = (p.val : Int) ∧ (idx (ix2 j (1 : Fin 2))).toInt = (q.val : Int)), upd (ix1 j) := by
  show Ideal.hostScatterAdd (pointDims A B N wf) x idx upd (ix2 p q) = _
  unfold Ideal.hostScatterAdd
  congr 1
  refine Finset.sum_equiv idxEquiv1 ?_ ?_
  · intro j'
    obtain ⟨j, rfl⟩ : ∃ j, j' = ix1 j := ⟨j' 0, eq_ix1 j'⟩
    simp only [Finset.mem_filter, Finset.mem_univ, true_and]
    exact point_resultIdx?_iff wf idx j p q
  · intro j' _
    exact congrArg upd (eq_ix1 j')

/-! ## One row update per index -/

/-- one row update per index: updates [N,C] (window axis 1), indices [N,1] (index vector on axis 1), operand [A,C], rows inserted on axis 0 -/
abbrev rowDims (A C N : Nat) (wf : ScatterDims.WF ⟨2, ![A, C]⟩ ⟨2, ![N, 1]⟩ ⟨2, ![N, C]⟩ [1] [0] [0] 1) :
    ScatterDims ⟨2, ![A, C]⟩ ⟨2, ![N, 1]⟩ ⟨2, ![N, C]⟩ := ⟨[1], [0], [0], 1, wf⟩

section Rows
variable {A C N w : Nat} (wf : ScatterDims.WF ⟨2, ![A, C]⟩ ⟨2, ![N, 1]⟩ ⟨2, ![N, C]⟩ [1] [0] [0] 1)

/-- Every element of update row `j` reads its one start component at position `(j, 0)` of the index array. -/
theorem rows_siIdx (j : Fin N) (b : Fin C) (c : Fin (rowDims A C N wf).scatterDimsToOperandDims.length) :
    (rowDims A C N wf).siIdx (ix2 j b) c = ix2 j (0 : Fin 1) := by
  funext k; refine Fin.ext ?_
  match k with
  | ⟨0, _⟩ => rfl
  | ⟨1, _⟩ =>
    show c.val = 0
    have : c.val < 1 := c.isLt
    omega

/-- On the row axis the start is the row index, read signed. -/
theorem rows_start0 (idx : IVec ⟨2, ![N, 1]⟩ w) (j : Fin N) (b : Fin C) :
    (rowDims A C N wf).start (ix2 j b) idx (0 : Fin 2) = (idx (ix2 j (0 : Fin 1))).toInt := by
  unfold ScatterDims.start
  rw [dif_pos (show (0 : Fin 2) ∈ (rowDims A C N wf).scatterDimsToOperandDims from List.mem_cons_self)]
  rw [rows_siIdx]

/-- The column axis is not indexed: its start is zero. -/
theorem rows_start1 (idx : IVec ⟨2, ![N, 1]⟩ w) (j : Fin N) (b : Fin C) :
    (rowDims A C N wf).start (ix2 j b) idx (1 : Fin 2) = 0 := by
  unfold ScatterDims.start
  rw [dif_neg (show (1 : Fin 2) ∉ (rowDims A C N wf).scatterDimsToOperandDims from by
    show (1 : Fin 2) ∉ ([0] : List (Fin 2))
    decide)]

/-- The row axis is inserted: no window coordinate there. -/
theorem rows_window0 (j : Fin N) (b : Fin C) : (rowDims A C N wf).window (ix2 j b) (0 : Fin 2) = 0 := by
  unfold ScatterDims.window
  rw [dif_neg (show (0 : Fin 2) ∉ (rowDims A C N wf).sKept from by
    show (0 : Fin 2) ∉ ([1] : List (Fin 2))
    decide)]

/-- On the column axis the window coordinate is the update's column. -/
theorem rows_window1 (j : Fin N) (b : Fin C) : (rowDims A C N wf).window (ix2 j b) (1 : Fin 2) = b.val := by
  unfold ScatterDims.window
  rw [dif_pos (show (1 : Fin 2) ∈ (rowDims A C N wf).sKept from by
    have : (rowDims A C N wf).sKept = [1] := rfl
    rw [this]; exact List.mem_cons_self)]
  rfl

/-- An update element lands on `(p, b)` exactly when its row's index, read signed, is `p` and its column is `b`. -/
theorem rows_resultIdx?_iff (idx : IVec ⟨2, ![N, 1]⟩ w) (j' : (⟨2, ![N, C]⟩ : Shape).Idx) (p : Fin A) (b : Fin C) :
    (rowDims A C N wf).resultIdx? j' idx = some (ix2 p b)
      ↔ (idx (ix2 (j' 0) (0 : Fin 1))).toInt = (p.val : Int) ∧ j' 1 = b := by
  obtain ⟨j, b', rfl⟩ : ∃ j b', j' = ix2 j b' := ⟨j' 0, j' 1, eq_ix2 j'⟩
  show _ ↔ (idx (ix2 j (0 : Fin 1))).toInt = (p.val : Int) ∧ b' = b
  rw [resultIdx?_eq_some_iff, Fin.forall_fin_two, rows_start0, rows_start1, rows_window0, rows_window1]
  simp only [Nat.cast_zero, add_zero, zero_add]
  constructor
  · rintro ⟨h0, h1⟩
    exact ⟨h0, Fin.ext (Int.ofNat_inj.mp h1)⟩
  · rintro ⟨h0, rfl⟩
    exact ⟨h0, rfl⟩

end Rows

/-- THE ROW SCATTER READ AT `(p, b)`: the operand's element plus the sum, over the update rows whose index read
    signed is `p`, of that row's element in column `b`; a row whose index is outside the operand is in no such sum. -/
theorem scatterAdd_rows_apply {A C N w : Nat} {φ : FTy} (wf : ScatterDims.WF ⟨2, ![A, C]⟩ ⟨2, ![N, 1]⟩ ⟨2, ![N, C]⟩ [1] [0] [0] 1)
    (x : FVec Ideal ⟨2, ![A, C]⟩ φ) (idx : IVec ⟨2, ![N, 1]⟩ w) (upd : FVec Ideal ⟨2, ![N, C]⟩ φ) (p : Fin A) (b : Fin C) :
    Host.scatterAdd (rowDims A C N wf) x idx upd (ix2 p b)
      = x (ix2 p b) + ∑ j ∈ Finset.univ.filter (fun j : Fin N => (idx (ix2 j (0 : Fin 1))).toInt = (p.val : Int)), upd (ix2 j b) := by
  show Ideal.hostScatterAdd (rowDims A C N wf) x idx upd (ix2 p b) = _
  unfold Ideal.hostScatterAdd
  congr 1
  have hcol : ∀ j' ∈ Finset.univ.filter (fun j' => (rowDims A C N wf).resultIdx? j' idx = some (ix2 p b)),
      ix2 (j' 0) b = j' := by
    intro j' hj'
    rw [Finset.mem_filter] at hj'
    have h := ((rows_resultIdx?_iff wf idx j' p b).mp hj'.2).2
    rw [← h]
    exact (eq_ix2 j').symm
  refine Finset.sum_nbij' (fun j' => j' 0) (fun j => ix2 j b) ?_ ?_ ?_ ?_ ?_
  · intro j' hj'
    rw [Finset.mem_filter] at hj'
    exact Finset.mem_filter.mpr ⟨Finset.mem_univ _, ((rows_resultIdx?_iff wf idx j' p b).mp hj'.2).1⟩
  · intro j hj
    rw [Finset.mem_filter] at hj
    exact Finset.mem_filter.mpr ⟨Finset.mem_univ _, (rows_resultIdx?_iff wf idx (ix2 j b) p b).mpr ⟨hj.2, rfl⟩⟩
  · exact hcol
  · intro j _
    rfl
  · intro j' hj'
    exact congrArg upd (hcol j' hj').symm

/-! ## Taking rows of a table -/

/-- take rows of a table [A,C] at indices [N,1]: result [N,C]; offset_dims [1], collapsed [0], start_index_map [0], index vector on axis 1, slice sizes [1, C] -/
abbrev rowGather (A C N : Nat) (wf : GatherDims.WF ⟨2, ![A, C]⟩ ⟨2, ![N, 1]⟩ ⟨2, ![N, C]⟩ [1] [0] [] [0] [] 1 ![1, C]) :
    GatherDims ⟨2, ![A, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

section Gather
variable {A C N w : Nat} (wf : GatherDims.WF ⟨2, ![A, C]⟩ ⟨2, ![N, 1]⟩ ⟨2, ![N, C]⟩ [1] [0] [] [0] [] 1 ![1, C])

/-- Every element of result row `j` reads its one start component at position `(j, 0)` of the index array. -/
theorem gather_siIdx (j : Fin N) (b : Fin C) (c : Fin (rowGather A C N wf).startIndexMap.length) :
    (rowGather A C N wf).siIdx (ix2 j b) c = ix2 j (0 : Fin 1) := by
  funext k; refine Fin.ext ?_
  match k with
  | ⟨0, _⟩ => rfl
  | ⟨1, _⟩ =>
    show c.val = 0
    have : c.val < 1 := c.isLt
    omega

/-- On the row axis the operand coordinate is the row index, read signed and clamped into `[0, A − 1]`. -/
theorem gather_coord0 (idx : IVec ⟨2, ![N, 1]⟩ w) (j : Fin N) (b : Fin C) :
    (rowGather A C N wf).start (ix2 j b) idx (0 : Fin 2) + (rowGather A C N wf).batchCoord (ix2 j b) (0 : Fin 2)
        + (rowGather A C N wf).offCoord (ix2 j b) (0 : Fin 2)
      = min (idx (ix2 j (0 : Fin 1))).toInt.toNat (A - 1) := by
  rw [GatherDims.batchCoord_eq_zero _ _ _ List.not_mem_nil,
    GatherDims.offCoord_eq_zero _ _ _ (fun h => ((GatherDims.mem_sKept _ _).mp h).1 List.mem_cons_self)]
  simp only [Nat.add_zero]
  unfold GatherDims.start
  rw [dif_pos (show (0 : Fin 2) ∈ (rowGather A C N wf).startIndexMap from List.mem_cons_self)]
  rw [gather_siIdx]
  rfl

/-- On the column axis the operand coordinate is the result's column. -/
theorem gather_coord1 (idx : IVec ⟨2, ![N, 1]⟩ w) (j : Fin N) (b : Fin C) :
    (rowGather A C N wf).start (ix2 j b) idx (1 : Fin 2) + (rowGather A C N wf).batchCoord (ix2 j b) (1 : Fin 2)
        + (rowGather A C N wf).offCoord (ix2 j b) (1 : Fin 2)
      = b.val := by
  have hs : (rowGather A C N wf).start (ix2 j b) idx (1 : Fin 2) = 0 := by
    unfold GatherDims.start
    rw [dif_neg (show (1 : Fin 2) ∉ (rowGather A C N wf).startIndexMap from by
      show (1 : Fin 2) ∉ ([0] : List (Fin 2))
      decide)]
  rw [hs, GatherDims.batchCoord_eq_zero _ _ _ List.not_mem_nil]
  simp only [Nat.add_zero, Nat.zero_add]
  unfold GatherDims.offCoord
  rw [dif_pos (show (1 : Fin 2) ∈ (rowGather A C N wf).sKept from by
    rw [GatherDims.mem_sKept]
    exact ⟨by show (1 : Fin 2) ∉ ([0] : List (Fin 2)); decide, List.not_mem_nil⟩)]
  rfl

end Gather

/-- THE ROW GATHER READ AT `(j, b)`: the table's element in column `b` of the row whose number is index `j`, read
    signed and clamped into `[0, A − 1]`. -/
theorem gather_rows_apply {α : Type} {A C N w : Nat} (hA : 0 < A) (wf : GatherDims.WF ⟨2, ![A, C]⟩ ⟨2, ![N, 1]⟩ ⟨2, ![N, C]⟩ [1] [0] [] [0] [] 1 ![1, C])
    (x : (⟨2, ![A, C]⟩ : Shape).Idx → α) (idx : IVec ⟨2, ![N, 1]⟩ w) (j : Fin N) (b : Fin C) :
    Host.gather (rowGather A C N wf) x idx (ix2 j b)
      = x (ix2 ⟨min (idx (ix2 j (0 : Fin 1))).toInt.toNat (A - 1), by omega⟩ b) := by
  unfold Host.gather
  congr 1
  funext a
  refine Fin.ext ?_
  match a with
  | ⟨0, _⟩ => exact gather_coord0 wf idx j b
  | ⟨1, _⟩ => exact gather_coord1 wf idx j b

end Cert.ScatterRows

end
-- ==== Proof.ScatterSet.lean ====
/-
  The host's overwriting scatter of rows, read at one index.

  Updates `[N, C]` are written at row indices `[N, 1]` into an operand `[A, C]`, each update element REPLACING the
  element it lands on. When exactly one update row `j` has index `p` (read signed), element `(p, b)` of the result
  is the update's element `(j, b)`, whatever the other rows do.
-/
import proofs.«412017_j84739704750514_3_alg».proof.Proof.LibScatterRows

noncomputable section

namespace Cert.ScatterRows

open Idealize.ShloMosaic Idealize.ShloMosaic.ValueIdx

/-- A LEFT FOLD OF STEPS, READ AT ONE POSITION `i₀`. Suppose every step that lands on `i₀` leaves the value `v` there and
    every other step leaves position `i₀` as it was. If the start already holds `v` at `i₀`, or some step of the list
    lands on `i₀`, the fold holds `v` at `i₀`: after the last landing step the position is `v` and nothing later touches
    it. (Induction on the list, the start generalised: the head either lands, and the new start holds `v`, or it does
    not, and the alternative passes to the tail unchanged.) -/
private theorem foldl_apply_of_lands {ι κ α : Type} (step : (ι → α) → κ → (ι → α)) (lands : κ → Prop) (i₀ : ι) (v : α)
    (hland : ∀ r n, lands n → step r n i₀ = v)
    (hmiss : ∀ r n, ¬ lands n → step r n i₀ = r i₀) :
    ∀ (l : List κ) (r : ι → α), (r i₀ = v ∨ ∃ n ∈ l, lands n) → l.foldl step r i₀ = v := by
  intro l
  induction l with
  | nil =>
    intro r h
    rcases h with h | ⟨n, hn, _⟩
    · exact h
    · exact absurd hn List.not_mem_nil
  | cons n t ih =>
    intro r h
    rw [List.foldl_cons]
    apply ih
    by_cases hn : lands n
    · exact Or.inl (hland r n hn)
    · rcases h with h | ⟨m, hm, hml⟩
      · exact Or.inl ((hmiss r n hn).trans h)
      · rcases List.mem_cons.mp hm with rfl | hmt
        · exact absurd hml hn
        · exact Or.inr ⟨m, hmt, hml⟩

/-- THE OVERWRITING ROW SCATTER READ AT `(p, b)` when row `j` is the only update row whose index is `p`. -/
theorem scatterSet_rows_apply {α : Type} {A C N w : Nat}
    (wf : ScatterDims.WF ⟨2, ![A, C]⟩ ⟨2, ![N, 1]⟩ ⟨2, ![N, C]⟩ [1] [0] [0] 1)
    (x : (⟨2, ![A, C]⟩ : Shape).Idx → α) (idx : IVec ⟨2, ![N, 1]⟩ w) (upd : (⟨2, ![N, C]⟩ : Shape).Idx → α)
    (j : Fin N) (p : Fin A) (b : Fin C)
    (hj : (idx (ix2 j (0 : Fin 1))).toInt = (p.val : Int))
    (huniq : ∀ j' : Fin N, (idx (ix2 j' (0 : Fin 1))).toInt = (p.val : Int) → j' = j) :
    Host.scatter (rowDims A C N wf) (fun _ u => u) x idx upd (ix2 p b) = upd (ix2 j b) := by
  -- An update element lands on `(p, b)` iff its row's index is `p` and its column is `b`; by uniqueness of the row
  -- that element is `(j, b)`. So every landing step writes `upd (j, b)`, and the step of `(j, b)` itself is in the fold.
  unfold Host.scatter
  refine foldl_apply_of_lands _
    (fun n => (rowDims A C N wf).resultIdx? ((⟨2, ![N, C]⟩ : Shape).rowMajor.symm n) idx = some (ix2 p b))
    (ix2 p b) (upd (ix2 j b)) ?_ ?_ _ x
    (Or.inr ⟨(⟨2, ![N, C]⟩ : Shape).rowMajor (ix2 j b), List.mem_finRange _, ?_⟩)
  · -- a landing step writes its own update element, which is `(j, b)`'s
    intro r n hn
    have h := (rows_resultIdx?_iff wf idx _ p b).mp hn
    have hrow := huniq _ h.1
    have hpos : (⟨2, ![N, C]⟩ : Shape).rowMajor.symm n = ix2 j b := by
      have hsplit := eq_ix2 ((⟨2, ![N, C]⟩ : Shape).rowMajor.symm n)
      rw [hrow, h.2] at hsplit
      exact hsplit
    simp only [hn]
    rw [if_pos trivial, hpos]
  · -- a step that lands elsewhere, or nowhere, leaves `(p, b)` alone
    intro r n hn
    generalize (rowDims A C N wf).resultIdx? ((⟨2, ![N, C]⟩ : Shape).rowMajor.symm n) idx = o at hn ⊢
    cases o with
    | none => rfl
    | some i =>
      show (if ix2 p b = i then _ else r (ix2 p b)) = r (ix2 p b)
      rw [if_neg]
      intro h
      exact hn (congrArg some h.symm)
  · -- the step of element `(j, b)` lands on `(p, b)`
    show (rowDims A C N wf).resultIdx? ((⟨2, ![N, C]⟩ : Shape).rowMajor.symm ((⟨2, ![N, C]⟩ : Shape).rowMajor (ix2 j b))) idx
      = some (ix2 p b)
    rw [Equiv.symm_apply_apply]
    exact (rows_resultIdx?_iff wf idx _ p b).mpr ⟨hj, rfl⟩

end Cert.ScatterRows

end
-- ==== Proof.HostIndex.lean ====
/-
  The buffers the pallas_call reads, at one index, over the extended reals.

  Token `(b, l)` is token number `4096·b + l` of the flattened arrays; its destination row in the padded table is
  `dest`. The routing facts (destinations inside the table and pairwise distinct) make the overwriting scatter place
  each token's row, unchanged, at its destination; the stacked weight arrays hold the first expert's matrix at leading
  index 0 and the second's at 1; a change of float format is the identity.
-/
import proofs.«412017_j84739704750514_3_alg».proof.Proof.HostRead
import proofs.«412017_j84739704750514_3_alg».proof.Proof.RouteFacts
import proofs.«412017_j84739704750514_3_alg».proof.Proof.ScatterSet
import Idealize.ShloMosaic.Lib.Pipeline.Value

set_option maxRecDepth 16384

noncomputable section

namespace Cert.KernelIdeal.HostIndex

open Cert.KernelIdeal Cert.KernelIdeal.Gen Cert.KernelIdeal.HostRead Idealize.ShloMosaic Idealize.ShloMosaic.TcCoe Idealize.SL.Sem
open Idealize.ShloMosaic.ValueIdx

variable (m : (ℓ : Loc nD τ sig) → Buf (Elt Ideal) ℓ)

/-- The number of token `(b, l)` in the flattened arrays. -/
def tok (b : Fin 4) (l : Fin 4096) : Fin 16384 := ⟨4096 * b.val + l.val, by have := b.isLt; have := l.isLt; omega⟩

/-- Token `t`'s destination row in the padded table. -/
def dest (c : Dev nD) (t : Fin 16384) : Fin 17408 :=
  ⟨(Cert.Moe.Route.posN (maskFlat m c) (ix1 t)).toNat, Cert.Moe.Route.posN_lt (maskFlat m c) t⟩

/-- The flattened mask at token `(b, l)` is the mask at `(b, l)`. -/
theorem maskFlat_apply (c : Dev nD) (b : Fin 4) (l : Fin 4096) :
    maskFlat m c (ix1 (tok b l)) = (m ((c : Thread nD τ).loc main_arg1) : S4x4096.Idx → BitVec 1) (ix2 b l) := by
  -- position `4096·b + l` of the flat array is position `(b, l)` of the `[4, 4096]` array, row-major
  unfold maskFlat
  refine shapeCast_apply _ _ (ix1 (tok b l)) (ix2 b l) ?_
  rw [Shape.rowMajor_val_two, Shape.rowMajor_val_one]
  show b.val * 4096 + l.val = 4096 * b.val + l.val
  omega

/-- The one-column index array at `(t, 0)` is token `t`'s destination word. -/
private theorem posCol_apply (mk : IVec Cert.Moe.S16384 1) (t : Fin 16384) :
    Cert.Moe.Route.posCol mk (ix2 t (0 : Fin 1)) = Cert.Moe.Route.posN mk (ix1 t) := by
  unfold Cert.Moe.Route.posCol
  refine broadcastInDim_apply _ _ _ (ix2 t (0 : Fin 1)) (ix1 t) ?_
  intro a
  match a with
  | ⟨0, _⟩ => rfl

/-- A destination word read as a signed integer is its value: it is below `17408 < 2³¹`. -/
private theorem posCol_toInt (mk : IVec Cert.Moe.S16384 1) (t : Fin 16384) :
    (Cert.Moe.Route.posCol mk (ix2 t (0 : Fin 1))).toInt = ((Cert.Moe.Route.posN mk (ix1 t)).toNat : Int) := by
  rw [posCol_apply]
  have := Cert.Moe.Route.posN_lt mk t
  exact StableHlo.Predicate.toInt_eq_toNat_of_lt (by omega)

/-- The flattened token rows at `(4096·b + l, j)` are the token rows at `(b, l, j)`. -/
private theorem xFlat_apply (c : Dev nD) (b : Fin 4) (l : Fin 4096) (j : Fin 2048) :
    xFlat m c (ix2 (tok b l) j) = (m ((c : Thread nD τ).loc main_arg0) : S4x4096x2048.Idx → EReal) (ix3 b l j) := by
  unfold xFlat
  refine shapeCast_apply _ _ (ix2 (tok b l) j) (ix3 b l j) ?_
  rw [Shape.rowMajor_val_two, Shape.rowMajor_val_three]
  show (b.val * 4096 + l.val) * 2048 + j.val = (4096 * b.val + l.val) * 2048 + j.val
  omega

/-- The padded table's row at a token's destination is the token's row. -/
theorem X_row (c : Dev nD) (b : Fin 4) (l : Fin 4096) (j : Fin 2048) :
    (V m c main_v40 : S17408x2048.Idx → EReal) (ix2 (dest m c (tok b l)) j)
      = (m ((c : Thread nD τ).loc main_arg0) : S4x4096x2048.Idx → EReal) (ix3 b l j) := by
  -- the table is the overwriting row scatter of the narrowed token rows at their destination words; token
  -- `4096·b + l` is the only one whose destination is `dest`, so the scatter leaves its row there
  have hV := congrFun (V_v40 (F := Ideal) m c) (ix2 (dest m c (tok b l)) j)
  have hd : (scatter_S17408x2048_S16384x1_S16384x2048_1_0_0_1 : ScatterDims S17408x2048 S16384x1 S16384x2048)
      = Cert.ScatterRows.rowDims 17408 2048 16384 Facts₀.scatter_S17408x2048_S16384x1_S16384x2048_1_0_0_1_wf := rfl
  rw [hd] at hV
  refine hV.trans ?_
  refine (Cert.ScatterRows.scatterSet_rows_apply _ _ _ _ (tok b l) (dest m c (tok b l)) j ?_ ?_).trans ?_
  · exact posCol_toInt _ _
  · intro t' ht'
    rw [posCol_toInt] at ht'
    exact Cert.Moe.Route.posN_inj _ _ _ (Int.ofNat.inj ht')
  · exact xFlat_apply m c b l j

/-- A matrix given a new leading axis of length one reads, at `(0, j, k)`, the matrix at `(j, k)`. -/
private theorem lead_apply {α : Type} {p q : Nat}
    (h : (⟨2, ![p, q]⟩ : Shape).BroadcastsInDim ⟨3, ![1, p, q]⟩ ![1, 2])
    (x : (⟨2, ![p, q]⟩ : Shape).Idx → α) (j : Fin p) (k : Fin q) :
    broadcastInDim ⟨3, ![1, p, q]⟩ ![1, 2] h x (ix3 (0 : Fin 1) j k) = x (ix2 j k) := by
  refine broadcastInDim_apply _ h x (ix3 (0 : Fin 1) j k) (ix2 j k) ?_
  intro a
  match a with
  | ⟨0, _⟩ =>
    show j.val = if p = 1 then 0 else j.val
    split
    · next h1 => have := j.isLt; omega
    · rfl
  | ⟨1, _⟩ =>
    show k.val = if q = 1 then 0 else k.val
    split
    · next h1 => have := k.isLt; omega
    · rfl

/-- Two matrices, each given a leading axis of length one, stacked along that axis: leading index 0 reads the first
    matrix and leading index 1 the second. -/
private theorem stack_apply {α : Type} {p q : Nat}
    (hb : (⟨2, ![p, q]⟩ : Shape).BroadcastsInDim ⟨3, ![1, p, q]⟩ ![1, 2])
    (hc : Shape.Concatenates [(⟨3, ![1, p, q]⟩ : Shape), ⟨3, ![1, p, q]⟩] ⟨3, ![2, p, q]⟩ 0)
    (x y : (⟨2, ![p, q]⟩ : Shape).Idx → α) (e : Fin 2) (j : Fin p) (k : Fin q) :
    concatenate ⟨3, ![2, p, q]⟩ 0
        [⟨⟨3, ![1, p, q]⟩, broadcastInDim ⟨3, ![1, p, q]⟩ ![1, 2] hb x⟩,
         ⟨⟨3, ![1, p, q]⟩, broadcastInDim ⟨3, ![1, p, q]⟩ ![1, 2] hb y⟩] hc (ix3 e j k)
      = if e.val = 0 then x (ix2 j k) else y (ix2 j k) := by
  match e with
  | ⟨0, _⟩ =>
    rw [if_pos rfl]
    refine (concatenate_pair_apply_left (t := ⟨3, ![2, p, q]⟩) (s₁ := ⟨3, ![1, p, q]⟩) (s₂ := ⟨3, ![1, p, q]⟩) (0 : Fin 3) _ _ hc
      (ix3 (⟨0, by omega⟩ : Fin 2) j k) rfl (ix3 (0 : Fin 1) j k) ?_).trans
      (lead_apply hb x j k)
    intro a
    match a with
    | ⟨0, _⟩ => rfl
    | ⟨1, _⟩ => rfl
    | ⟨2, _⟩ => rfl
  | ⟨1, _⟩ =>
    rw [if_neg (Nat.succ_ne_zero 0)]
    refine (concatenate_pair_apply_right (t := ⟨3, ![2, p, q]⟩) (s₁ := ⟨3, ![1, p, q]⟩) (s₂ := ⟨3, ![1, p, q]⟩) (0 : Fin 3) _ _ hc
      (ix3 (⟨1, by omega⟩ : Fin 2) j k) rfl rfl (ix3 (0 : Fin 1) j k) ?_ rfl).trans
      (lead_apply hb y j k)
    intro a ha
    match a with
    | ⟨0, _⟩ => exact absurd rfl ha
    | ⟨1, _⟩ => rfl
    | ⟨2, _⟩ => rfl

/-- The stacked gate matrices at leading index `e`. -/
theorem WG_apply (c : Dev nD) (e : Fin 2) (j : Fin 2048) (k : Fin 5632) :
    (V m c main_v44 : S2x2048x5632.Idx → EReal) (ix3 e j k)
      = if e.val = 0 then (m ((c : Thread nD τ).loc main_arg2) : S2048x5632.Idx → EReal) (ix2 j k)
        else (m ((c : Thread nD τ).loc main_arg5) : S2048x5632.Idx → EReal) (ix2 j k) := by
  -- narrowing to bf16 is the identity over the extended reals
  exact (congrFun (V_v44 (F := Ideal) m c) (ix3 e j k)).trans
    (stack_apply bcast_S2048x5632_S1x2048x5632_1_2 concatenates_S1x2048x5632_S1x2048x5632_S2x2048x5632_d0
      (m ((c : Thread nD τ).loc main_arg2)) (m ((c : Thread nD τ).loc main_arg5)) e j k)

/-- The stacked up matrices at leading index `e`. -/
theorem WU_apply (c : Dev nD) (e : Fin 2) (j : Fin 2048) (k : Fin 5632) :
    (V m c main_v48 : S2x2048x5632.Idx → EReal) (ix3 e j k)
      = if e.val = 0 then (m ((c : Thread nD τ).loc main_arg3) : S2048x5632.Idx → EReal) (ix2 j k)
        else (m ((c : Thread nD τ).loc main_arg6) : S2048x5632.Idx → EReal) (ix2 j k) := by
  exact (congrFun (V_v48 (F := Ideal) m c) (ix3 e j k)).trans
    (stack_apply bcast_S2048x5632_S1x2048x5632_1_2 concatenates_S1x2048x5632_S1x2048x5632_S2x2048x5632_d0
      (m ((c : Thread nD τ).loc main_arg3)) (m ((c : Thread nD τ).loc main_arg6)) e j k)

/-- The stacked down matrices at leading index `e`. -/
theorem WD_apply (c : Dev nD) (e : Fin 2) (k : Fin 5632) (d : Fin 2048) :
    (V m c main_v52 : S2x5632x2048.Idx → EReal) (ix3 e k d)
      = if e.val = 0 then (m ((c : Thread nD τ).loc main_arg4) : S5632x2048.Idx → EReal) (ix2 k d)
        else (m ((c : Thread nD τ).loc main_arg7) : S5632x2048.Idx → EReal) (ix2 k d) := by
  exact (congrFun (V_v52 (F := Ideal) m c) (ix3 e k d)).trans
    (stack_apply bcast_S5632x2048_S1x5632x2048_1_2 concatenates_S1x5632x2048_S1x5632x2048_S2x5632x2048_d0
      (m ((c : Thread nD τ).loc main_arg4)) (m ((c : Thread nD τ).loc main_arg7)) e k d)

end Cert.KernelIdeal.HostIndex

end
-- ==== Proof.TailRead.lean ====
/-
  The host lines after the pallas_call: the result is the kernel's output array gathered at the tokens' destination
  rows and reshaped to `[4, 4096, 2048]`, so element `(b, l, d)` of the result is element
  `(dest (b, l), d)` of the output array (a destination row is inside the table, so the gather's clamp does nothing).
-/
import proofs.«412017_j84739704750514_3_alg».proof.Proof.KernelIdealFrameP
import proofs.«412017_j84739704750514_3_alg».proof.Proof.HostIndex
import Idealize.ShloMosaic.Lib.Pipeline.Value
import Idealize.ShloMosaic.Lib.StableHlo.Run

set_option maxRecDepth 16384

noncomputable section

namespace Cert.KernelIdeal.TailRead

open Cert.KernelIdeal Cert.KernelIdeal.Gen Cert.KernelIdeal.GenP Cert.KernelIdeal.HostRead Cert.KernelIdeal.HostIndex
open Idealize.ShloMosaic Idealize.ShloMosaic.TcCoe Idealize.SL.Sem Idealize.ShloMosaic.ValueIdx

variable (m : (ℓ : Loc nD τ sig) → Buf (Elt Ideal) ℓ)

set_option maxHeartbeats 4000000 in
/-- The destination rows as the host left them before the region. -/
theorem V_v21 (c : Dev nD) : (V m c main_v21 : S16384.Idx → BitVec 32) = Cert.Moe.Route.pos (maskFlat m c) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  simp only [StableHlo.TRef.ofBuf, StableHlo.TRef.toBuf, cast_eq]
  rfl

/-- The one-column index array at `(t, 0)` is token `t`'s wrapped destination word: a broadcast along the new unit
    axis reads its operand at the token coordinate. -/
private theorem col_apply (mk : IVec Cert.Moe.S16384 1) (t : Fin 16384) :
    (broadcastInDim S16384x1 ![0] bcast_S16384_S16384x1_0 (Cert.Moe.Route.posN mk) : S16384x1.Idx → BitVec 32) (ix2 t (0 : Fin 1))
      = Cert.Moe.Route.posN mk (ix1 t) := by
  refine broadcastInDim_apply _ _ _ (ix2 t (0 : Fin 1)) (ix1 t) ?_
  intro a
  match a with
  | ⟨0, _⟩ => rfl

/-- The row the gather reads for token `t`: the index word read signed and clamped into `[0, 17407]`. A destination
    word is below `17408 < 2³¹`, so read signed it is its own value, and the clamp leaves it. -/
private theorem col_row (mk : IVec Cert.Moe.S16384 1) (t : Fin 16384) :
    min ((broadcastInDim S16384x1 ![0] bcast_S16384_S16384x1_0 (Cert.Moe.Route.posN mk) : S16384x1.Idx → BitVec 32)
        (ix2 t (0 : Fin 1))).toInt.toNat (17408 - 1)
      = (Cert.Moe.Route.posN mk (ix1 t)).toNat := by
  rw [col_apply]
  have h := Cert.Moe.Route.posN_lt mk t
  rw [StableHlo.Predicate.toInt_eq_toNat_of_lt (by omega), Int.toNat_natCast]
  omega

set_option maxHeartbeats 4000000 in
/-- The result at `(b, l, d)` for ANY proof data of the pipeline: the lines after the region read two buffers, the
    pipeline's output array (window 4, at its contents after the last grid point) and the destination words (no array
    of the pipeline: as the region found them). The reshape `[16384, 2048] → [4, 4096, 2048]` at `(b, l, d)` reads
    `(4096·b + l, d)` (the same row-major position); the row gather there reads the output array at the row named by
    the index column at `(4096·b + l, 0)`, which is the token's wrapped destination word; that word is inside the
    table, so the gather's clamp does nothing. -/
private theorem tail_gen (hO : Ok m)
    (dats : (p : Fin _) → (c : Dev nD) → Pipeline.Dat τ (Elt Ideal) Unit ℕ (UR sig nD τ) ℕ ((Pipeline.pin pcfgs fun _ => adm m hO) p) c)
    (c : Dev nD) (b : Fin 4) (l : Fin 4096) (d : Fin 2048) :
    (Pipeline.afterTail pcfgs (fun _ => adm m hO) dats 0 (V0 m) [hostOps1] c main_v61 : S4x4096x2048.Idx → EReal) (ix3 b l d)
      = ((dats 0 c).arrAt 4 (cfgM m hO).N : S17408x2048.Idx → EReal) (ix2 (dest m c (tok b l)) d) := by
  unfold Pipeline.afterTail
  simp only [hostOps1, List.flatten_cons, List.flatten_nil, List.append_nil]
  after_results
  -- the destination words are no array of the pipeline: they are as the region found them
  rw [Pipeline.withArrays_of_ne _ c (V0 m c) _ main_v21 (by exact (by decide : ∀ w, Pipeline.arrRef spec0 w ≠ main_v21))]
  rw [show V0 m c (Proc.devRef .tc main_v21) = Cert.Moe.Route.pos (maskFlat m c) from V_v21 m c]
  -- the gathered table is the pipeline's output array
  have h53 : Pipeline.withArrays (Pipeline.pin pcfgs (fun _ => adm m hO) 0).spec c (V0 m c)
      (fun w => (dats 0 c).arrAt w (Pipeline.pin pcfgs (fun _ => adm m hO) 0).N) (Proc.devRef .tc main_v53)
        = (dats 0 c).arrAt 4 (cfgM m hO).N :=
    Pipeline.withArrays_arr spec0 (launch0 (F := Ideal)).win.arr_inj c _ _ 4
  rw [h53]
  -- the reshape: position `(b, l, d)` of `[4, 4096, 2048]` is position `(4096·b + l, d)` of `[16384, 2048]`
  show shapeCast S4x4096x2048 _ shapeCasts_S16384x2048_S4x4096x2048 (ix3 b l d) = _
  refine (shapeCast_apply _ _ (ix3 b l d) (ix2 (tok b l) d) ?_).trans ?_
  · rw [Shape.rowMajor_val_two, Shape.rowMajor_val_three]
    show (4096 * b.val + l.val) * 2048 + d.val = (b.val * 4096 + l.val) * 2048 + d.val
    omega
  -- the gather takes whole rows of the table at a one-column index array
  have hd : (gather_S17408x2048_S16384x1_S16384x2048_1_0_n_n_0_1_12048 : GatherDims S17408x2048 S16384x1 S16384x2048)
      = Cert.ScatterRows.rowGather 17408 2048 16384 Facts₀.gather_S17408x2048_S16384x1_S16384x2048_1_0_n_n_0_1_12048_wf := rfl
  rw [hd]
  refine (Cert.ScatterRows.gather_rows_apply (by decide) _ _ _ (tok b l) d).trans ?_
  -- the row read is the token's destination: the wrapped word is `posN` by definition
  exact congrArg (fun r => ((dats 0 c).arrAt 4 (cfgM m hO).N : S17408x2048.Idx → EReal) (ix2 r d))
    (Fin.ext (col_row (maskFlat m c) (tok b l)))

/-- THE RESULT AT `(b, l, d)`: the output array at the token's destination row. -/
theorem tail_apply (hO : Ok m) (c : Dev nD) (b : Fin 4) (l : Fin 4096) (d : Fin 2048) :
    (Pipeline.afterTail pcfgs (fun _ => adm m hO) (dats m hO) 0 (V0 m) [hostOps1] c main_v61 : S4x4096x2048.Idx → EReal) (ix3 b l d)
      = ((dats m hO 0 c).arrAt 4 (cfgM m hO).N : S17408x2048.Idx → EReal) (ix2 (dest m c (tok b l)) d) :=
  tail_gen m hO (dats m hO) c b l d

end Cert.KernelIdeal.TailRead

end
-- ==== Proof.KernelPieces.lean ====
/-
  What each control case of the kernel body leaves in the output block, as the body's stored values, and what the
  input blocks of a grid point hold in terms of the arrays the region finds.

  Grid point `t` is tile `t / 22` of 512 token rows at hidden step `t % 22` of 256 hidden columns. At step 0 the
  body stores zeros and then the accumulated value over them; at a later step it stores the accumulated value over what
  the step before left. The token block of the point is rows `512·(t/22) …` of the padded table; the weight blocks
  are the expert's slices — the expert being the prefetched table's word for the tile — at hidden columns
  `256·(t%22) …`.
-/
import proofs.«412017_j84739704750514_3_alg».proof.Proof.KernelIdealFrameP
import Idealize.ShloMosaic.Lib.ValueIdx
import Idealize.ShloMosaic.Lib.Pipeline.Value
import Idealize.ShloMosaic.Lib.Tactic

set_option maxRecDepth 16384

noncomputable section

namespace Cert.KernelIdeal.KValue

open Cert.KernelIdeal Cert.KernelIdeal.Gen Cert.KernelIdeal.GenP Idealize.ShloMosaic Idealize.ShloMosaic.TcCoe Idealize.SL.Sem
open Idealize.ShloMosaic.ValueIdx

variable {F : FTy → Type} [FloatOps F]

/-! ## The output block after each case

The body's loads and stores all go through the whole-shape rectangle at zero offsets of a whole staging buffer: such a
load reads the buffer's contents, and such a store, coming last, leaves its value whatever was stored before. -/

/-- The zero offsets of a rank-2 access, as the constant function. -/
private theorem hz2 : (![0, 0] : Fin 2 → Nat) = fun _ => 0 := funext fun a => by fin_cases a <;> rfl
/-- The zero offsets of a rank-3 access, as the constant function. -/
private theorem hz3 : (![0, 0, 0] : Fin 3 → Nat) = fun _ => 0 := funext fun a => by fin_cases a <;> rfl

open Idealize.ShloMosaic.Tactic in
/-- Case A (hidden step 0): the block ends at the second stored value computed over the first (zeros). -/
theorem out0_A_eq (c : Dev nD) (i : grid0.Coords) (arg3 : Memref sig .tc .vmem S512x2048 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x256x2048 .bf16) (harg6 : arg6.IsWhole) (arg7 : Memref sig .tc .vmem S512x2048 .f32) (harg7 : arg7.IsWhole) (hc0 : cond0_0 i)
    (x0 : Vec F S512x2048 .bf16) (x1 : Vec F S1x2048x256 .bf16) (x2 : Vec F S1x2048x256 .bf16) (x3 : Vec F S1x256x2048 .bf16) (xt0 : TbBuf0 (F := F) c tbM0_0) :
    out0_A_4 c i arg3 harg3 arg4 harg4 arg5 harg5 arg6 harg6 arg7 harg7 hc0 x0 x1 x2 x3 xt0
      = k0_pay2 x0 x1 x2 x3 (k0_pay1 (F := F)) := by
  -- the two stores cover the block, so what is read back is the stores' canonical value
  unfold out0_A_4
  rw [View.read_writes_eq_canon _ _ _ (cover0_A_4 c i arg3 harg3 arg4 harg4 arg5 harg5 arg6 harg6 arg7 harg7 hc0 x0 x1 x2 x3 xt0)]
  unfold kernelRun0_A
  dsimp only
  sl_unfold_words
  -- the accumulated value is stored last over the whole block; the block it read before was the zero store's value
  rw [View.canon_cons_unit_zero (S := S512x2048) hz2, View.readCov_unit_zero (S := S512x2048) _ hz2]
  -- every other load reads a whole input buffer at its contents
  simp only [View.readAt_eq_ld, harg3.read_unread, harg4.read_unread, harg5.read_unread, harg6.read_unread,
    View.ld_unit_zero (S := S512x2048) hz2, View.ld_unit_zero (S := S1x2048x256) hz3,
    View.ld_unit_zero (S := S1x256x2048) hz3]

/-- Case B (a later hidden step): the block ends at the second stored value computed over what it held before. -/
theorem out0_B_eq (c : Dev nD) (i : grid0.Coords) (arg3 : Memref sig .tc .vmem S512x2048 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x256x2048 .bf16) (harg6 : arg6.IsWhole) (arg7 : Memref sig .tc .vmem S512x2048 .f32) (harg7 : arg7.IsWhole) (hc0 : ¬cond0_0 i)
    (x0 : Vec F S512x2048 .bf16) (x1 : Vec F S1x2048x256 .bf16) (x2 : Vec F S1x2048x256 .bf16) (x3 : Vec F S1x256x2048 .bf16) (xt0 : TbBuf0 (F := F) c tbM0_0) (xo4 : Vec F S512x2048 .f32) :
    out0_B_4 c i arg3 harg3 arg4 harg4 arg5 harg5 arg6 harg6 arg7 harg7 hc0 x0 x1 x2 x3 xt0 xo4
      = k0_pay2 x0 x1 x2 x3 xo4 := by
  -- the one store covers the block, so what is read back is its value
  unfold out0_B_4
  rw [View.read_writes_eq_canon _ _ _ (cover0_B_4 c i arg3 harg3 arg4 harg4 arg5 harg5 arg6 harg6 arg7 harg7 hc0 x0 x1 x2 x3 xt0 xo4)]
  unfold kernelRun0_B
  dsimp only
  rw [View.canon_unit_zero hz2]
  -- every load reads a whole buffer at its contents: the four inputs, and the output block as the step before left it
  simp only [View.readAt_eq_ld, harg3.read_unread, harg4.read_unread, harg5.read_unread, harg6.read_unread,
    harg7.read_unread, View.ld_unit_zero (S := S512x2048) hz2, View.ld_unit_zero (S := S1x2048x256) hz3,
    View.ld_unit_zero (S := S1x256x2048) hz3]

/-! ## The input blocks of a grid point

A block's coordinate on an axis is (block index) · (block size) + (coordinate inside the block); the block index is the
window's index map at the point's grid coordinates `(t / 22, t % 22)`. The weight windows' maps read the prefetched
table at the tile. Each fact is stated over arbitrary contents of the array and of the table, and then read at the
contents the region finds. -/

/-- Grid point `t` of the 34 × 22 grid has coordinates `(t / 22, t % 22)`, each unchanged by the passage through a
    32-bit word: decided over the 748 points. -/
private theorem coords_facts : ∀ t : Fin grid0.N,
    (BitVec.ofNat 32 (grid0.coords t 0).val).toNat = t.val / 22 ∧ (BitVec.ofNat 32 (grid0.coords t 1).val).toNat = t.val % 22 :=
  (by decide +kernel : ∀ t : Fin grid0.N,
    (BitVec.ofNat 32 (grid0.coords t 0).val).toNat = t.val / 22 ∧ (BitVec.ofNat 32 (grid0.coords t 1).val).toNat = t.val % 22)

/-- The one index of a one-word rectangle of the 34-word table at offset `n` is the table's index `n`: its offset plus
    a coordinate below 1. -/
private theorem word_idx (off : Fin 1 → Nat) (n : Fin 34) (hoff : off 0 = n.val) (inb : ∀ a, off a + S1.size a ≤ S34.size a)
    (h1 : 0 < S1.numel) : (Rect.unit (s := S34) off S1.size inb).emb (Shape.Idx.first h1) = ix1 n := by
  funext a
  apply Fin.ext
  match a with
  | ⟨0, _⟩ =>
    show off 0 + 1 * (Shape.Idx.first h1 (0 : Fin 1)).val = n.val
    have h0 : (Shape.Idx.first h1 (0 : Fin 1)).val < 1 := (Shape.Idx.first h1 (0 : Fin 1)).isLt
    omega

/-- The word an index map reads from the table at coordinates `i` whose tile is `n` is the table's word `n`. -/
private theorem word_at (pf : pre0.Contents (Elt F)) (i : grid0.Coords) (n : Fin 34)
    (hn : (BitVec.ofNat 32 (i 0).val).toNat = n.val) :
    pf.at 0 (Rect.unit (s := S34) ![(Scalar.indexCast (BitVec.ofNat 32 (i 0).val)).toNat] S1.size (k0_off1_inb i)) numel1_S1
      = (pf 0 : S34.Idx → BitVec 32) (ix1 n) :=
  congrArg (pf 0) (word_idx _ n hn (k0_off1_inb i) _)

/-- The gate window's block index at coordinates `i` whose tile is `n`: (the table's word `n`, 0, the hidden step). -/
private theorem transform1_eq (pf : pre0.Contents (Elt F)) (i : grid0.Coords) (n : Fin 34)
    (hn : (BitVec.ofNat 32 (i 0).val).toNat = n.val) :
    cc0_transform_1 k0_off1_inb numel1_S1 pf i = ![((pf 0 : S34.Idx → BitVec 32) (ix1 n)).toNat, 0, (BitVec.ofNat 32 (i 1).val).toNat] := by
  unfold cc0_transform_1
  dsimp only
  rw [word_at pf i n hn]
  rfl

/-- The up window's block index: the same. -/
private theorem transform2_eq (pf : pre0.Contents (Elt F)) (i : grid0.Coords) (n : Fin 34)
    (hn : (BitVec.ofNat 32 (i 0).val).toNat = n.val) :
    cc0_transform_2 k0_off1_inb numel1_S1 pf i = ![((pf 0 : S34.Idx → BitVec 32) (ix1 n)).toNat, 0, (BitVec.ofNat 32 (i 1).val).toNat] := by
  unfold cc0_transform_2
  dsimp only
  rw [word_at pf i n hn]
  rfl

/-- The down window's block index at coordinates `i` whose tile is `n`: (the table's word `n`, the hidden step, 0). -/
private theorem transform3_eq (pf : pre0.Contents (Elt F)) (i : grid0.Coords) (n : Fin 34)
    (hn : (BitVec.ofNat 32 (i 0).val).toNat = n.val) :
    cc0_transform_3 k0_off1_inb numel1_S1 pf i = ![((pf 0 : S34.Idx → BitVec 32) (ix1 n)).toNat, (BitVec.ofNat 32 (i 1).val).toNat, 0] := by
  unfold cc0_transform_3
  dsimp only
  rw [word_at pf i n hn]
  rfl

/-- Block `t` of the token window, read off any contents `A` of its array: row `r` of the block is row
    `512·(t/22) + r` of the array, the columns are the array's. -/
private theorem blk0_read (pf : pre0.Contents (Elt F)) (hO : ok0 pf) (t : Fin (cfg0 ⟨pf, hO⟩).N)
    (A : S17408x2048.Idx → Elt F .bf16) (r : Fin 512) (j : Fin 2048) (hp : 512 * (t.val / 22) + r.val < 17408) :
    ((((cfg0 ⟨pf, hO⟩).win 0).blk t).view.read (Elt F) A : S512x2048.Idx → Elt F .bf16) (ix2 r j)
      = A (ix2 ⟨512 * (t.val / 22) + r.val, hp⟩ j) := by
  have hc := coords_facts t
  show A ((((cfg0 ⟨pf, hO⟩).win 0).blk t).view.emb (ix2 r j)) = A _
  refine congrArg A (funext fun a => Fin.ext ?_)
  match a with
  | ⟨0, _⟩ =>
    show (BitVec.ofNat 32 (grid0.coords t 0).val).toNat * 512 + 1 * r.val = 512 * (t.val / 22) + r.val
    rw [hc.1]; omega
  | ⟨1, _⟩ =>
    show 0 * 2048 + 1 * j.val = j.val
    omega

/-- Block `t` of the gate window, read off any contents `A` of its array, for any contents `pf` of the table whose word at the
    tile is `e`: expert `e`'s slice, all 2048 rows, hidden columns `256·(t%22) + k`. -/
private theorem blk1_read (pf : pre0.Contents (Elt F)) (hO : ok0 pf) (t : Fin (cfg0 ⟨pf, hO⟩).N)
    (A : S2x2048x5632.Idx → Elt F .bf16) (e : Fin 2) (hj : t.val / 22 < 34)
    (he : ((pf 0 : S34.Idx → BitVec 32) (ix1 ⟨t.val / 22, hj⟩)).toNat = e.val) (j : Fin 2048) (k : Fin 256)
    (hk : 256 * (t.val % 22) + k.val < 5632) :
    ((((cfg0 ⟨pf, hO⟩).win 1).blk t).view.read (Elt F) A : S1x2048x256.Idx → Elt F .bf16) (ix3 (0 : Fin 1) j k)
      = A (ix3 e j ⟨256 * (t.val % 22) + k.val, hk⟩) := by
  have hc := coords_facts t
  have hx := transform1_eq pf (grid0.coords t) ⟨t.val / 22, hj⟩ hc.1
  have h0 : cc0_transform_1 k0_off1_inb numel1_S1 pf (grid0.coords t) 0 = e.val := (congrFun hx 0).trans he
  have h1 : cc0_transform_1 k0_off1_inb numel1_S1 pf (grid0.coords t) 1 = 0 := congrFun hx 1
  have h2 : cc0_transform_1 k0_off1_inb numel1_S1 pf (grid0.coords t) 2 = t.val % 22 := (congrFun hx 2).trans hc.2
  show A ((((cfg0 ⟨pf, hO⟩).win 1).blk t).view.emb (ix3 (0 : Fin 1) j k)) = A _
  refine congrArg A (funext fun a => Fin.ext ?_)
  match a with
  | ⟨0, _⟩ =>
    show cc0_transform_1 k0_off1_inb numel1_S1 pf (grid0.coords t) 0 * 1 + 1 * 0 = e.val
    rw [h0]; omega
  | ⟨1, _⟩ =>
    show cc0_transform_1 k0_off1_inb numel1_S1 pf (grid0.coords t) 1 * 2048 + 1 * j.val = j.val
    rw [h1]; omega
  | ⟨2, _⟩ =>
    show cc0_transform_1 k0_off1_inb numel1_S1 pf (grid0.coords t) 2 * 256 + 1 * k.val = 256 * (t.val % 22) + k.val
    rw [h2]; omega

/-- Block `t` of the up window: the same slice of its own array. -/
private theorem blk2_read (pf : pre0.Contents (Elt F)) (hO : ok0 pf) (t : Fin (cfg0 ⟨pf, hO⟩).N)
    (A : S2x2048x5632.Idx → Elt F .bf16) (e : Fin 2) (hj : t.val / 22 < 34)
    (he : ((pf 0 : S34.Idx → BitVec 32) (ix1 ⟨t.val / 22, hj⟩)).toNat = e.val) (j : Fin 2048) (k : Fin 256)
    (hk : 256 * (t.val % 22) + k.val < 5632) :
    ((((cfg0 ⟨pf, hO⟩).win 2).blk t).view.read (Elt F) A : S1x2048x256.Idx → Elt F .bf16) (ix3 (0 : Fin 1) j k)
      = A (ix3 e j ⟨256 * (t.val % 22) + k.val, hk⟩) := by
  have hc := coords_facts t
  have hx := transform2_eq pf (grid0.coords t) ⟨t.val / 22, hj⟩ hc.1
  have h0 : cc0_transform_2 k0_off1_inb numel1_S1 pf (grid0.coords t) 0 = e.val := (congrFun hx 0).trans he
  have h1 : cc0_transform_2 k0_off1_inb numel1_S1 pf (grid0.coords t) 1 = 0 := congrFun hx 1
  have h2 : cc0_transform_2 k0_off1_inb numel1_S1 pf (grid0.coords t) 2 = t.val % 22 := (congrFun hx 2).trans hc.2
  show A ((((cfg0 ⟨pf, hO⟩).win 2).blk t).view.emb (ix3 (0 : Fin 1) j k)) = A _
  refine congrArg A (funext fun a => Fin.ext ?_)
  match a with
  | ⟨0, _⟩ =>
    show cc0_transform_2 k0_off1_inb numel1_S1 pf (grid0.coords t) 0 * 1 + 1 * 0 = e.val
    rw [h0]; omega
  | ⟨1, _⟩ =>
    show cc0_transform_2 k0_off1_inb numel1_S1 pf (grid0.coords t) 1 * 2048 + 1 * j.val = j.val
    rw [h1]; omega
  | ⟨2, _⟩ =>
    show cc0_transform_2 k0_off1_inb numel1_S1 pf (grid0.coords t) 2 * 256 + 1 * k.val = 256 * (t.val % 22) + k.val
    rw [h2]; omega

/-- Block `t` of the down window: expert `e`'s slice, hidden rows `256·(t%22) + k`, all 2048 columns. -/
private theorem blk3_read (pf : pre0.Contents (Elt F)) (hO : ok0 pf) (t : Fin (cfg0 ⟨pf, hO⟩).N)
    (A : S2x5632x2048.Idx → Elt F .bf16) (e : Fin 2) (hj : t.val / 22 < 34)
    (he : ((pf 0 : S34.Idx → BitVec 32) (ix1 ⟨t.val / 22, hj⟩)).toNat = e.val) (k : Fin 256) (d : Fin 2048)
    (hk : 256 * (t.val % 22) + k.val < 5632) :
    ((((cfg0 ⟨pf, hO⟩).win 3).blk t).view.read (Elt F) A : S1x256x2048.Idx → Elt F .bf16) (ix3 (0 : Fin 1) k d)
      = A (ix3 e ⟨256 * (t.val % 22) + k.val, hk⟩ d) := by
  have hc := coords_facts t
  have hx := transform3_eq pf (grid0.coords t) ⟨t.val / 22, hj⟩ hc.1
  have h0 : cc0_transform_3 k0_off1_inb numel1_S1 pf (grid0.coords t) 0 = e.val := (congrFun hx 0).trans he
  have h1 : cc0_transform_3 k0_off1_inb numel1_S1 pf (grid0.coords t) 1 = t.val % 22 := (congrFun hx 1).trans hc.2
  have h2 : cc0_transform_3 k0_off1_inb numel1_S1 pf (grid0.coords t) 2 = 0 := congrFun hx 2
  show A ((((cfg0 ⟨pf, hO⟩).win 3).blk t).view.emb (ix3 (0 : Fin 1) k d)) = A _
  refine congrArg A (funext fun a => Fin.ext ?_)
  match a with
  | ⟨0, _⟩ =>
    show cc0_transform_3 k0_off1_inb numel1_S1 pf (grid0.coords t) 0 * 1 + 1 * 0 = e.val
    rw [h0]; omega
  | ⟨1, _⟩ =>
    show cc0_transform_3 k0_off1_inb numel1_S1 pf (grid0.coords t) 1 * 256 + 1 * k.val = 256 * (t.val % 22) + k.val
    rw [h1]; omega
  | ⟨2, _⟩ =>
    show cc0_transform_3 k0_off1_inb numel1_S1 pf (grid0.coords t) 2 * 2048 + 1 * d.val = d.val
    rw [h2]; omega

variable (m : (ℓ : Loc nD τ sig) → Buf (Elt F) ℓ)

/-- The token block of point `t`: rows `512·(t/22) + r` of the padded table. -/
theorem iblk0_apply (hO : Ok m) (c : Dev nD) (t : Fin (cfgM m hO).N) (r : Fin 512) (j : Fin 2048)
    (hp : 512 * (t.val / 22) + r.val < 17408) :
    (iblk m hO c 0 t : S512x2048.Idx → Elt F .bf16) (ix2 r j)
      = (V m c main_v40 : S17408x2048.Idx → Elt F .bf16) (ix2 ⟨512 * (t.val / 22) + r.val, hp⟩ j) :=
  blk0_read (tbl m) hO t (V m c main_v40) r j hp

/-- The gate block of point `t`: the tile's expert `e`, hidden columns `256·(t%22) + k`. -/
theorem iblk1_apply (hO : Ok m) (c : Dev nD) (t : Fin (cfgM m hO).N) (e : Fin 2) (hj : t.val / 22 < 34)
    (he : ((tbl m 0 : S34.Idx → BitVec 32) (ix1 ⟨t.val / 22, hj⟩)).toNat = e.val) (j : Fin 2048) (k : Fin 256)
    (hk : 256 * (t.val % 22) + k.val < 5632) :
    (iblk m hO c 1 t : S1x2048x256.Idx → Elt F .bf16) (ix3 (0 : Fin 1) j k)
      = (V m c main_v44 : S2x2048x5632.Idx → Elt F .bf16) (ix3 e j ⟨256 * (t.val % 22) + k.val, hk⟩) :=
  blk1_read (tbl m) hO t (V m c main_v44) e hj he j k hk

/-- The up block of point `t`. -/
theorem iblk2_apply (hO : Ok m) (c : Dev nD) (t : Fin (cfgM m hO).N) (e : Fin 2) (hj : t.val / 22 < 34)
    (he : ((tbl m 0 : S34.Idx → BitVec 32) (ix1 ⟨t.val / 22, hj⟩)).toNat = e.val) (j : Fin 2048) (k : Fin 256)
    (hk : 256 * (t.val % 22) + k.val < 5632) :
    (iblk m hO c 2 t : S1x2048x256.Idx → Elt F .bf16) (ix3 (0 : Fin 1) j k)
      = (V m c main_v48 : S2x2048x5632.Idx → Elt F .bf16) (ix3 e j ⟨256 * (t.val % 22) + k.val, hk⟩) :=
  blk2_read (tbl m) hO t (V m c main_v48) e hj he j k hk

/-- The down block of point `t`: the tile's expert `e`, hidden rows `256·(t%22) + k`. -/
theorem iblk3_apply (hO : Ok m) (c : Dev nD) (t : Fin (cfgM m hO).N) (e : Fin 2) (hj : t.val / 22 < 34)
    (he : ((tbl m 0 : S34.Idx → BitVec 32) (ix1 ⟨t.val / 22, hj⟩)).toNat = e.val) (k : Fin 256) (d : Fin 2048)
    (hk : 256 * (t.val % 22) + k.val < 5632) :
    (iblk m hO c 3 t : S1x256x2048.Idx → Elt F .bf16) (ix3 (0 : Fin 1) k d)
      = (V m c main_v52 : S2x5632x2048.Idx → Elt F .bf16) (ix3 e ⟨256 * (t.val % 22) + k.val, hk⟩ d) :=
  blk3_read (tbl m) hO t (V m c main_v52) e hj he k d hk

end Cert.KernelIdeal.KValue

end
-- ==== Proof.MoeSpec.lean ====
/-
  The mathematics of the routed two-expert feed-forward layer, stated over plain index types.

  A token row `x : Fin 2048 → EReal` goes through ONE expert: with gate and up matrices `[2048, 5632]` and a down
  matrix `[5632, 2048]`, the expert's output in column `d` is
      ∑ k, (silu (∑ j, x j · gate j k) · (∑ j, x j · up j k)) · down k d,      silu z = z · logistic z.
  The layer takes the second expert for a token whose mask bit is set and the first otherwise.
-/
import Idealize.ShloMosaic.PureOps.Ideal
import Idealize.ShloMosaic.Lib.ValueIdx

noncomputable section

open scoped BigOperators

namespace Cert.Moe

open Idealize.ShloMosaic

/-- `z · logistic z` on the extended reals. -/
def silu (z : EReal) : EReal := z * Ideal.logistic z

/-- The hidden activation of one token row in hidden column `k`: `silu (x · gate[:, k]) · (x · up[:, k])`. -/
def hidden (xr : Fin 2048 → EReal) (wg wu : Fin 2048 → Fin 5632 → EReal) (k : Fin 5632) : EReal :=
  silu (∑ j, xr j * wg j k) * (∑ j, xr j * wu j k)

/-- One expert applied to one token row, read in output column `d`. -/
def rowMlp (xr : Fin 2048 → EReal) (wg wu : Fin 2048 → Fin 5632 → EReal) (wd : Fin 5632 → Fin 2048 → EReal)
    (d : Fin 2048) : EReal :=
  ∑ k, hidden xr wg wu k * wd k d

end Cert.Moe

end
-- ==== Proof.KernelPayload.lean ====
/-
  The kernel body's two stored values, read at one index over the extended reals.

  The first store (taken at the first step of the hidden axis) writes zeros. The second writes the accumulator plus
  this step's contribution: with `x` the token block `[512, 2048]`, `g`, `u` the step's gate and up slices
  `[1, 2048, 256]` and `w` its down slice `[1, 256, 2048]`, element `(r, d)` of the stored block is
      acc (r, d) + ∑ k < 256, (silu (∑ j, x (r, j) · g (0, j, k)) · (∑ j, x (r, j) · u (0, j, k))) · w (0, k, d):
  a matrix product into a zero accumulator is a plain sum of products, a change of float format is the identity,
  and the unit axis of a weight slice is cast away.
-/
import proofs.«412017_j84739704750514_3_alg».proof.Proof.Gen.KernelIdeal.Skeleton
import proofs.«412017_j84739704750514_3_alg».proof.Proof.MoeSpec
import Idealize.ShloMosaic.Lib.ValueIdx
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The first product's operand indices: output `(r, k)`, contraction position `j` ↦ `(r, j)` and `(j, k)` -/

/-- The left operand's row is the output's row. -/
private theorem lhs_up_0 (i : S512x256.Idx) (q : dot_S512x2048_S2048x256_S512x256_1_0_0_1_n_n.contr.Idx) :
    (dot_S512x2048_S2048x256_S512x256_1_0_0_1_n_n.lhsIdx i q 0).val = (i 0).val := by
  unfold DotDims.lhsIdx
  rw [dif_neg (show ¬(0 : Fin S512x2048.rank) ∈ dot_S512x2048_S2048x256_S512x256_1_0_0_1_n_n.lhsBatch by decide), dif_pos (show (0 : Fin S512x2048.rank) ∈ dot_S512x2048_S2048x256_S512x256_1_0_0_1_n_n.lhsNonContracting by decide)]
  rfl
/-- The left operand's column is the contraction position. -/
private theorem lhs_up_1 (i : S512x256.Idx) (q : dot_S512x2048_S2048x256_S512x256_1_0_0_1_n_n.contr.Idx) :
    (dot_S512x2048_S2048x256_S512x256_1_0_0_1_n_n.lhsIdx i q 1).val = (q ⟨0, by decide⟩).val :=
  dot_S512x2048_S2048x256_S512x256_1_0_0_1_n_n.lhsIdx_val_of_single rfl i q
/-- The right operand's row is the contraction position. -/
private theorem rhs_up_0 (i : S512x256.Idx) (q : dot_S512x2048_S2048x256_S512x256_1_0_0_1_n_n.contr.Idx) :
    (dot_S512x2048_S2048x256_S512x256_1_0_0_1_n_n.rhsIdx i q 0).val = (q ⟨0, by decide⟩).val :=
  dot_S512x2048_S2048x256_S512x256_1_0_0_1_n_n.rhsIdx_val_of_single rfl i q
/-- The right operand's column is the output's column. -/
private theorem rhs_up_1 (i : S512x256.Idx) (q : dot_S512x2048_S2048x256_S512x256_1_0_0_1_n_n.contr.Idx) :
    (dot_S512x2048_S2048x256_S512x256_1_0_0_1_n_n.rhsIdx i q 1).val = (i 1).val := by
  unfold DotDims.rhsIdx
  rw [dif_neg (show ¬(1 : Fin S2048x256.rank) ∈ dot_S512x2048_S2048x256_S512x256_1_0_0_1_n_n.rhsBatch by decide), dif_pos (show (1 : Fin S2048x256.rank) ∈ dot_S512x2048_S2048x256_S512x256_1_0_0_1_n_n.rhsNonContracting by decide)]
  rfl

/-- A `[512, 2048] × [2048, 256]` product into the zero accumulator, at `(r, k)`: the sum over the 2048 shared
    positions of the products, since the contraction has one axis and the accumulator adds nothing. -/
theorem matmul_up_apply (a : FVec Ideal S512x2048 .bf16) (b : FVec Ideal S2048x256 .bf16) (r : Fin 512) (k : Fin 256) :
    matmul (F := Ideal) dot_S512x2048_S2048x256_S512x256_1_0_0_1_n_n none a b (constant (F := Ideal) S512x256 .f32 0x00000000#32) (ix2 r k)
      = ∑ j : Fin 2048, a (ix2 r j) * b (ix2 j k) := by
  simp only [matmul]
  rw [Ideal.matmul_constant_zero_apply, ← Equiv.sum_comp (contrEquiv1 dot_S512x2048_S2048x256_S512x256_1_0_0_1_n_n 2048 rfl rfl).symm]
  refine Finset.sum_congr rfl fun j _ => ?_
  have hj := contrEquiv1_symm_val dot_S512x2048_S2048x256_S512x256_1_0_0_1_n_n 2048 rfl rfl j
  have el : dot_S512x2048_S2048x256_S512x256_1_0_0_1_n_n.lhsIdx (ix2 r k) ((contrEquiv1 dot_S512x2048_S2048x256_S512x256_1_0_0_1_n_n 2048 rfl rfl).symm j) = ix2 r j := funext fun a => Fin.ext (by
    match a with
    | ⟨0, _⟩ => exact lhs_up_0 _ _
    | ⟨1, _⟩ => exact (lhs_up_1 _ _).trans hj)
  have er : dot_S512x2048_S2048x256_S512x256_1_0_0_1_n_n.rhsIdx (ix2 r k) ((contrEquiv1 dot_S512x2048_S2048x256_S512x256_1_0_0_1_n_n 2048 rfl rfl).symm j) = ix2 j k := funext fun a => Fin.ext (by
    match a with
    | ⟨0, _⟩ => exact (rhs_up_0 _ _).trans hj
    | ⟨1, _⟩ => exact rhs_up_1 _ _)
  rw [el, er]

/-! ## The second product's operand indices: output `(r, d)`, contraction position `k` ↦ `(r, k)` and `(k, d)` -/

/-- The left operand's row is the output's row. -/
private theorem lhs_down_0 (i : S512x2048.Idx) (q : dot_S512x256_S256x2048_S512x2048_1_0_0_1_n_n.contr.Idx) :
    (dot_S512x256_S256x2048_S512x2048_1_0_0_1_n_n.lhsIdx i q 0).val = (i 0).val := by
  unfold DotDims.lhsIdx
  rw [dif_neg (show ¬(0 : Fin S512x256.rank) ∈ dot_S512x256_S256x2048_S512x2048_1_0_0_1_n_n.lhsBatch by decide), dif_pos (show (0 : Fin S512x256.rank) ∈ dot_S512x256_S256x2048_S512x2048_1_0_0_1_n_n.lhsNonContracting by decide)]
  rfl
/-- The left operand's column is the contraction position. -/
private theorem lhs_down_1 (i : S512x2048.Idx) (q : dot_S512x256_S256x2048_S512x2048_1_0_0_1_n_n.contr.Idx) :
    (dot_S512x256_S256x2048_S512x2048_1_0_0_1_n_n.lhsIdx i q 1).val = (q ⟨0, by decide⟩).val :=
  dot_S512x256_S256x2048_S512x2048_1_0_0_1_n_n.lhsIdx_val_of_single rfl i q
/-- The right operand's row is the contraction position. -/
private theorem rhs_down_0 (i : S512x2048.Idx) (q : dot_S512x256_S256x2048_S512x2048_1_0_0_1_n_n.contr.Idx) :
    (dot_S512x256_S256x2048_S512x2048_1_0_0_1_n_n.rhsIdx i q 0).val = (q ⟨0, by decide⟩).val :=
  dot_S512x256_S256x2048_S512x2048_1_0_0_1_n_n.rhsIdx_val_of_single rfl i q
/-- The right operand's column is the output's column. -/
private theorem rhs_down_1 (i : S512x2048.Idx) (q : dot_S512x256_S256x2048_S512x2048_1_0_0_1_n_n.contr.Idx) :
    (dot_S512x256_S256x2048_S512x2048_1_0_0_1_n_n.rhsIdx i q 1).val = (i 1).val := by
  unfold DotDims.rhsIdx
  rw [dif_neg (show ¬(1 : Fin S256x2048.rank) ∈ dot_S512x256_S256x2048_S512x2048_1_0_0_1_n_n.rhsBatch by decide), dif_pos (show (1 : Fin S256x2048.rank) ∈ dot_S512x256_S256x2048_S512x2048_1_0_0_1_n_n.rhsNonContracting by decide)]
  rfl

/-- A `[512, 256] × [256, 2048]` product into the zero accumulator, at `(r, d)`: the sum over the 256 shared
    positions of the products. -/
theorem matmul_down_apply (a : FVec Ideal S512x256 .bf16) (b : FVec Ideal S256x2048 .bf16) (r : Fin 512) (d : Fin 2048) :
    matmul (F := Ideal) dot_S512x256_S256x2048_S512x2048_1_0_0_1_n_n none a b (constant (F := Ideal) S512x2048 .f32 0x00000000#32) (ix2 r d)
      = ∑ k : Fin 256, a (ix2 r k) * b (ix2 k d) := by
  simp only [matmul]
  rw [Ideal.matmul_constant_zero_apply, ← Equiv.sum_comp (contrEquiv1 dot_S512x256_S256x2048_S512x2048_1_0_0_1_n_n 256 rfl rfl).symm]
  refine Finset.sum_congr rfl fun k _ => ?_
  have hk := contrEquiv1_symm_val dot_S512x256_S256x2048_S512x2048_1_0_0_1_n_n 256 rfl rfl k
  have el : dot_S512x256_S256x2048_S512x2048_1_0_0_1_n_n.lhsIdx (ix2 r d) ((contrEquiv1 dot_S512x256_S256x2048_S512x2048_1_0_0_1_n_n 256 rfl rfl).symm k) = ix2 r k := funext fun a => Fin.ext (by
    match a with
    | ⟨0, _⟩ => exact lhs_down_0 _ _
    | ⟨1, _⟩ => exact (lhs_down_1 _ _).trans hk)
  have er : dot_S512x256_S256x2048_S512x2048_1_0_0_1_n_n.rhsIdx (ix2 r d) ((contrEquiv1 dot_S512x256_S256x2048_S512x2048_1_0_0_1_n_n 256 rfl rfl).symm k) = ix2 k d := funext fun a => Fin.ext (by
    match a with
    | ⟨0, _⟩ => exact (rhs_down_0 _ _).trans hk
    | ⟨1, _⟩ => exact rhs_down_1 _ _)
  rw [el, er]

/-! ## The weight slices' unit axis -/

/-- A `[1, 2048, 256]` slice viewed as `[2048, 256]` reads `(0, j, k)` at `(j, k)`: dropping a leading axis of extent
    one keeps every element's row-major position. -/
theorem cast_up_apply (v : Vec Ideal S1x2048x256 .bf16) (j : Fin 2048) (k : Fin 256) :
    (shapeCast S2048x256 v shapeCasts_S1x2048x256_S2048x256 : FVec Ideal S2048x256 .bf16) (ix2 j k) = v (ix3 (0 : Fin 1) j k) := by
  refine (shapeCast_dropUnit_apply ![2048, 256] v shapeCasts_S1x2048x256_S2048x256 (ix2 j k)).trans (congrArg v ?_)
  funext a
  match a with
  | ⟨0, _⟩ => rfl
  | ⟨1, _⟩ => rfl
  | ⟨2, _⟩ => rfl

/-- A `[1, 256, 2048]` slice viewed as `[256, 2048]` reads `(0, k, d)` at `(k, d)`, likewise. -/
theorem cast_down_apply (v : Vec Ideal S1x256x2048 .bf16) (k : Fin 256) (d : Fin 2048) :
    (shapeCast S256x2048 v shapeCasts_S1x256x2048_S256x2048 : FVec Ideal S256x2048 .bf16) (ix2 k d) = v (ix3 (0 : Fin 1) k d) := by
  refine (shapeCast_dropUnit_apply ![256, 2048] v shapeCasts_S1x256x2048_S256x2048 (ix2 k d)).trans (congrArg v ?_)
  funext a
  match a with
  | ⟨0, _⟩ => rfl
  | ⟨1, _⟩ => rfl
  | ⟨2, _⟩ => rfl

/-- The logistic of a vector is taken element by element, and on the extended reals it is `1 / (1 + e⁻ᶻ)`. -/
private theorem logistic_apply {s : Shape} {φ : FTy} (x : FVec Ideal s φ) (i : s.Idx) :
    logistic (F := Ideal) x i = Ideal.logistic (x i) := rfl

/-- The first store's value is zero everywhere. -/
theorem pay1_apply (i : S512x2048.Idx) : k0_pay1 (F := Ideal) i = (0 : EReal) := by
  unfold k0_pay1
  exact Ideal.ofBits_zero_f32

/-- THE SECOND STORE AT `(r, d)`: the accumulator's element plus this step's 256 hidden columns' contribution. -/
theorem pay2_apply (v3 : Vec Ideal S512x2048 .bf16) (v5 v8 : Vec Ideal S1x2048x256 .bf16) (v15 : Vec Ideal S1x256x2048 .bf16)
    (v18 : Vec Ideal S512x2048 .f32) (r : Fin 512) (d : Fin 2048) :
    k0_pay2 (F := Ideal) v3 v5 v8 v15 v18 (ix2 r d)
      = v18 (ix2 r d) + ∑ k : Fin 256,
          (Cert.Moe.silu (∑ j : Fin 2048, v3 (ix2 r j) * v5 (ix3 (0 : Fin 1) j k))
            * (∑ j : Fin 2048, v3 (ix2 r j) * v8 (ix3 (0 : Fin 1) j k))) * v15 (ix3 (0 : Fin 1) k d) := by
  unfold k0_pay2
  -- the casts between equal shapes are the identity; the last product into zero is a sum over the 256 hidden columns
  simp only [shapeCast_self]
  rw [addf_apply, matmul_down_apply]
  -- term by term: the hidden value at `(r, k)` is `z · logistic z · u` with `z`, `u` the two first products at `(r, k)`,
  -- each a sum over the 2048 input columns, and `z · logistic z` is `silu z` by definition
  refine congrArg (v18 (ix2 r d) + ·) (Finset.sum_congr rfl fun k _ => ?_)
  rw [truncf_apply, mulf_apply, mulf_apply, cast_down_apply, logistic_apply, matmul_up_apply, matmul_up_apply]
  simp only [cast_up_apply]
  rfl

end Cert.KernelIdeal.Payload

end
-- ==== Proof.KernelValue.lean ====
/-
  The kernel's output array after the run, read at one index over the extended reals: row `p` of the padded output
  is the tile's expert applied to row `p` of the padded token table.

  Tile `p / 512` is visited at the 22 consecutive grid points `22·(p/512) + i`, hidden step `i` adding the
  contribution of hidden columns `256·i … 256·i + 255` to the block it keeps in its staging buffer; the block is
  written back once, after step 21, and the tiles' blocks cover the array. Summing the 22 contributions of 256
  columns each is the sum over all 5632 hidden columns (a regrouping of a finite sum, valid on the extended reals
  because their addition is commutative and associative).
-/
import proofs.«412017_j84739704750514_3_alg».proof.Proof.KernelPieces
import proofs.«412017_j84739704750514_3_alg».proof.Proof.KernelPayload
import proofs.«412017_j84739704750514_3_alg».proof.Proof.MoeSpec

set_option maxRecDepth 16384

noncomputable section

open scoped BigOperators

namespace Cert.KernelIdeal.KValue

open Cert.KernelIdeal Cert.KernelIdeal.Gen Cert.KernelIdeal.GenP Idealize.ShloMosaic Idealize.ShloMosaic.TcCoe Idealize.SL.Sem
open Idealize.ShloMosaic.ValueIdx

/-! ## The expert's sum over the hidden columns, as a sum over the naturals below 5632 -/

/-- The `n`-th summand of one expert applied to one token row, read in output column `d` — for every natural `n`,
    zero from 5632 on, so that partial sums over initial segments of the hidden columns can be written. -/
private def term (xr : Fin 2048 → EReal) (wg wu : Fin 2048 → Fin 5632 → EReal) (wd : Fin 5632 → Fin 2048 → EReal)
    (d : Fin 2048) (n : ℕ) : EReal :=
  if h : n < 5632 then Cert.Moe.hidden xr wg wu ⟨n, h⟩ * wd ⟨n, h⟩ d else 0

/-- Below 5632 the summand is the hidden activation times the down weight. -/
private theorem term_of_lt (xr : Fin 2048 → EReal) (wg wu : Fin 2048 → Fin 5632 → EReal)
    (wd : Fin 5632 → Fin 2048 → EReal) (d : Fin 2048) (n : ℕ) (h : n < 5632) :
    term xr wg wu wd d n = Cert.Moe.hidden xr wg wu ⟨n, h⟩ * wd ⟨n, h⟩ d := by
  unfold term; rw [dif_pos h]

/-- The expert's output is the sum of the first 5632 summands. -/
private theorem rowMlp_eq_range (xr : Fin 2048 → EReal) (wg wu : Fin 2048 → Fin 5632 → EReal)
    (wd : Fin 5632 → Fin 2048 → EReal) (d : Fin 2048) :
    Cert.Moe.rowMlp xr wg wu wd d = ∑ n ∈ Finset.range 5632, term xr wg wu wd d n := by
  unfold Cert.Moe.rowMlp
  rw [Finset.sum_range]
  exact Finset.sum_congr rfl fun k _ => (term_of_lt xr wg wu wd d k.val k.isLt).symm

/-- A sum over the first `256·(i+1)` naturals is the sum over the first `256·i` plus the next block of 256 (addition
    of extended reals is associative). -/
private theorem range_block (g : ℕ → EReal) (i : ℕ) :
    ∑ n ∈ Finset.range (256 * (i + 1)), g n
      = ∑ n ∈ Finset.range (256 * i), g n + ∑ k : Fin 256, g (256 * i + k.val) := by
  rw [Nat.mul_succ, Finset.sum_range_add]
  exact congrArg (∑ n ∈ Finset.range (256 * i), g n + ·) (Finset.sum_range fun x => g (256 * i + x))

variable (m : (ℓ : Loc nD τ sig) → Buf (Elt Ideal) ℓ)

/-! ## The arrays, the blocks and the accumulator, each at its literal type -/

/-- The padded token table as the region finds it. -/
private abbrev tokArr (c : Dev nD) : S17408x2048.Idx → EReal := V m c main_v40
/-- The two experts' gate matrices. -/
private abbrev gateArr (c : Dev nD) : S2x2048x5632.Idx → EReal := V m c main_v44
/-- The two experts' up matrices. -/
private abbrev upArr (c : Dev nD) : S2x2048x5632.Idx → EReal := V m c main_v48
/-- The two experts' down matrices. -/
private abbrev downArr (c : Dev nD) : S2x5632x2048.Idx → EReal := V m c main_v52

/-- The token block of a grid point. -/
private abbrev tokBlk (hO : Ok m) (c : Dev nD) (t : Fin (cfgM m hO).N) : Vec Ideal S512x2048 .bf16 := iblk m hO c 0 t
/-- The gate block of a grid point. -/
private abbrev gateBlk (hO : Ok m) (c : Dev nD) (t : Fin (cfgM m hO).N) : Vec Ideal S1x2048x256 .bf16 := iblk m hO c 1 t
/-- The up block of a grid point. -/
private abbrev upBlk (hO : Ok m) (c : Dev nD) (t : Fin (cfgM m hO).N) : Vec Ideal S1x2048x256 .bf16 := iblk m hO c 2 t
/-- The down block of a grid point. -/
private abbrev downBlk (hO : Ok m) (c : Dev nD) (t : Fin (cfgM m hO).N) : Vec Ideal S1x256x2048 .bf16 := iblk m hO c 3 t

/-- What the output block holds after point `n`. -/
private abbrev accAfter (hO : Ok m) (c : Dev nD) (n : ℕ) (hn : n < (cfgM m hO).N) : S512x2048.Idx → EReal :=
  outsAt0 m hO c n hn

/-- What one hidden step adds at `(r, d)`, in terms of the step's four blocks: the 256 hidden columns of the step,
    each the activation of row `r` times the down weight into column `d`. -/
private def stepSum (x0 : Vec Ideal S512x2048 .bf16) (x1 x2 : Vec Ideal S1x2048x256 .bf16)
    (x3 : Vec Ideal S1x256x2048 .bf16) (r : Fin 512) (d : Fin 2048) : EReal :=
  ∑ k : Fin 256, (Cert.Moe.silu (∑ j : Fin 2048, x0 (ix2 r j) * x1 (ix3 (0 : Fin 1) j k))
    * (∑ j : Fin 2048, x0 (ix2 r j) * x2 (ix3 (0 : Fin 1) j k))) * x3 (ix3 (0 : Fin 1) k d)

/-- At the first hidden step of a tile the block ends at the step's contribution alone: it is computed over zeros. -/
private theorem acc_first (hO : Ok m) (c : Dev nD) (t : Fin (cfgM m hO).N) (h0 : t.val % 22 = 0) (r : Fin 512)
    (d : Fin 2048) :
    accAfter m hO c t.val t.isLt (ix2 r d)
      = stepSum (tokBlk m hO c t) (gateBlk m hO c t) (upBlk m hO c t) (downBlk m hO c t) r d := by
  show (outsAt0 m hO c t.val t.isLt : S512x2048.Idx → EReal) (ix2 r d) = _
  rw [outsAt0_A m hO c t h0]
  rw [out0_A_eq c (grid0.coords t) (ms0_0 m hO t) (hs0_0 m hO t) (ms0_1 m hO t) (hs0_1 m hO t) (ms0_2 m hO t) (hs0_2 m hO t)
    (ms0_3 m hO t) (hs0_3 m hO t) (ms0_4 m hO t) (hs0_4 m hO t) ((hcond0_0 t).mpr h0) (iblk m hO c 0 t) (iblk m hO c 1 t)
    (iblk m hO c 2 t) (iblk m hO c 3 t) (tbl m 0)]
  refine (Payload.pay2_apply (tokBlk m hO c t) (gateBlk m hO c t) (upBlk m hO c t) (downBlk m hO c t)
    (k0_pay1 (F := Ideal)) r d).trans ?_
  rw [Payload.pay1_apply, zero_add]
  rfl

/-- At a later hidden step the block ends at what the step before left plus the step's contribution. -/
private theorem acc_later (hO : Ok m) (c : Dev nD) (t : Fin (cfgM m hO).N) (h0 : ¬t.val % 22 = 0) (r : Fin 512)
    (d : Fin 2048) :
    accAfter m hO c t.val t.isLt (ix2 r d)
      = accAfter m hO c (t.val - 1) (Nat.lt_of_le_of_lt (Nat.sub_le _ _) t.isLt) (ix2 r d)
        + stepSum (tokBlk m hO c t) (gateBlk m hO c t) (upBlk m hO c t) (downBlk m hO c t) r d := by
  show (outsAt0 m hO c t.val t.isLt : S512x2048.Idx → EReal) (ix2 r d) = _
  rw [outsAt0_B m hO c t h0]
  rw [out0_B_eq c (grid0.coords t) (ms0_0 m hO t) (hs0_0 m hO t) (ms0_1 m hO t) (hs0_1 m hO t) (ms0_2 m hO t) (hs0_2 m hO t)
    (ms0_3 m hO t) (hs0_3 m hO t) (ms0_4 m hO t) (hs0_4 m hO t) (fun h => h0 ((hcond0_0 t).mp h)) (iblk m hO c 0 t)
    (iblk m hO c 1 t) (iblk m hO c 2 t) (iblk m hO c 3 t) (tbl m 0)
    (outsAt0 m hO c (t.val - 1) (Nat.lt_of_le_of_lt (Nat.sub_le _ _) t.isLt))]
  exact Payload.pay2_apply (tokBlk m hO c t) (gateBlk m hO c t) (upBlk m hO c t) (downBlk m hO c t)
    (accAfter m hO c (t.val - 1) (Nat.lt_of_le_of_lt (Nat.sub_le _ _) t.isLt)) r d

/-! ## The accumulator after each point: a partial sum of the expert's sum -/

/-- The `n`-th summand of the expert `e` applied to row `p` of the padded token table, read in column `d`. -/
private abbrev rowTerm (c : Dev nD) (p : Fin 17408) (e : Fin 2) (d : Fin 2048) (n : ℕ) : EReal :=
  term (fun j => tokArr m c (ix2 p j)) (fun j k => gateArr m c (ix3 e j k)) (fun j k => upArr m c (ix3 e j k))
    (fun k d' => downArr m c (ix3 e k d')) d n

/-- One hidden step's contribution in terms of the arrays: the step's blocks are row `512·(t/22) + r` of the token
    table and the hidden columns `256·(t%22) …` of the tile's expert, so the contribution is the summands
    `256·(t%22) + k`, `k < 256`, of that row's expert sum. -/
private theorem stepSum_eq (hO : Ok m) (c : Dev nD) (t : Fin (cfgM m hO).N) (e : Fin 2) (hj : t.val / 22 < 34)
    (he : ((tbl m 0 : S34.Idx → BitVec 32) (ix1 ⟨t.val / 22, hj⟩)).toNat = e.val) (r : Fin 512) (d : Fin 2048)
    (hp : 512 * (t.val / 22) + r.val < 17408) :
    stepSum (tokBlk m hO c t) (gateBlk m hO c t) (upBlk m hO c t) (downBlk m hO c t) r d
      = ∑ k : Fin 256, rowTerm m c ⟨512 * (t.val / 22) + r.val, hp⟩ e d (256 * (t.val % 22) + k.val) := by
  unfold stepSum
  refine Finset.sum_congr rfl fun k _ => ?_
  have hk : 256 * (t.val % 22) + k.val < 5632 := by
    have := k.isLt
    have := Nat.mod_lt t.val (show 0 < 22 by decide)
    omega
  have e0 : ∀ j : Fin 2048, tokBlk m hO c t (ix2 r j) = tokArr m c (ix2 ⟨512 * (t.val / 22) + r.val, hp⟩ j) :=
    fun j => iblk0_apply m hO c t r j hp
  have e1 : ∀ j : Fin 2048, gateBlk m hO c t (ix3 (0 : Fin 1) j k)
      = gateArr m c (ix3 e j ⟨256 * (t.val % 22) + k.val, hk⟩) := fun j => iblk1_apply m hO c t e hj he j k hk
  have e2 : ∀ j : Fin 2048, upBlk m hO c t (ix3 (0 : Fin 1) j k)
      = upArr m c (ix3 e j ⟨256 * (t.val % 22) + k.val, hk⟩) := fun j => iblk2_apply m hO c t e hj he j k hk
  have e3 : downBlk m hO c t (ix3 (0 : Fin 1) k d) = downArr m c (ix3 e ⟨256 * (t.val % 22) + k.val, hk⟩ d) :=
    iblk3_apply m hO c t e hj he k d hk
  rw [e3, Finset.sum_congr rfl fun j _ => congrArg₂ (· * ·) (e0 j) (e1 j),
    Finset.sum_congr rfl fun j _ => congrArg₂ (· * ·) (e0 j) (e2 j)]
  exact (term_of_lt (fun j => tokArr m c (ix2 ⟨512 * (t.val / 22) + r.val, hp⟩ j)) (fun j k => gateArr m c (ix3 e j k))
    (fun j k => upArr m c (ix3 e j k)) (fun k d' => downArr m c (ix3 e k d')) d (256 * (t.val % 22) + k.val) hk).symm

/-- One point's step of the invariant: given (at a later hidden step) that the point before left the partial sum
    up to the step's first hidden column, the point leaves the partial sum through the step's last. -/
private theorem acc_step (hO : Ok m) (c : Dev nD) (t : Fin (cfgM m hO).N) (e : Fin 2) (hj : t.val / 22 < 34)
    (he : ((tbl m 0 : S34.Idx → BitVec 32) (ix1 ⟨t.val / 22, hj⟩)).toNat = e.val) (r : Fin 512) (d : Fin 2048)
    (hp : 512 * (t.val / 22) + r.val < 17408)
    (ih : ¬t.val % 22 = 0 → accAfter m hO c (t.val - 1) (Nat.lt_of_le_of_lt (Nat.sub_le _ _) t.isLt) (ix2 r d)
      = ∑ i ∈ Finset.range (256 * (t.val % 22)), rowTerm m c ⟨512 * (t.val / 22) + r.val, hp⟩ e d i) :
    accAfter m hO c t.val t.isLt (ix2 r d)
      = ∑ i ∈ Finset.range (256 * (t.val % 22 + 1)), rowTerm m c ⟨512 * (t.val / 22) + r.val, hp⟩ e d i := by
  rw [range_block, ← stepSum_eq m hO c t e hj he r d hp]
  by_cases h0 : t.val % 22 = 0
  · rw [acc_first m hO c t h0 r d, h0, Nat.mul_zero, Finset.range_zero, Finset.sum_empty, zero_add]
  · rw [acc_later m hO c t h0 r d, ih h0]

/-- THE INVARIANT. After point `n` of tile `q = n / 22`, the block's element `(r, d)` is the partial sum, over
    the hidden columns below `256·(n%22 + 1)`, of the tile's expert applied to row `512·q + r` of the token table. -/
private theorem acc_eq (hO : Ok m) (c : Dev nD) (n : ℕ) : ∀ (hn : n < (cfgM m hO).N) (q : ℕ) (_ : n / 22 = q)
    (e : Fin 2) (hj : q < 34) (_ : ((tbl m 0 : S34.Idx → BitVec 32) (ix1 ⟨q, hj⟩)).toNat = e.val) (r : Fin 512)
    (d : Fin 2048) (hp : 512 * q + r.val < 17408),
    accAfter m hO c n hn (ix2 r d)
      = ∑ i ∈ Finset.range (256 * (n % 22 + 1)), rowTerm m c ⟨512 * q + r.val, hp⟩ e d i := by
  induction n with
  | zero =>
    intro hn q hq e hj he r d hp
    subst hq
    exact acc_step m hO c ⟨0, hn⟩ e hj he r d hp (fun h => absurd (Nat.zero_mod 22) h)
  | succ n ih =>
    intro hn q hq e hj he r d hp
    subst hq
    refine acc_step m hO c ⟨n + 1, hn⟩ e hj he r d hp (fun h0 => ?_)
    have h0' : ¬(n + 1) % 22 = 0 := h0
    have hq' : n / 22 = (n + 1) / 22 := by omega
    have hm : (n + 1) % 22 = n % 22 + 1 := by omega
    show accAfter m hO c n _ (ix2 r d) = ∑ i ∈ Finset.range (256 * ((n + 1) % 22)), _
    rw [hm]
    exact ih _ ((n + 1) / 22) hq' e hj he r d hp

/-! ## From the blocks to the array -/

/-- The accumulator depends on the point and the index only through their values. -/
private theorem acc_congr (hO : Ok m) (c : Dev nD) {n n' : ℕ} (h : n = n') (hn : n < (cfgM m hO).N)
    (hn' : n' < (cfgM m hO).N) {i i' : S512x2048.Idx} (hi : i = i') :
    accAfter m hO c n hn i = accAfter m hO c n' hn' i' := by
  subst h; subst hi; rfl

/-- The whole output array, as one function of the index: at row `p` and column `d`, what tile `p / 512`'s block
    holds in row `p % 512` after the tile's last hidden step, point `22·(p/512) + 21`. -/
private def outArr (hO : Ok m) (c : Dev nD) : S17408x2048.Idx → EReal := fun i =>
  accAfter m hO c (22 * ((i 0).val / 512) + 21)
    (by rw [show (cfgM m hO).N = 748 from N_0]; have := idx2_lt0 i; omega)
    (ix2 (⟨(i 0).val % 512, Nat.mod_lt _ (by decide)⟩ : Fin 512) (⟨(i 1).val, idx2_lt1 i⟩ : Fin 2048))

/-- The array at `(p, d)`: the whole sum over the 5632 hidden columns, the tile's expert applied to row `p`. -/
private theorem outArr_apply (hO : Ok m) (c : Dev nD) (p : Fin 17408) (d : Fin 2048) (e : Fin 2)
    (hj : p.val / 512 < 34) (he : ((tbl m 0 : S34.Idx → BitVec 32) (ix1 ⟨p.val / 512, hj⟩)).toNat = e.val) :
    outArr m hO c (ix2 p d)
      = Cert.Moe.rowMlp (fun j => tokArr m c (ix2 p j)) (fun j k => gateArr m c (ix3 e j k))
          (fun j k => upArr m c (ix3 e j k)) (fun k d' => downArr m c (ix3 e k d')) d := by
  have hn : 22 * (p.val / 512) + 21 < (cfgM m hO).N := by
    rw [show (cfgM m hO).N = 748 from N_0]; omega
  have hp : 512 * (p.val / 512) + (⟨p.val % 512, Nat.mod_lt _ (by decide)⟩ : Fin 512).val < 17408 := by
    show 512 * (p.val / 512) + p.val % 512 < 17408
    have := p.isLt; omega
  have hpe : (⟨512 * (p.val / 512) + (⟨p.val % 512, Nat.mod_lt _ (by decide)⟩ : Fin 512).val, hp⟩ : Fin 17408) = p :=
    Fin.ext (by show 512 * (p.val / 512) + p.val % 512 = p.val; omega)
  have h := acc_eq m hO c (22 * (p.val / 512) + 21) hn (p.val / 512) (by omega) e hj he
    (⟨p.val % 512, Nat.mod_lt _ (by decide)⟩ : Fin 512) d hp
  rw [hpe, show 256 * ((22 * (p.val / 512) + 21) % 22 + 1) = 5632 from by omega] at h
  rw [rowMlp_eq_range]
  exact h

/-- Window 4's block index at point `t`: the tile `t / 22`, column block 0. -/
private theorem outIdx : ∀ t : Fin grid0.N,
    cc0_transform_4 (grid0.coords t) 0 = t.val / 22 ∧ cc0_transform_4 (grid0.coords t) 1 = 0 := by
  decide +kernel

/-- An index of a tile's block, placed in the array at `z`, reads there what the block holds after the tile's last
    hidden step. -/
private theorem outArr_block (hO : Ok m) (c : Dev nD) (t : Fin (cfgM m hO).N) (h21 : t.val % 22 = 21)
    (y : S512x2048.Idx) (z : S17408x2048.Idx) (hz0 : (z 0).val = t.val / 22 * 512 + (y 0).val)
    (hz1 : (z 1).val = (y 1).val) :
    accAfter m hO c t.val t.isLt y = outArr m hO c z := by
  have hy0 : (y 0).val < 512 := idx2_lt0 y
  unfold outArr
  refine acc_congr m hO c (by rw [hz0]; omega) _ _ ((eq_ix2 y).trans (congrArg₂ ix2 (Fin.ext ?_) (Fin.ext ?_)))
  · show (y 0).val = (z 0).val % 512
    rw [hz0]; omega
  · show (y 1).val = (z 1).val
    exact hz1.symm

/-- WHAT A WRITE-BACK WRITES: at the last hidden step of a tile the block written back is the tile's block of
    `outArr`. -/
private theorem flushed_eq (hO : Ok m) (c : Dev nD) (t : Fin (cfgM m hO).N)
    (hf : ((cfgM m hO).win 4).flush t = true) :
    (dats m hO 0 c).flushed 4 t = (((cfgM m hO).win 4).blk t).view.read (Elt Ideal) (outArr m hO c) := by
  have h21 : t.val % 22 = 21 := (flush0_4 (adm m hO) t).mp hf
  show ((cfgM m hO).win 4).cut (grid0.coords t) ((dats m hO 0 c).after 4 t) = _
  rw [after0_4]
  refine funext fun (y : S512x2048.Idx) => ?_
  obtain ⟨i0, i1⟩ := outIdx t
  refine outArr_block m hO c t h21 y ((((cfgM m hO).win 4).blk t).view.emb y) ?_ ?_
  · show cc0_transform_4 (grid0.coords t) 0 * 512 + 1 * (y 0).val = t.val / 22 * 512 + (y 0).val
    rw [i0]; omega
  · show cc0_transform_4 (grid0.coords t) 1 * 2048 + 1 * (y 1).val = (y 1).val
    rw [i1]; omega

/-- An index of the array is in point `t`'s block iff each coordinate is in the block's range on its axis. -/
private theorem mem_blk (hO : Ok m) (t : Fin (cfgM m hO).N) (i : S17408x2048.Idx) :
    i ∈ (((cfgM m hO).win 4).blk t).view.set ↔ ∀ a : Fin 2,
      cc0_transform_4 (grid0.coords t) a * S512x2048.size a ≤ (i a).val
        ∧ (i a).val < cc0_transform_4 (grid0.coords t) a * S512x2048.size a + S512x2048.size a := by
  refine Iff.trans (iff_of_eq (congrArg (fun s => i ∈ s)
    (View.set_slice_whole main_v53 (((cfgM m hO).win 4).rect t)))) ?_
  exact Rect.mem_set_unit

/-- The tiles' blocks cover the array: row `p` lies in the block written back at point `22·(p/512) + 21`. -/
private theorem covered (hO : Ok m) (i : S17408x2048.Idx) :
    ∃ t : Fin (cfgM m hO).N, ((cfgM m hO).win 4).flush t = true ∧ i ∈ (((cfgM m hO).win 4).blk t).view.set := by
  have hi0 : (i 0).val < 17408 := idx2_lt0 i
  have hi1 : (i 1).val < 2048 := idx2_lt1 i
  have hn : 22 * ((i 0).val / 512) + 21 < (cfgM m hO).N := by
    rw [show (cfgM m hO).N = 748 from N_0]; omega
  refine ⟨⟨22 * ((i 0).val / 512) + 21, hn⟩, (flush0_4 (adm m hO) _).mpr (by show (22 * ((i 0).val / 512) + 21) % 22 = 21; omega), ?_⟩
  rw [mem_blk]
  obtain ⟨i0, i1⟩ := outIdx ⟨22 * ((i 0).val / 512) + 21, hn⟩
  have q0 : cc0_transform_4 (grid0.coords ⟨22 * ((i 0).val / 512) + 21, hn⟩) 0 = (i 0).val / 512 := by
    rw [i0]; show (22 * ((i 0).val / 512) + 21) / 22 = _; omega
  intro a
  match a with
  | ⟨0, _⟩ =>
    show cc0_transform_4 (grid0.coords ⟨22 * ((i 0).val / 512) + 21, hn⟩) 0 * 512 ≤ (i 0).val
      ∧ (i 0).val < cc0_transform_4 (grid0.coords ⟨22 * ((i 0).val / 512) + 21, hn⟩) 0 * 512 + 512
    rw [q0]; omega
  | ⟨1, _⟩ =>
    show cc0_transform_4 (grid0.coords ⟨22 * ((i 0).val / 512) + 21, hn⟩) 1 * 2048 ≤ (i 1).val
      ∧ (i 1).val < cc0_transform_4 (grid0.coords ⟨22 * ((i 0).val / 512) + 21, hn⟩) 1 * 2048 + 2048
    rw [i1]; omega

/-- THE ARRAY AFTER THE RUN is `outArr`: every write-back writes its block of it, and the blocks cover the array. -/
private theorem final (hO : Ok m) (c : Dev nD) : (dats m hO 0 c).arrAt 4 (cfgM m hO).N = outArr m hO c :=
  (dats m hO 0 c).arrAt_eq_of_cover 4 (outArr m hO c) (fun t hf => flushed_eq m hO c t hf) (covered m hO)

/-- THE KERNEL'S OUTPUT AT `(p, d)`: the expert `e` of tile `p / 512` applied to row `p` of the padded token table. -/
theorem out_apply (hO : Ok m) (c : Dev nD) (p : Fin 17408) (d : Fin 2048) (e : Fin 2) (hj : p.val / 512 < 34)
    (he : ((tbl m 0 : S34.Idx → BitVec 32) (ix1 ⟨p.val / 512, hj⟩)).toNat = e.val) :
    ((dats m hO 0 c).arrAt 4 (cfgM m hO).N : S17408x2048.Idx → EReal) (ix2 p d)
      = Cert.Moe.rowMlp (fun j => (V m c main_v40 : S17408x2048.Idx → EReal) (ix2 p j))
          (fun j k => (V m c main_v44 : S2x2048x5632.Idx → EReal) (ix3 e j k))
          (fun j k => (V m c main_v48 : S2x2048x5632.Idx → EReal) (ix3 e j k))
          (fun k d' => (V m c main_v52 : S2x5632x2048.Idx → EReal) (ix3 e k d')) d := by
  rw [final m hO c]
  exact outArr_apply m hO c p d e hj he

end Cert.KernelIdeal.KValue

end
-- ==== Proof.MoeLayer.lean ====
/-
  The layer as one function of its eight arguments, index by index: token `(b, l)` takes the second expert when its
  mask bit is set and the first otherwise.
-/
import proofs.«412017_j84739704750514_3_alg».proof.Proof.MoeSpec

noncomputable section

namespace Cert.Moe

open Idealize.ShloMosaic Idealize.ShloMosaic.ValueIdx

abbrev T4x4096x2048 : Shape := ⟨3, ![4, 4096, 2048]⟩
abbrev T4x4096 : Shape := ⟨2, ![4, 4096]⟩
abbrev T2048x5632 : Shape := ⟨2, ![2048, 5632]⟩
abbrev T5632x2048 : Shape := ⟨2, ![5632, 2048]⟩

/-- The routed two-expert layer: arguments in the programs' order (tokens, mask, first expert's gate / up / down,
    second expert's gate / up / down). -/
def layer (x0 : T4x4096x2048.Idx → EReal) (x1 : T4x4096.Idx → BitVec 1) (x2 x3 : T2048x5632.Idx → EReal)
    (x4 : T5632x2048.Idx → EReal) (x5 x6 : T2048x5632.Idx → EReal) (x7 : T5632x2048.Idx → EReal) :
    T4x4096x2048.Idx → EReal := fun i =>
  if x1 (ix2 (i 0) (i 1)) = 1#1
  then rowMlp (fun j => x0 (ix3 (i 0) (i 1) j)) (fun j k => x5 (ix2 j k)) (fun j k => x6 (ix2 j k)) (fun k d' => x7 (ix2 k d')) (i 2)
  else rowMlp (fun j => x0 (ix3 (i 0) (i 1) j)) (fun j k => x2 (ix2 j k)) (fun j k => x3 (ix2 j k)) (fun k d' => x4 (ix2 k d')) (i 2)

end Cert.Moe

end
-- ==== Proof.Bridge.lean ====
/-
  The kernel program's result is the layer: element `(b, l, d)` of the result is the output array at the token's
  destination row; that row's tile belongs to the expert the token's mask bit names; the output array's row is
  that expert applied to the padded table's row, which is the token's own row; and the stacked weights at that
  expert's leading index are that expert's matrices.
-/
import proofs.«412017_j84739704750514_3_alg».proof.Proof.TailRead
import proofs.«412017_j84739704750514_3_alg».proof.Proof.KernelValue
import proofs.«412017_j84739704750514_3_alg».proof.Proof.KernelIdealOk
import proofs.«412017_j84739704750514_3_alg».proof.Proof.MoeLayer

set_option maxRecDepth 16384

noncomputable section

namespace Cert.KernelIdeal.Bridge

open Cert.KernelIdeal Cert.KernelIdeal.Gen Cert.KernelIdeal.GenP Cert.KernelIdeal.HostRead Cert.KernelIdeal.HostIndex
open Idealize.ShloMosaic Idealize.ShloMosaic.TcCoe Idealize.SL.Sem Idealize.ShloMosaic.ValueIdx

variable (m : (ℓ : Loc nD τ sig) → Buf (Elt Ideal) ℓ)

/-- The layer of the launch memory's argument arrays on device `c`. -/
def layerOf (c : Dev nD) : S4x4096x2048.Idx → EReal :=
  Cert.Moe.layer (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- A token's mask bit as a number is 1 exactly when its mask word is set. -/
theorem bit_tok (c : Dev nD) (b : Fin 4) (l : Fin 4096) :
    Cert.Moe.Route.bit (maskFlat m c) (tok b l).val
      = if (m ((c : Thread nD τ).loc main_arg1) : S4x4096.Idx → BitVec 1) (ix2 b l) = 1#1 then 1 else 0 := by
  unfold Cert.Moe.Route.bit
  rw [dif_pos (tok b l).isLt]
  have h : (⟨(tok b l).val, (tok b l).isLt⟩ : Fin 16384) = tok b l := rfl
  rw [h, maskFlat_apply]

/-- THE KERNEL PROGRAM'S RESULT is the layer. -/
theorem result_eq (hO : Ok m) (c : Dev nD) :
    (Pipeline.afterTail pcfgs (fun _ => adm m hO) (dats m hO) 0 (V0 m) [hostOps1] c main_v61 : S4x4096x2048.Idx → EReal)
      = layerOf m c := by
  funext i
  obtain ⟨b, l, d, rfl⟩ : ∃ (b : Fin 4) (l : Fin 4096) (d : Fin 2048), i = ix3 b l d := ⟨i 0, i 1, i 2, eq_ix3 i⟩
  have hc : c = 0 := Subsingleton.elim _ _
  have hp : (dest m c (tok b l)).val / 512 < 34 := by have := (dest m c (tok b l)).isLt; omega
  -- the tile's expert is the token's mask bit
  have hbit : Cert.Moe.Route.bit (maskFlat m c) (tok b l).val < 2 := by rw [bit_tok]; split <;> omega
  have he : ((tbl m 0 : S34.Idx → BitVec 32) (ix1 ⟨(dest m c (tok b l)).val / 512, hp⟩)).toNat
      = (⟨Cert.Moe.Route.bit (maskFlat m c) (tok b l).val, hbit⟩ : Fin 2).val := by
    rw [Cert.KernelIdeal.HostRead.tbl_eq, ← hc]
    exact Cert.Moe.Route.etab_posN (maskFlat m c) (tok b l) ⟨(dest m c (tok b l)).val / 512, hp⟩ rfl
  rw [Cert.KernelIdeal.TailRead.tail_apply m hO c b l d,
    Cert.KernelIdeal.KValue.out_apply m hO c (dest m c (tok b l)) d ⟨_, hbit⟩ hp he]
  rw [show (fun j => (V m c main_v40 : S17408x2048.Idx → EReal) (ix2 (dest m c (tok b l)) j))
      = (fun j => (m ((c : Thread nD τ).loc main_arg0) : S4x4096x2048.Idx → EReal) (ix3 b l j)) from funext (X_row m c b l)]
  have hlay : layerOf m c (ix3 b l d)
      = if (m ((c : Thread nD τ).loc main_arg1) : S4x4096.Idx → BitVec 1) (ix2 b l) = 1#1
        then Cert.Moe.rowMlp (fun j => (m ((c : Thread nD τ).loc main_arg0) : S4x4096x2048.Idx → EReal) (ix3 b l j))
          (fun j k => (m ((c : Thread nD τ).loc main_arg5) : S2048x5632.Idx → EReal) (ix2 j k))
          (fun j k => (m ((c : Thread nD τ).loc main_arg6) : S2048x5632.Idx → EReal) (ix2 j k))
          (fun k d' => (m ((c : Thread nD τ).loc main_arg7) : S5632x2048.Idx → EReal) (ix2 k d')) d
        else Cert.Moe.rowMlp (fun j => (m ((c : Thread nD τ).loc main_arg0) : S4x4096x2048.Idx → EReal) (ix3 b l j))
          (fun j k => (m ((c : Thread nD τ).loc main_arg2) : S2048x5632.Idx → EReal) (ix2 j k))
          (fun j k => (m ((c : Thread nD τ).loc main_arg3) : S2048x5632.Idx → EReal) (ix2 j k))
          (fun k d' => (m ((c : Thread nD τ).loc main_arg4) : S5632x2048.Idx → EReal) (ix2 k d')) d := rfl
  rw [hlay]
  by_cases hm : (m ((c : Thread nD τ).loc main_arg1) : S4x4096.Idx → BitVec 1) (ix2 b l) = 1#1
  · -- a token of the second kind: its tile's expert is 1
    have he1 : (⟨Cert.Moe.Route.bit (maskFlat m c) (tok b l).val, hbit⟩ : Fin 2) = (1 : Fin 2) :=
      Fin.ext (show Cert.Moe.Route.bit (maskFlat m c) (tok b l).val = 1 by rw [bit_tok, if_pos hm])
    rw [he1, if_pos hm]
    rw [show (fun j k => (V m c main_v44 : S2x2048x5632.Idx → EReal) (ix3 (1 : Fin 2) j k))
        = (fun j k => (m ((c : Thread nD τ).loc main_arg5) : S2048x5632.Idx → EReal) (ix2 j k))
        from funext fun j => funext fun k => (WG_apply m c 1 j k).trans (if_neg (by decide)),
      show (fun j k => (V m c main_v48 : S2x2048x5632.Idx → EReal) (ix3 (1 : Fin 2) j k))
        = (fun j k => (m ((c : Thread nD τ).loc main_arg6) : S2048x5632.Idx → EReal) (ix2 j k))
        from funext fun j => funext fun k => (WU_apply m c 1 j k).trans (if_neg (by decide)),
      show (fun k d' => (V m c main_v52 : S2x5632x2048.Idx → EReal) (ix3 (1 : Fin 2) k d'))
        = (fun k d' => (m ((c : Thread nD τ).loc main_arg7) : S5632x2048.Idx → EReal) (ix2 k d'))
        from funext fun k => funext fun d' => (WD_apply m c 1 k d').trans (if_neg (by decide))]
  · -- a token of the first kind: its tile's expert is 0
    have he0 : (⟨Cert.Moe.Route.bit (maskFlat m c) (tok b l).val, hbit⟩ : Fin 2) = (0 : Fin 2) :=
      Fin.ext (show Cert.Moe.Route.bit (maskFlat m c) (tok b l).val = 0 by rw [bit_tok, if_neg hm])
    rw [he0, if_neg hm]
    rw [show (fun j k => (V m c main_v44 : S2x2048x5632.Idx → EReal) (ix3 (0 : Fin 2) j k))
        = (fun j k => (m ((c : Thread nD τ).loc main_arg2) : S2048x5632.Idx → EReal) (ix2 j k))
        from funext fun j => funext fun k => (WG_apply m c 0 j k).trans (if_pos rfl),
      show (fun j k => (V m c main_v48 : S2x2048x5632.Idx → EReal) (ix3 (0 : Fin 2) j k))
        = (fun j k => (m ((c : Thread nD τ).loc main_arg3) : S2048x5632.Idx → EReal) (ix2 j k))
        from funext fun j => funext fun k => (WU_apply m c 0 j k).trans (if_pos rfl),
      show (fun k d' => (V m c main_v52 : S2x5632x2048.Idx → EReal) (ix3 (0 : Fin 2) k d'))
        = (fun k d' => (m ((c : Thread nD τ).loc main_arg4) : S5632x2048.Idx → EReal) (ix2 k d'))
        from funext fun k => funext fun d' => (WD_apply m c 0 k d').trans (if_pos rfl)]

end Cert.KernelIdeal.Bridge

end
-- ==== Proof.RefValue.lean ====
/-
  The reference program's result, read at one index: for token `(b, l)` and output column `d` it is the second
  expert's output when the token's mask bit is set and the first expert's otherwise, each expert being
  `∑ k, (silu (x · gate[:, k]) · (x · up[:, k])) · down[k, d]` over the extended reals, with
  `silu z = z · (1 / (1 + e^(−z)))` spelt by the host as a negation, an exponential, a sum and a quotient.
-/
import proofs.«412017_j84739704750514_3_alg».proof.Proof.Gen.ReferenceIdeal.Read
import proofs.«412017_j84739704750514_3_alg».proof.Proof.MoeSpec

noncomputable section

open scoped BigOperators

namespace Cert.ReferenceIdeal.RefValue

open Cert.ReferenceIdeal Idealize.ShloMosaic Idealize.ShloMosaic.ValueIdx

/-- The 32-bit pattern `0x3F800000` is the number one. -/
private theorem one_f32 : Ideal.ofBits .f32 0x3F800000#32 = 1 := by
  simp [Ideal.ofBits, Ideal.ieee, -EReal.coe_mul]; norm_num

/-- The host's spelling of `silu`: `z · (1 / (1 + e^(−z)))` with both ones given as bit patterns. It is
    `z · logistic z` because `logistic z` is `1 / (1 + e^(−z))` by definition. -/
private theorem host_silu (z : EReal) :
    z * Ideal.div (Ideal.ofBits .f32 0x3F800000#32) (Ideal.ofBits .f32 0x3F800000#32 + Ideal.exp (-z))
      = Cert.Moe.silu z := by
  rw [one_f32]; rfl

/-! The index functions of the contractions, at an index given by its coordinates. The two up-projections of an
    expert contract the token tensor's last axis with a weight matrix's first: at `(b, l, k)` the left operand is read
    at `(b, l, j)` and the right at `(j, k)`. The down-projection contracts the hidden axis: at `(b, l, d)` the left
    operand is read at `(b, l, k)` and the right at `(k, d)`. -/

private theorem lidx_v0 (b : Fin 4) (l : Fin 4096) (k : Fin 5632) (j : Fin 2048) :
    Read.lidx_main_v0 (ix3 b l k) j = ix3 b l j :=
  funext fun a => by match a with | ⟨0, _⟩ => rfl | ⟨1, _⟩ => rfl | ⟨2, _⟩ => rfl
private theorem ridx_v0 (b : Fin 4) (l : Fin 4096) (k : Fin 5632) (j : Fin 2048) :
    Read.ridx_main_v0 (ix3 b l k) j = ix2 j k :=
  funext fun a => by match a with | ⟨0, _⟩ => rfl | ⟨1, _⟩ => rfl

private theorem lidx_v2 (b : Fin 4) (l : Fin 4096) (k : Fin 5632) (j : Fin 2048) :
    Read.lidx_main_v2 (ix3 b l k) j = ix3 b l j :=
  funext fun a => by match a with | ⟨0, _⟩ => rfl | ⟨1, _⟩ => rfl | ⟨2, _⟩ => rfl
private theorem ridx_v2 (b : Fin 4) (l : Fin 4096) (k : Fin 5632) (j : Fin 2048) :
    Read.ridx_main_v2 (ix3 b l k) j = ix2 j k :=
  funext fun a => by match a with | ⟨0, _⟩ => rfl | ⟨1, _⟩ => rfl

private theorem lidx_v5 (b : Fin 4) (l : Fin 4096) (k : Fin 5632) (j : Fin 2048) :
    Read.lidx_main_v5 (ix3 b l k) j = ix3 b l j :=
  funext fun a => by match a with | ⟨0, _⟩ => rfl | ⟨1, _⟩ => rfl | ⟨2, _⟩ => rfl
private theorem ridx_v5 (b : Fin 4) (l : Fin 4096) (k : Fin 5632) (j : Fin 2048) :
    Read.ridx_main_v5 (ix3 b l k) j = ix2 j k :=
  funext fun a => by match a with | ⟨0, _⟩ => rfl | ⟨1, _⟩ => rfl

private theorem lidx_v7 (b : Fin 4) (l : Fin 4096) (k : Fin 5632) (j : Fin 2048) :
    Read.lidx_main_v7 (ix3 b l k) j = ix3 b l j :=
  funext fun a => by match a with | ⟨0, _⟩ => rfl | ⟨1, _⟩ => rfl | ⟨2, _⟩ => rfl
private theorem ridx_v7 (b : Fin 4) (l : Fin 4096) (k : Fin 5632) (j : Fin 2048) :
    Read.ridx_main_v7 (ix3 b l k) j = ix2 j k :=
  funext fun a => by match a with | ⟨0, _⟩ => rfl | ⟨1, _⟩ => rfl

private theorem lidx_v4 (b : Fin 4) (l : Fin 4096) (d : Fin 2048) (k : Fin 5632) :
    Read.lidx_main_v4 (ix3 b l d) k = ix3 b l k :=
  funext fun a => by match a with | ⟨0, _⟩ => rfl | ⟨1, _⟩ => rfl | ⟨2, _⟩ => rfl
private theorem ridx_v4 (b : Fin 4) (l : Fin 4096) (d : Fin 2048) (k : Fin 5632) :
    Read.ridx_main_v4 (ix3 b l d) k = ix2 k d :=
  funext fun a => by match a with | ⟨0, _⟩ => rfl | ⟨1, _⟩ => rfl

private theorem lidx_v9 (b : Fin 4) (l : Fin 4096) (d : Fin 2048) (k : Fin 5632) :
    Read.lidx_main_v9 (ix3 b l d) k = ix3 b l k :=
  funext fun a => by match a with | ⟨0, _⟩ => rfl | ⟨1, _⟩ => rfl | ⟨2, _⟩ => rfl
private theorem ridx_v9 (b : Fin 4) (l : Fin 4096) (d : Fin 2048) (k : Fin 5632) :
    Read.ridx_main_v9 (ix3 b l d) k = ix2 k d :=
  funext fun a => by match a with | ⟨0, _⟩ => rfl | ⟨1, _⟩ => rfl

/-- The mask's two broadcasts read the mask at the token: `(b, l, d) ↦ (b, l, 0) ↦ (b, l)`. -/
private theorem idx_mask (b : Fin 4) (l : Fin 4096) (d : Fin 2048) :
    Read.idx_main_v10 (Read.idx_main_call2_v0 (ix3 b l d)) = ix2 b l :=
  funext fun a => by match a with | ⟨0, _⟩ => rfl | ⟨1, _⟩ => rfl

/-- The first expert's hidden activation at token `(b, l)`, hidden column `k`: the product of the gate projection,
    its logistic (spelt as a quotient) and the up projection. -/
private theorem v3_at (x0 : (⟨S4x4096x2048, .f32⟩ : BufTy).Contents (Elt Ideal))
    (x2 x3 : (⟨S2048x5632, .f32⟩ : BufTy).Contents (Elt Ideal)) (b : Fin 4) (l : Fin 4096) (k : Fin 5632) :
    Read.val_main_v3 (F := Ideal) x0 x2 x3 (ix3 b l k)
      = Cert.Moe.hidden (fun j => x0 (ix3 b l j)) (fun j k => x2 (ix2 j k)) (fun j k => x3 (ix2 j k)) k := by
  rw [Read.val_main_v3_apply, Read.val_main_v1_apply, Read.val_main_call0_v5_apply, Read.val_main_call0_v4_apply,
    Read.val_main_call0_cst_0_apply, Read.val_main_call0_v3_apply, Read.val_main_call0_v2_apply,
    Read.val_main_call0_cst_apply, Read.val_main_call0_v1_apply, Read.val_main_call0_v0_apply,
    Read.val_main_v0_apply, Read.val_main_v2_apply]
  simp only [lidx_v0, ridx_v0, lidx_v2, ridx_v2]
  simp only [Ideal.mulf_def, Ideal.addf_def, Ideal.hostDivf_def, Ideal.hostUnary_exp_def, Ideal.hostNegf_def,
    Ideal.negf_def, Ideal.ofBits_def]
  rw [host_silu]
  rfl

/-- The second expert's hidden activation at token `(b, l)`, hidden column `k`: the product of the gate projection,
    its logistic (spelt as a quotient) and the up projection. -/
private theorem v8_at (x0 : (⟨S4x4096x2048, .f32⟩ : BufTy).Contents (Elt Ideal))
    (x5 x6 : (⟨S2048x5632, .f32⟩ : BufTy).Contents (Elt Ideal)) (b : Fin 4) (l : Fin 4096) (k : Fin 5632) :
    Read.val_main_v8 (F := Ideal) x0 x5 x6 (ix3 b l k)
      = Cert.Moe.hidden (fun j => x0 (ix3 b l j)) (fun j k => x5 (ix2 j k)) (fun j k => x6 (ix2 j k)) k := by
  rw [Read.val_main_v8_apply, Read.val_main_v6_apply, Read.val_main_call1_v5_apply, Read.val_main_call1_v4_apply,
    Read.val_main_call1_cst_0_apply, Read.val_main_call1_v3_apply, Read.val_main_call1_v2_apply,
    Read.val_main_call1_cst_apply, Read.val_main_call1_v1_apply, Read.val_main_call1_v0_apply,
    Read.val_main_v5_apply, Read.val_main_v7_apply]
  simp only [lidx_v5, ridx_v5, lidx_v7, ridx_v7]
  simp only [Ideal.mulf_def, Ideal.addf_def, Ideal.hostDivf_def, Ideal.hostUnary_exp_def, Ideal.hostNegf_def,
    Ideal.negf_def, Ideal.ofBits_def]
  rw [host_silu]
  rfl

/-- The first expert's output at `(b, l, d)`. -/
private theorem v4_at (x0 : (⟨S4x4096x2048, .f32⟩ : BufTy).Contents (Elt Ideal))
    (x2 x3 : (⟨S2048x5632, .f32⟩ : BufTy).Contents (Elt Ideal)) (x4 : (⟨S5632x2048, .f32⟩ : BufTy).Contents (Elt Ideal))
    (b : Fin 4) (l : Fin 4096) (d : Fin 2048) :
    Read.val_main_v4 (F := Ideal) x0 x2 x3 x4 (ix3 b l d)
      = Cert.Moe.rowMlp (fun j => x0 (ix3 b l j)) (fun j k => x2 (ix2 j k)) (fun j k => x3 (ix2 j k)) (fun k d' => x4 (ix2 k d')) d := by
  rw [Read.val_main_v4_apply]
  simp only [lidx_v4, ridx_v4, v3_at]
  rfl

/-- The second expert's output at `(b, l, d)`. -/
private theorem v9_at (x0 : (⟨S4x4096x2048, .f32⟩ : BufTy).Contents (Elt Ideal))
    (x5 x6 : (⟨S2048x5632, .f32⟩ : BufTy).Contents (Elt Ideal)) (x7 : (⟨S5632x2048, .f32⟩ : BufTy).Contents (Elt Ideal))
    (b : Fin 4) (l : Fin 4096) (d : Fin 2048) :
    Read.val_main_v9 (F := Ideal) x0 x5 x6 x7 (ix3 b l d)
      = Cert.Moe.rowMlp (fun j => x0 (ix3 b l j)) (fun j k => x5 (ix2 j k)) (fun j k => x6 (ix2 j k)) (fun k d' => x7 (ix2 k d')) d := by
  rw [Read.val_main_v9_apply]
  simp only [lidx_v9, ridx_v9, v8_at]
  rfl

/-- THE REFERENCE AT `(b, l, d)`: a per-token choice between the two experts' outputs. -/
theorem ref_apply (x0 : (⟨S4x4096x2048, .f32⟩ : BufTy).Contents (Elt Ideal)) (x1 : (⟨S4x4096, .i1⟩ : BufTy).Contents (Elt Ideal))
    (x2 x3 : (⟨S2048x5632, .f32⟩ : BufTy).Contents (Elt Ideal)) (x4 : (⟨S5632x2048, .f32⟩ : BufTy).Contents (Elt Ideal))
    (x5 x6 : (⟨S2048x5632, .f32⟩ : BufTy).Contents (Elt Ideal)) (x7 : (⟨S5632x2048, .f32⟩ : BufTy).Contents (Elt Ideal))
    (b : Fin 4) (l : Fin 4096) (d : Fin 2048) :
    Cert.ReferenceIdeal.Read.val_main_v11 (F := Ideal) x0 x1 x2 x3 x4 x5 x6 x7 (ix3 b l d)
      = if x1 (ix2 b l) = 1#1
        then Cert.Moe.rowMlp (fun j => x0 (ix3 b l j)) (fun j k => x5 (ix2 j k)) (fun j k => x6 (ix2 j k)) (fun k d' => x7 (ix2 k d')) d
        else Cert.Moe.rowMlp (fun j => x0 (ix3 b l j)) (fun j k => x2 (ix2 j k)) (fun j k => x3 (ix2 j k)) (fun k d' => x4 (ix2 k d')) d := by
  rw [Read.val_main_v11_apply, Read.val_main_call2_v0_apply, Read.val_main_v10_apply, idx_mask, v9_at, v4_at]
  rfl

end Cert.ReferenceIdeal.RefValue

end
-- ==== Proof.lean ====
/-
  The certificate of the routed two-expert feed-forward kernel against its dense reference.

  The kernel groups the tokens by expert: from the boolean mask the host computes each token's rank within its
  expert's group, pads each group to a multiple of the 512-row tile, scatters the token rows to their destination rows
  of a zero table, and tabulates each tile's expert; the pallas_call applies, tile by tile and in 22 steps of 256
  hidden columns, the tile's expert (two matrix products, silu, a product, a third matrix product accumulated in the
  output block); the host gathers each token's row back. The reference applies both experts to every token and selects
  by the mask. Over the extended reals the two agree: destinations are distinct rows inside the table, a token's tile
  belongs to the expert its mask bit names, the 22 partial sums regroup the sum over all 5632 hidden columns, a matrix
  product into a zero accumulator is a plain sum of products, the logistic function is one function however spelt,
  and a change of float format is the identity. No operation was rewritten by the ideal pass, so `preserves` is
  `True`. The frames hold for every launch memory: the tile table's words are 0 or 1 whatever the mask.
-/
import proofs.«412017_j84739704750514_3_alg».proof.Defs
import proofs.«412017_j84739704750514_3_alg».proof.Proof.Gen.Kernel
import proofs.«412017_j84739704750514_3_alg».proof.Proof.Gen.KernelIdeal
import proofs.«412017_j84739704750514_3_alg».proof.Proof.Gen.ReferenceIdeal
import proofs.«412017_j84739704750514_3_alg».proof.Proof.Gen.ReferenceIdeal.Run
import proofs.«412017_j84739704750514_3_alg».proof.Proof.Gen.ReferenceIdeal.Read
import proofs.«412017_j84739704750514_3_alg».proof.Proof.Gen.Pre_finite_inputs
import proofs.«412017_j84739704750514_3_alg».proof.Proof.KernelFrameP
import proofs.«412017_j84739704750514_3_alg».proof.Proof.KernelIdealFrameP
import proofs.«412017_j84739704750514_3_alg».proof.Proof.KernelOk
import proofs.«412017_j84739704750514_3_alg».proof.Proof.KernelIdealOk
import proofs.«412017_j84739704750514_3_alg».proof.Proof.Bridge
import proofs.«412017_j84739704750514_3_alg».proof.Proof.RefValue
import Idealize.ShloMosaic.Adequacy
import Idealize.ShloMosaic.Init

set_option maxRecDepth 16384

noncomputable section

open Idealize.ShloMosaic Idealize.ShloMosaic.TcCoe Idealize.SL.Sem Idealize.ShloMosaic.ValueIdx

/-! ## The reference's result is the layer -/

namespace Cert.ReferenceIdeal.RefLayer

open Cert.ReferenceIdeal

/-- The reference's last stage, as a function of the eight arguments, is the layer. -/
theorem ref_eq (x0 : (⟨S4x4096x2048, .f32⟩ : BufTy).Contents (Elt Ideal)) (x1 : (⟨S4x4096, .i1⟩ : BufTy).Contents (Elt Ideal))
    (x2 x3 : (⟨S2048x5632, .f32⟩ : BufTy).Contents (Elt Ideal)) (x4 : (⟨S5632x2048, .f32⟩ : BufTy).Contents (Elt Ideal))
    (x5 x6 : (⟨S2048x5632, .f32⟩ : BufTy).Contents (Elt Ideal)) (x7 : (⟨S5632x2048, .f32⟩ : BufTy).Contents (Elt Ideal)) :
    Cert.ReferenceIdeal.Read.val_main_v11 (F := Ideal) x0 x1 x2 x3 x4 x5 x6 x7 = Cert.Moe.layer x0 x1 x2 x3 x4 x5 x6 x7 := by
  funext i
  obtain ⟨b, l, d, rfl⟩ : ∃ (b : Fin 4) (l : Fin 4096) (d : Fin 2048), i = ix3 b l d := ⟨i 0, i 1, i 2, eq_ix3 i⟩
  rw [Cert.ReferenceIdeal.RefValue.ref_apply]
  rfl

end Cert.ReferenceIdeal.RefLayer

/-! ## The claims -/

namespace Cert.Proof

open Cert.KernelIdeal Cert.KernelIdeal.Gen Cert.KernelIdeal.GenP

/-- The word-level kernel runs and keeps its arguments: the generated frame, its side condition holding always. -/
theorem frame_k : Cert.frame_Kernel := fun m ρ _ => Cert.Kernel.GenP.frame m ρ (Cert.Kernel.OkOfTable.ok m)

/-- The same of the idealized kernel. -/
theorem frame_ki : Cert.frame_KernelIdeal := fun m ρ _ => Cert.KernelIdeal.GenP.frame m ρ (Cert.KernelIdeal.OkOfTable.ok m)

/-- The reference's frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel's run with its result named: the layer of the launch memory's arguments. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v61) = Cert.KernelIdeal.Bridge.layerOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  have hO : Ok m := Cert.KernelIdeal.OkOfTable.ok m
  (θ_run defs _ _).mono (fun _ h c =>
    ⟨((h c).2 main_v61 (by decide : main_v61 ∈ Pipeline.restRefs sig spec0)).trans (Cert.KernelIdeal.Bridge.result_eq m hO c),
      ((h c).2 main_arg0 (by decide : main_arg0 ∈ Pipeline.restRefs sig spec0)).trans (W_main_arg0 m hO (dats m hO) c),
      ((h c).2 main_arg1 (by decide : main_arg1 ∈ Pipeline.restRefs sig spec0)).trans (W_main_arg1 m hO (dats m hO) c),
      ((h c).2 main_arg2 (by decide : main_arg2 ∈ Pipeline.restRefs sig spec0)).trans (W_main_arg2 m hO (dats m hO) c),
      ((h c).2 main_arg3 (by decide : main_arg3 ∈ Pipeline.restRefs sig spec0)).trans (W_main_arg3 m hO (dats m hO) c),
      ((h c).2 main_arg4 (by decide : main_arg4 ∈ Pipeline.restRefs sig spec0)).trans (W_main_arg4 m hO (dats m hO) c),
      ((h c).2 main_arg5 (by decide : main_arg5 ∈ Pipeline.restRefs sig spec0)).trans (W_main_arg5 m hO (dats m hO) c),
      ((h c).2 main_arg6 (by decide : main_arg6 ∈ Pipeline.restRefs sig spec0)).trans (W_main_arg6 m hO (dats m hO) c),
      ((h c).2 main_arg7 (by decide : main_arg7 ∈ Pipeline.restRefs sig spec0)).trans (W_main_arg7 m hO (dats m hO) c)⟩)
    (run_main m ρ hO)

/-- Both programs end at the layer of the (agreeing) arguments. -/
theorem algebraic : Cert.algebraic_KernelIdeal_ReferenceIdeal := by
  intro m ρ m' ρ' _ hagree
  refine ⟨fun c => Cert.KernelIdeal.Bridge.layerOf m c, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefLayer.ref_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
